-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64x64 : Shape := ⟨2, ![64, 64]⟩
abbrev S64x1 : Shape := ⟨2, ![64, 1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn {F : FTy → Type} [FloatOps F] (main_arg0 : FVec F S64x256x56x56 .f32) (main_arg1 : FVec F S64x64 .f32) (main_arg2 : FVec F S64x1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  main_v13
-- ==== Kernel.lean ====
abbrev S64x256x56x56 : Shape := ⟨4, ![64, 256, 56, 56]⟩
abbrev S64x64 : Shape := ⟨2, ![64, 64]⟩
abbrev S64x1 : Shape := ⟨2, ![64, 1]⟩
abbrev S256x64x3136 : Shape := ⟨3, ![256, 64, 3136]⟩
abbrev S2x64x1 : Shape := ⟨3, ![2, 64, 1]⟩
abbrev S2x64x64 : Shape := ⟨3, ![2, 64, 64]⟩
abbrev S16x64x3136 : Shape := ⟨3, ![16, 64, 3136]⟩
abbrev S1x64x1 : Shape := ⟨3, ![1, 64, 1]⟩
abbrev S1x64x64 : Shape := ⟨3, ![1, 64, 64]⟩
abbrev S1x64x3136 : Shape := ⟨3, ![1, 64, 3136]⟩
abbrev S64x3136 : Shape := ⟨2, ![64, 3136]⟩
abbrev S64 : Shape := ⟨1, ![64]⟩
abbrev S_ : Shape := ⟨0, ![]⟩
abbrev S1x64 : Shape := ⟨2, ![1, 64]⟩
abbrev S8x64x3136 : Shape := ⟨3, ![8, 64, 3136]⟩

abbrev nBuf : Space → Nat
  | .hbm => 151
  | .vmem => 12
  | .smem => 0
  | _ => 0

abbrev hbmTy0_0 (i : Nat) : BufTy := match i % 128 with
  | 0 => ⟨S64x256x56x56, .f32⟩
  | 1 => ⟨S64x64, .f32⟩
  | 2 => ⟨S64x1, .f32⟩
  | 3 => ⟨S256x64x3136, .f32⟩
  | 4 => ⟨S2x64x1, .f32⟩
  | 5 => ⟨S2x64x64, .f32⟩
  | 6 => ⟨S_, .f32⟩
  | 7 => ⟨S64x1, .f32⟩
  | 8 => ⟨S_, .f32⟩
  | 9 => ⟨S64x64, .f32⟩
  | 10 => ⟨S_, .f32⟩
  | 11 => ⟨S64x1, .f32⟩
  | 12 => ⟨S64x1, .f32⟩
  | 13 => ⟨S_, .f32⟩
  | 14 => ⟨S64x64, .f32⟩
  | 15 => ⟨S64x64, .f32⟩
  | 16 => ⟨S1x64, .f32⟩
  | 17 => ⟨S64x64, .f32⟩
  | 18 => ⟨S64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S_, .f32⟩
  | 33 => ⟨S_, .f32⟩
  | 34 => ⟨S64x64, .f32⟩
  | 35 => ⟨S64x64, .f32⟩
  | 36 => ⟨S64x64, .i32⟩
  | 37 => ⟨S64x64, .i32⟩
  | 38 => ⟨S_, .i32⟩
  | 39 => ⟨S64x64, .i32⟩
  | 40 => ⟨S64x64, .i32⟩
  | 41 => ⟨S64x64, .i1⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S64x256x56x56, .f32⟩

abbrev hbmTy0_1 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x1, .f32⟩
  | 20 => ⟨S64x1, .f32⟩
  | 21 => ⟨S256x64x3136, .f32⟩
  | 22 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | .local _ .vmem, ⟨0, _⟩ => ⟨S16x64x3136, .f32⟩
  | .local _ .vmem, ⟨1, _⟩ => ⟨S16x64x3136, .f32⟩
  | .local _ .vmem, ⟨2, _⟩ => ⟨S1x64x1, .f32⟩
  | .local _ .vmem, ⟨3, _⟩ => ⟨S1x64x1, .f32⟩
  | .local _ .vmem, ⟨4, _⟩ => ⟨S1x64x64, .f32⟩
  | .local _ .vmem, ⟨5, _⟩ => ⟨S1x64x64, .f32⟩
  | .local _ .vmem, ⟨6, _⟩ => ⟨S8x64x3136, .f32⟩
  | .local _ .vmem, ⟨7, _⟩ => ⟨S8x64x3136, .f32⟩
  | .local _ .vmem, ⟨8, _⟩ => ⟨S64x64, .f32⟩
  | .local _ .vmem, ⟨9, _⟩ => ⟨S64x1, .f32⟩
  | .local _ .vmem, ⟨10, _⟩ => ⟨S8x64x3136, .f32⟩
  | .local _ .vmem, ⟨11, _⟩ => ⟨S8x64x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_22 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_23 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_24 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg5 : BitVec 32 := Scf.iv c0_i32_1 c1_i32 k0_t1
  let v4 : Index := Scalar.indexCast arg5
  let c0 : Index := 0#32
  let c0_3 : Index := 0#32
  ![v4.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

@[reducible] def k1_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k1_off1 (k1_t1 : Fin k1_t1_loop.trips) : Fin 3 → Nat :=
  let c0_i32 : BitVec 32 := 0#32
  let c1_i32 : BitVec 32 := 1#32
  let arg5 : BitVec 32 := Scf.iv c0_i32 c1_i32 k1_t1
  let v5 : Index := Scalar.indexCast arg5
  let c0_4 : Index := 0#32
  let c0_5 : Index := 0#32
  ![v5.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x64x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x64x3136 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x256x56x56_S256x64x3136 : S64x256x56x56.ShapeCasts S256x64x3136
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  h_S1x64x3136 : 0 < S1x64x3136.numel
  shapeCasts_S1x64x3136_S64x3136 : S1x64x3136.ShapeCasts S64x3136
  reduces_S64x3136_S64 : S64x3136.Reduces [1] S64
  shapeCasts_S64_S64x1 : S64.ShapeCasts S64x1
  reducesTo_S2x64x1_S64x1_d0 : S2x64x1.ReducesTo [0] S64x1
  h_S_ : 0 < S_.numel
  reducesTo_S2x64x64_S64x64_d0 : S2x64x64.ReducesTo [0] S64x64
  bcast_S_S64x1 : S_.BroadcastsInDim S64x1 (![] : Fin 0 → Fin S64x1.rank)
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x3136 : S64x1.Broadcasts S64x3136
  shapeCasts_S64x3136_S1x64x3136 : S64x3136.ShapeCasts S1x64x3136
  shapeCasts_S256x64x3136_S64x256x56x56 : S256x64x3136.ShapeCasts S64x256x56x56
  dot_S64x3136_S64x3136_S64x64_1_1_0_0_n_n_wf : DotDims.WF S64x3136 S64x3136 S64x64 [1] [1] [0] [0] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  dot_S64x64_S64x3136_S64x3136_1_0_0_1_n_n_wf : DotDims.WF S64x64 S64x3136 S64x3136 [1] [0] [0] [1] [] []
  hrank0 : 0 < grid0.rank
  k0_t1_ok : k0_t1_loop.OK
  k0_off1_inb : ∀ k0_t1 : Fin k0_t1_loop.trips, ∀ a, (k0_off1 k0_t1) a + S1x64x3136.size a ≤ S16x64x3136.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x3136.size a ≤ S256x64x3136.size a
  hwx0_0 : ∀ i : grid0.Coords, EltTy.bits .f32 = 32 ∨ (Rect.block (s := S256x64x3136) S16x64x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S2x64x1.size a
  hwx0_1 : ∀ i : grid0.Coords, EltTy.bits .f32 = 32 ∨ (Rect.block (s := S2x64x1) S1x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hrank1 : 0 < grid1.rank
  k1_t1_ok : k1_t1_loop.OK
  k1_off1_inb : ∀ k1_t1 : Fin k1_t1_loop.trips, ∀ a, (k1_off1 k1_t1) a + S1x64x3136.size a ≤ S8x64x3136.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x3136.size a ≤ S256x64x3136.size a
  hwx1_0 : ∀ i : grid1.Coords, EltTy.bits .f32 = 32 ∨ (Rect.block (s := S256x64x3136) S8x64x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64x3136.size a ≤ S256x64x3136.size a
  hwx1_3 : ∀ i : grid1.Coords, EltTy.bits .f32 = 32 ∨ (Rect.block (s := S256x64x3136) S8x64x3136.size (cc1_transform_3 i) (hinb1_3 i)).WholeWords (EltTy.packing .f32)

variable [Facts₀]

def dot_S64x3136_S64x3136_S64x64_1_1_0_0_n_n : DotDims S64x3136 S64x3136 S64x64 where
  lhsContracting := [1]
  rhsContracting := [1]
  lhsNonContracting := [0]
  rhsNonContracting := [0]
  lhsBatch := []
  rhsBatch := []
  wf := dot_S64x3136_S64x3136_S64x64_1_1_0_0_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S64x64_S64x3136_S64x3136_1_0_0_1_n_n : DotDims S64x64 S64x3136 S64x3136 where
  lhsContracting := [1]
  rhsContracting := [0]
  lhsNonContracting := [0]
  rhsNonContracting := [1]
  lhsBatch := []
  rhsBatch := []
  wf := dot_S64x64_S64x3136_S64x3136_1_0_0_1_n_n_wf

abbrev win0_0 : Pipeline.Window sig grid0 :=
  Pipeline.Window.ofSpec (Memref.whole main_v0) S16x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x64x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v112) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v114) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v115) S8x64x3136.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S64x64 : Shape := ⟨2, ![64, 64]⟩
abbrev S64x1 : Shape := ⟨2, ![64, 1]⟩
abbrev S64x4x64x56x56 : Shape := ⟨5, ![64, 4, 64, 56, 56]⟩
abbrev S64x64x4x56x56 : Shape := ⟨5, ![64, 64, 4, 56, 56]⟩
abbrev S64x802816 : Shape := ⟨2, ![64, 802816]⟩
abbrev S_ : Shape := ⟨0, ![]⟩
abbrev S64 : Shape := ⟨1, ![64]⟩
abbrev S802816x64 : Shape := ⟨2, ![802816, 64]⟩

abbrev nBuf : Space → Nat
  | .hbm => 153
  | .vmem => 0
  | .smem => 0
  | _ => 0

abbrev hbmTy0_0 (i : Nat) : BufTy := match i % 128 with
  | 0 => ⟨S64x256x56x56, .f32⟩
  | 1 => ⟨S64x64, .f32⟩
  | 2 => ⟨S64x1, .f32⟩
  | 3 => ⟨S64x4x64x56x56, .f32⟩
  | 4 => ⟨S64x64x4x56x56, .f32⟩
  | 5 => ⟨S64x802816, .f32⟩
  | 6 => ⟨S_, .f32⟩
  | 7 => ⟨S64, .f32⟩
  | 8 => ⟨S64x1, .f32⟩
  | 9 => ⟨S_, .f32⟩
  | 10 => ⟨S64x1, .f32⟩
  | 11 => ⟨S64x1, .f32⟩
  | 12 => ⟨S64x802816, .f32⟩
  | 13 => ⟨S64x802816, .f32⟩
  | 14 => ⟨S802816x64, .f32⟩
  | 15 => ⟨S64x64, .f32⟩
  | 16 => ⟨S_, .f32⟩
  | 17 => ⟨S64x64, .f32⟩
  | 18 => ⟨S64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S_, .f32⟩
  | 33 => ⟨S_, .f32⟩
  | 34 => ⟨S64x64, .f32⟩
  | 35 => ⟨S64x64, .f32⟩
  | 36 => ⟨S64x64, .i32⟩
  | 37 => ⟨S64x64, .i32⟩
  | 38 => ⟨S_, .i32⟩
  | 39 => ⟨S64x64, .i32⟩
  | 40 => ⟨S64x64, .i32⟩
  | 41 => ⟨S64x64, .i1⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S64x256x56x56, .f32⟩

abbrev hbmTy0_1 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x802816, .f32⟩
  | 20 => ⟨S64x802816, .f32⟩
  | 21 => ⟨S64x802816, .f32⟩
  | 22 => ⟨S64x64x4x56x56, .f32⟩
  | 23 => ⟨S64x4x64x56x56, .f32⟩
  | 24 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_20 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_23 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩

abbrev nD : Nat := 1
abbrev τ : Topo := Topo.v7x

variable {F : FTy → Type} [FloatOps F]

class Facts₀ : Prop where
  shapeCasts_S64x256x56x56_S64x4x64x56x56 : S64x256x56x56.ShapeCasts S64x4x64x56x56
  transposes_S64x4x64x56x56_S64x64x4x56x56_2_0_1_3_4 : S64x4x64x56x56.Transposes [2, 0, 1, 3, 4] S64x64x4x56x56
  shapeCasts_S64x64x4x56x56_S64x802816 : S64x64x4x56x56.ShapeCasts S64x802816
  reducesTo_S64x802816_S64_d1 : S64x802816.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x802816_0_1 : S64x1.BroadcastsInDim S64x802816 (![0, 1] : Fin 2 → Fin S64x802816.rank)
  transposes_S64x802816_S802816x64_1_0 : S64x802816.Transposes [1, 0] S802816x64
  bcast_S_S64x64 : S_.BroadcastsInDim S64x64 (![] : Fin 0 → Fin S64x64.rank)
  reducesTo_S64x64_S_d0_1 : S64x64.ReducesTo [0, 1] S_
  shapeCasts_S64x802816_S64x64x4x56x56 : S64x802816.ShapeCasts S64x64x4x56x56
  transposes_S64x64x4x56x56_S64x4x64x56x56_1_2_0_3_4 : S64x64x4x56x56.Transposes [1, 2, 0, 3, 4] S64x4x64x56x56
  shapeCasts_S64x4x64x56x56_S64x256x56x56 : S64x4x64x56x56.ShapeCasts S64x256x56x56
  dot_S64x802816_S802816x64_S64x64_1_0_0_1_n_n_wf : DotDims.WF S64x802816 S802816x64 S64x64 [1] [0] [0] [1] [] []
  dot_S64x64_S64x64_S64x64_1_0_0_1_n_n_wf : DotDims.WF S64x64 S64x64 S64x64 [1] [0] [0] [1] [] []
  dot_S64x64_S64x802816_S64x802816_1_0_0_1_n_n_wf : DotDims.WF S64x64 S64x802816 S64x802816 [1] [0] [0] [1] [] []

variable [Facts₀]

def dot_S64x802816_S802816x64_S64x64_1_0_0_1_n_n : DotDims S64x802816 S802816x64 S64x64 where
  lhsContracting := [1]
  rhsContracting := [0]
  lhsNonContracting := [0]
  rhsNonContracting := [1]
  lhsBatch := []
  rhsBatch := []
  wf := dot_S64x802816_S802816x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x802816_S64x802816_1_0_0_1_n_n : DotDims S64x64 S64x802816 S64x802816 where
  lhsContracting := [1]
  rhsContracting := [0]
  lhsNonContracting := [0]
  rhsNonContracting := [1]
  lhsBatch := []
  rhsBatch := []
  wf := dot_S64x64_S64x802816_S64x802816_1_0_0_1_n_n_wf

class Facts : Prop extends Facts₀ where

variable [Facts]
-- ==== Proof.K.Runs0.lean ====
/-
  The statistics kernel (first launch) on arbitrary staging memrefs: the branch condition of its one conditional
  (the reset of the two accumulators, taken exactly at the grid points whose second coordinate is 0), decided over the
  grid, and the names the two cases' runs are stated over.
-/
import proofs.«421103_j37855841747396_3_alg».proof.Proof.Gen.Kernel.Launch
import proofs.«421103_j37855841747396_3_alg».proof.Proof.Gen.Kernel.Skeleton
import proofs.«421103_j37855841747396_3_alg».proof.Proof.Gen.Kernel.Points
import proofs.«421103_j37855841747396_3_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset's condition, from the grid coordinates: the second coordinate is zero. -/
abbrev cond0_0 (i : grid0.Coords) : Prop :=
  (Scalar.cmpi .ne (Scalar.extui (Scalar.cmpi .eq (BitVec.ofNat 32 (i 1).val) 0#32)) 0#32) = 1#1

/-- It holds at the points that begin a row of the grid: position ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- One staging buffer of each accumulator window, through which its contents are stated. -/
abbrev VO0_1 : View sig .tc .vmem S1x64x1 .f32 := (Memref.whole cc0_stg1_0 : Memref sig .tc .vmem S1x64x1 .f32).view
abbrev VO0_2 : View sig .tc .vmem S1x64x64 .f32 := (Memref.whole cc0_stg2_0 : Memref sig .tc .vmem S1x64x64 .f32).view

/-- Each window's current staging memref at point `t`, as the pipeline passes it, and its wholeness. -/
abbrev ms0_0 (t : Fin cfg0.N) : Memref sig .tc .vmem S16x64x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)

/-- The same for the affine kernel (second launch). -/
abbrev VO1_3 : View sig .tc .vmem S8x64x3136 .f32 := (Memref.whole cc1_stg3_0 : Memref sig .tc .vmem S8x64x3136 .f32).view
abbrev ms1_0 (t : Fin cfg1.N) : Memref sig .tc .vmem S8x64x3136 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x64x3136 .f32 := win1_3.stage (cfg1.slots t 3)
abbrev hs1_3 (t : Fin cfg1.N) : (ms1_3 t).IsWhole := hstage1_3 ((cfg1.slots t 3).cast nbuf1_3)

end Cert.Kernel.Fr

end
-- ==== Proof.K.Run0A.lean ====
/-
  The statistics kernel's whole body at a grid point where the accumulators are reset (second coordinate 0): from the
  input block and anything in the two accumulator buffers, it runs to its return leaving the input as it was and each
  accumulator with the pieces the run writes (the reset, then the sixteen trips' updates).
-/
import proofs.«421103_j37855841747396_3_alg».proof.Proof.K.Runs0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) :
    Σ' (L1 : List (View.Piece (Elt F) S1x64x1 .f32)), { L2 : List (View.Piece (Elt F) S1x64x64 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Fr

end
-- ==== Proof.K.Run0B.lean ====
/-
  The statistics kernel's whole body at a grid point where the accumulators are carried (second coordinate not 0): from
  the input block and the running contents of the two accumulator buffers, it runs to its return leaving the input as it
  was and each accumulator with the pieces the sixteen trips write over what it held.
-/
import proofs.«421103_j37855841747396_3_alg».proof.Proof.K.Runs0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) :
    Σ' (L1 : List (View.Piece (Elt F) S1x64x1 .f32)), { L2 : List (View.Piece (Elt F) S1x64x64 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Fr

end
-- ==== Proof.K.Reg0.lean ====
/-
  The statistics launch as a pipeline region, entered at arbitrary buffer contents `V`: the input window's block at a
  grid point; what each case of the body leaves in the two accumulator windows' buffers (the run's pieces read back; they
  cover the buffers); the accumulation point by point (a point that begins a grid row resets, any other continues from
  what the point before left: the accumulators are written back only at the last point of a row); the proof data and the
  body obligation at every point.
-/
import proofs.«421103_j37855841747396_3_alg».proof.Proof.K.Run0A
import proofs.«421103_j37855841747396_3_alg».proof.Proof.K.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulators' buffers -/

theorem cover0_A_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) (y : S1x64x1.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x64x1.size (by sl_kernel_rfl) y
theorem cover0_A_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) (y : S1x64x64.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x64x64.size (by sl_kernel_rfl) y

def out0_A_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) : Vec F S1x64x1 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) : Vec F S1x64x64 .f32 :=
  VO0_2.read (Elt F) (VO0_2.writes (Elt F) VO0_2.junk (kernelRun0_A c i arg2 harg2 arg3 harg3 arg4 harg4 hc0 x0).2.1)

theorem cover0_B_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) (y : S1x64x1.Idx) :
    ∃ pc ∈ (kernelRun0_B c i arg2 harg2 arg3 harg3 arg4 harg4 hc0 x0 xo1 xo2).1, y ∈ pc.1.set :=
  View.cover_of_tiledL (kernelRun0_B c i arg2 harg2 arg3 harg3 arg4 harg4 hc0 x0 xo1 xo2).1 S1x64x1.size (by sl_kernel_rfl) y
theorem cover0_B_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) (y : S1x64x64.Idx) :
    ∃ pc ∈ (kernelRun0_B c i arg2 harg2 arg3 harg3 arg4 harg4 hc0 x0 xo1 xo2).2.1, y ∈ pc.1.set :=
  View.cover_of_tiledL (kernelRun0_B c i arg2 harg2 arg3 harg3 arg4 harg4 hc0 x0 xo1 xo2).2.1 S1x64x64.size (by sl_kernel_rfl) y

def out0_B_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) : Vec F S1x64x1 .f32 :=
  VO0_1.read (Elt F) (VO0_1.writes (Elt F) VO0_1.junk (kernelRun0_B c i arg2 harg2 arg3 harg3 arg4 harg4 hc0 x0 xo1 xo2).1)
def out0_B_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) : Vec F S1x64x64 .f32 :=
  VO0_2.read (Elt F) (VO0_2.writes (Elt F) VO0_2.junk (kernelRun0_B c i arg2 harg2 arg3 harg3 arg4 harg4 hc0 x0 xo1 xo2).2.1)

/-! ## What the accumulators hold after each point -/

/-- THE ACCUMULATION: the two accumulator buffers after the body at position `n`. -/
def outsAt0 (c : Dev nD) : (n : ℕ) → n < cfg0.N → Vec F S1x64x1 .f32 × Vec F S1x64x64 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2)

theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t),
      out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t)
        (outsAt0 V c (t.val - 1) (Nat.lt_of_le_of_lt (Nat.sub_le _ _) t.isLt)).1 (outsAt0 V c (t.val - 1) (Nat.lt_of_le_of_lt (Nat.sub_le _ _) t.isLt)).2,
      out0_B_2 c (grid0.coords t) (ms0_0 t) (hs0_0 t) (ms0_1 t) (hs0_1 t) (ms0_2 t) (hs0_2 t) (fun h => h0 ((hcond0_0 t).mp h)) (iblk0 V c 0 t)
        (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- At a point that continues a row an accumulator's buffer holds what the body left at the point before: the point
    is not the first and the buffer was not written back in between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    · unfold owns; iexists _; isplitr
      swap; · iexact H2
      ipureintro; exact View.read_writes_of_cover _ _ _ _ _ (cover0_A_2 c _ _ _ _ _ _ _ _ _)
  · rw [outsAt0_B V c t h0]
    simp only [before0_1_B V c t h0, before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    · unfold owns; iexists _; isplitr
      swap; · iexact H2
      ipureintro; exact View.read_writes_of_cover _ _ _ _ _ (cover0_B_2 c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Run1.lean ====
/-
  The affine kernel's whole body at any grid point: from the input block, the 64×64 matrix and the 64×1 column held in
  their buffers and anything in the output buffer, it runs to its return leaving the three inputs as they were and the
  output buffer with the pieces the eight trips write (one 1×64×3136 slab each).
-/
import proofs.«421103_j37855841747396_3_alg».proof.Proof.K.Runs0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) :
    { L3 : List (View.Piece (Elt F) S8x64x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc1__affine_kernel i arg1 harg1 arg2 harg2 arg3 harg3 arg4 harg4) K } := by
  refine ⟨?_, fun E K => ?run⟩
  case run =>
    simp only [cc1__affine_kernel_eq_skeleton]; unfold cc1__affine_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Fr

end
-- ==== Proof.K.Reg1.lean ====
/-
  The affine launch as a pipeline region, entered at arbitrary buffer contents `V`: each window's block at a grid point,
  what the body leaves in the output window's buffer (the eight slabs the trips write, which tile it), the proof data,
  and the body obligation at every point.
-/
import proofs.«421103_j37855841747396_3_alg».proof.Proof.K.Run1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The run's pieces for the output window tile its block (eight slabs along the leading axis), so they cover it. -/
theorem cover1_3 (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) (y : S8x64x3136.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x64x3136.size (by sl_kernel_rfl) y

/-- What the body leaves in the output window's staging buffer: its pieces read back. -/
def out1_3 (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) : Vec F S8x64x3136 .f32 :=
  VO1_3.read (Elt F) (VO1_3.writes (Elt F) VO1_3.junk (kernelRun1 c i arg1 harg1 arg2 harg2 arg3 harg3 arg4 harg4 x0 x1 x2).1)

/-- The proof data of the affine pipeline on core `c`: the arrays as the region finds them; after the body at point `t`
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Frame.lean ====
/-
  The whole program as a run: the buffer contents at every boundary between the host stretches and the two launches
  (a fold from the launch memory: a host stretch applies its operations; a launch leaves its arrays at what its
  write-backs make them and every other buffer as it was), each launch as a region of the pipeline library entered at
  the boundary's contents, each host stretch as a line of operations over the unscoped buffers, and the launch theorem
  over them: every weakly fair execution terminates with every unscoped buffer at the last boundary's contents. The three
  argument arrays are written by no operation and by no launch, so they end as launched.
-/
import proofs.«421103_j37855841747396_3_alg».proof.Proof.K.Reg0
import proofs.«421103_j37855841747396_3_alg».proof.Proof.K.Reg1
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the input (the statistics launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics launch's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the mean and the covariance, -/
abbrev W3 : Dev nD → Valuation τ sig (Elt F) := fun c => StableHlo.after hostOps1 (W2 m ρ c)
/-- the norm, -/
abbrev W4 : Dev nD → Valuation τ sig (Elt F) := fun c => StableHlo.after hostOps1_1 (W3 m ρ c)
/-- and the whitening matrix, the affine map's matrix and bias (the affine launch's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the affine launch's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the final reshape: the end. -/
abbrev W7 : Dev nD → Valuation τ sig (Elt F) := fun c => StableHlo.after hostOps2 (W6 m ρ c)

/-! ## The arguments end as launched -/

theorem W7_W6_main_arg0 (c : Dev nD) : W7 m ρ c (Proc.devRef .tc main_arg0) = W6 m ρ c (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W5_W4_main_arg0 (c : Dev nD) : W5 m ρ c (Proc.devRef .tc main_arg0) = W4 m ρ c (Proc.devRef .tc main_arg0) :=
  StableHlo.after_of_forall_not_mem (b := Proc.devRef .tc main_arg0) _ _ (List.forall_iff_forall_mem.mp (by
    simp only [hostOps1_2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W4_W3_main_arg0 (c : Dev nD) : W4 m ρ c (Proc.devRef .tc main_arg0) = W3 m ρ c (Proc.devRef .tc main_arg0) :=
  StableHlo.after_of_forall_not_mem (b := Proc.devRef .tc main_arg0) _ _ (List.forall_iff_forall_mem.mp (by
    simp only [hostOps1_1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W3_W2_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W1_W0_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
/-- `main_arg0` ends as launched: no host operation writes it and no launch may change it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_W6_main_arg0 m ρ c
    _ = W5 m ρ c (Proc.devRef .tc main_arg0) := W6_of_ne m ρ c main_arg0 (by decide)
    _ = W4 m ρ c (Proc.devRef .tc main_arg0) := W5_W4_main_arg0 m ρ c
    _ = W3 m ρ c (Proc.devRef .tc main_arg0) := W4_W3_main_arg0 m ρ c
    _ = W2 m ρ c (Proc.devRef .tc main_arg0) := W3_W2_main_arg0 m ρ c
    _ = W1 m ρ c (Proc.devRef .tc main_arg0) := W2_of_ne m ρ c main_arg0 (by decide)
    _ = W0 m ρ c (Proc.devRef .tc main_arg0) := W1_W0_main_arg0 m ρ c
    _ = m ((c : Thread nD τ).loc main_arg0) := rfl

theorem W7_W6_main_arg1 (c : Dev nD) : W7 m ρ c (Proc.devRef .tc main_arg1) = W6 m ρ c (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W5_W4_main_arg1 (c : Dev nD) : W5 m ρ c (Proc.devRef .tc main_arg1) = W4 m ρ c (Proc.devRef .tc main_arg1) :=
  StableHlo.after_of_forall_not_mem (b := Proc.devRef .tc main_arg1) _ _ (List.forall_iff_forall_mem.mp (by
    simp only [hostOps1_2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W4_W3_main_arg1 (c : Dev nD) : W4 m ρ c (Proc.devRef .tc main_arg1) = W3 m ρ c (Proc.devRef .tc main_arg1) :=
  StableHlo.after_of_forall_not_mem (b := Proc.devRef .tc main_arg1) _ _ (List.forall_iff_forall_mem.mp (by
    simp only [hostOps1_1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W3_W2_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W1_W0_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
/-- `main_arg1` ends as launched: no host operation writes it and no launch may change it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_W6_main_arg1 m ρ c
    _ = W5 m ρ c (Proc.devRef .tc main_arg1) := W6_of_ne m ρ c main_arg1 (by decide)
    _ = W4 m ρ c (Proc.devRef .tc main_arg1) := W5_W4_main_arg1 m ρ c
    _ = W3 m ρ c (Proc.devRef .tc main_arg1) := W4_W3_main_arg1 m ρ c
    _ = W2 m ρ c (Proc.devRef .tc main_arg1) := W3_W2_main_arg1 m ρ c
    _ = W1 m ρ c (Proc.devRef .tc main_arg1) := W2_of_ne m ρ c main_arg1 (by decide)
    _ = W0 m ρ c (Proc.devRef .tc main_arg1) := W1_W0_main_arg1 m ρ c
    _ = m ((c : Thread nD τ).loc main_arg1) := rfl

theorem W7_W6_main_arg2 (c : Dev nD) : W7 m ρ c (Proc.devRef .tc main_arg2) = W6 m ρ c (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W5_W4_main_arg2 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by
    simp only [hostOps1_2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W4_W3_main_arg2 (c : Dev nD) : W4 m ρ c (Proc.devRef .tc main_arg2) = W3 m ρ c (Proc.devRef .tc main_arg2) :=
  StableHlo.after_of_forall_not_mem (b := Proc.devRef .tc main_arg2) _ _ (List.forall_iff_forall_mem.mp (by
    simp only [hostOps1_1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W3_W2_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W1_W0_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
/-- `main_arg2` ends as launched: no host operation writes it and no launch may change it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_W6_main_arg2 m ρ c
    _ = W5 m ρ c (Proc.devRef .tc main_arg2) := W6_of_ne m ρ c main_arg2 (by decide)
    _ = W4 m ρ c (Proc.devRef .tc main_arg2) := W5_W4_main_arg2 m ρ c
    _ = W3 m ρ c (Proc.devRef .tc main_arg2) := W4_W3_main_arg2 m ρ c
    _ = W2 m ρ c (Proc.devRef .tc main_arg2) := W3_W2_main_arg2 m ρ c
    _ = W1 m ρ c (Proc.devRef .tc main_arg2) := W2_of_ne m ρ c main_arg2 (by decide)
    _ = W0 m ρ c (Proc.devRef .tc main_arg2) := W1_W0_main_arg2 m ρ c
    _ = m ((c : Thread nD τ).loc main_arg2) := rfl

/-! ## The proof data family and the thread state -/

abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 over the thread state: entered from every unscoped buffer at `W1`, left at `W2`. Its arrays are split out
    of the unscoped buffers and put back at the exit contents; the generator register passes through the invariant;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W5`, left at `W6`. Its arrays are split out
    of the unscoped buffers and put back at the exit contents; the generator register passes through the invariant;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

set_option maxHeartbeats 4000000 in
theorem main_run (c : Dev nD) : main (F := F) c = Pipeline.Seg.run (segs m ρ) := (main_chain c).trans (by chain_rfl)

set_option maxHeartbeats 4000000 in
set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float family: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.Kernel.Fr

end
-- ==== Proof.KI.Runs0.lean ====
/-
  The statistics kernel (first launch) on arbitrary staging memrefs: the branch condition of its one conditional
  (the reset of the two accumulators, taken exactly at the grid points whose second coordinate is 0), decided over the
  grid, and the names the two cases' runs are stated over.
-/
import proofs.«421103_j37855841747396_3_alg».proof.Proof.Gen.KernelIdeal.Launch
import proofs.«421103_j37855841747396_3_alg».proof.Proof.Gen.KernelIdeal.Skeleton
import proofs.«421103_j37855841747396_3_alg».proof.Proof.Gen.KernelIdeal.Points
import proofs.«421103_j37855841747396_3_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset's condition, from the grid coordinates: the second coordinate is zero. -/
abbrev cond0_0 (i : grid0.Coords) : Prop :=
  (Scalar.cmpi .ne (Scalar.extui (Scalar.cmpi .eq (BitVec.ofNat 32 (i 1).val) 0#32)) 0#32) = 1#1

/-- It holds at the points that begin a row of the grid: position ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- One staging buffer of each accumulator window, through which its contents are stated. -/
abbrev VO0_1 : View sig .tc .vmem S1x64x1 .f32 := (Memref.whole cc0_stg1_0 : Memref sig .tc .vmem S1x64x1 .f32).view
abbrev VO0_2 : View sig .tc .vmem S1x64x64 .f32 := (Memref.whole cc0_stg2_0 : Memref sig .tc .vmem S1x64x64 .f32).view

/-- Each window's current staging memref at point `t`, as the pipeline passes it, and its wholeness. -/
abbrev ms0_0 (t : Fin cfg0.N) : Memref sig .tc .vmem S16x64x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)

/-- The same for the affine kernel (second launch). -/
abbrev VO1_3 : View sig .tc .vmem S8x64x3136 .f32 := (Memref.whole cc1_stg3_0 : Memref sig .tc .vmem S8x64x3136 .f32).view
abbrev ms1_0 (t : Fin cfg1.N) : Memref sig .tc .vmem S8x64x3136 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x64x3136 .f32 := win1_3.stage (cfg1.slots t 3)
abbrev hs1_3 (t : Fin cfg1.N) : (ms1_3 t).IsWhole := hstage1_3 ((cfg1.slots t 3).cast nbuf1_3)

end Cert.KernelIdeal.Fr

end
-- ==== Proof.KI.Run0A.lean ====
/-
  The statistics kernel's whole body at a grid point where the accumulators are reset (second coordinate 0): from the
  input block and anything in the two accumulator buffers, it runs to its return leaving the input as it was and each
  accumulator with the pieces the run writes (the reset, then the sixteen trips' updates).
-/
import proofs.«421103_j37855841747396_3_alg».proof.Proof.KI.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) :
    Σ' (L1 : List (View.Piece (Elt F) S1x64x1 .f32)), { L2 : List (View.Piece (Elt F) S1x64x64 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Fr

end
-- ==== Proof.KI.Run0B.lean ====
/-
  The statistics kernel's whole body at a grid point where the accumulators are carried (second coordinate not 0): from
  the input block and the running contents of the two accumulator buffers, it runs to its return leaving the input as it
  was and each accumulator with the pieces the sixteen trips write over what it held.
-/
import proofs.«421103_j37855841747396_3_alg».proof.Proof.KI.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) :
    Σ' (L1 : List (View.Piece (Elt F) S1x64x1 .f32)), { L2 : List (View.Piece (Elt F) S1x64x64 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Fr

end
-- ==== Proof.KI.Reg0.lean ====
/-
  The statistics launch as a pipeline region, entered at arbitrary buffer contents `V`: the input window's block at a
  grid point; what each case of the body leaves in the two accumulator windows' buffers (the run's pieces read back; they
  cover the buffers); the accumulation point by point (a point that begins a grid row resets, any other continues from
  what the point before left: the accumulators are written back only at the last point of a row); the proof data and the
  body obligation at every point.
-/
import proofs.«421103_j37855841747396_3_alg».proof.Proof.KI.Run0A
import proofs.«421103_j37855841747396_3_alg».proof.Proof.KI.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulators' buffers -/

theorem cover0_A_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) (y : S1x64x1.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x64x1.size (by sl_kernel_rfl) y
theorem cover0_A_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) (y : S1x64x64.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x64x64.size (by sl_kernel_rfl) y

def out0_A_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) : Vec F S1x64x1 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i)
    (x0 : Vec F S16x64x3136 .f32) : Vec F S1x64x64 .f32 :=
  VO0_2.read (Elt F) (VO0_2.writes (Elt F) VO0_2.junk (kernelRun0_A c i arg2 harg2 arg3 harg3 arg4 harg4 hc0 x0).2.1)

theorem cover0_B_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) (y : S1x64x1.Idx) :
    ∃ pc ∈ (kernelRun0_B c i arg2 harg2 arg3 harg3 arg4 harg4 hc0 x0 xo1 xo2).1, y ∈ pc.1.set :=
  View.cover_of_tiledL (kernelRun0_B c i arg2 harg2 arg3 harg3 arg4 harg4 hc0 x0 xo1 xo2).1 S1x64x1.size (by sl_kernel_rfl) y
theorem cover0_B_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) (y : S1x64x64.Idx) :
    ∃ pc ∈ (kernelRun0_B c i arg2 harg2 arg3 harg3 arg4 harg4 hc0 x0 xo1 xo2).2.1, y ∈ pc.1.set :=
  View.cover_of_tiledL (kernelRun0_B c i arg2 harg2 arg3 harg3 arg4 harg4 hc0 x0 xo1 xo2).2.1 S1x64x64.size (by sl_kernel_rfl) y

def out0_B_1 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) : Vec F S1x64x1 .f32 :=
  VO0_1.read (Elt F) (VO0_1.writes (Elt F) VO0_1.junk (kernelRun0_B c i arg2 harg2 arg3 harg3 arg4 harg4 hc0 x0 xo1 xo2).1)
def out0_B_2 (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i)
    (x0 : Vec F S16x64x3136 .f32) (xo1 : Vec F S1x64x1 .f32) (xo2 : Vec F S1x64x64 .f32) : Vec F S1x64x64 .f32 :=
  VO0_2.read (Elt F) (VO0_2.writes (Elt F) VO0_2.junk (kernelRun0_B c i arg2 harg2 arg3 harg3 arg4 harg4 hc0 x0 xo1 xo2).2.1)

/-! ## What the accumulators hold after each point -/

/-- THE ACCUMULATION: the two accumulator buffers after the body at position `n`. -/
def outsAt0 (c : Dev nD) : (n : ℕ) → n < cfg0.N → Vec F S1x64x1 .f32 × Vec F S1x64x64 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2)

theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t),
      out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t)
        (outsAt0 V c (t.val - 1) (Nat.lt_of_le_of_lt (Nat.sub_le _ _) t.isLt)).1 (outsAt0 V c (t.val - 1) (Nat.lt_of_le_of_lt (Nat.sub_le _ _) t.isLt)).2,
      out0_B_2 c (grid0.coords t) (ms0_0 t) (hs0_0 t) (ms0_1 t) (hs0_1 t) (ms0_2 t) (hs0_2 t) (fun h => h0 ((hcond0_0 t).mp h)) (iblk0 V c 0 t)
        (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- At a point that continues a row an accumulator's buffer holds what the body left at the point before: the point
    is not the first and the buffer was not written back in between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    · unfold owns; iexists _; isplitr
      swap; · iexact H2
      ipureintro; exact View.read_writes_of_cover _ _ _ _ _ (cover0_A_2 c _ _ _ _ _ _ _ _ _)
  · rw [outsAt0_B V c t h0]
    simp only [before0_1_B V c t h0, before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    · unfold owns; iexists _; isplitr
      swap; · iexact H2
      ipureintro; exact View.read_writes_of_cover _ _ _ _ _ (cover0_B_2 c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Run1.lean ====
/-
  The affine kernel's whole body at any grid point: from the input block, the 64×64 matrix and the 64×1 column held in
  their buffers and anything in the output buffer, it runs to its return leaving the three inputs as they were and the
  output buffer with the pieces the eight trips write (one 1×64×3136 slab each).
-/
import proofs.«421103_j37855841747396_3_alg».proof.Proof.KI.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) :
    { L3 : List (View.Piece (Elt F) S8x64x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc1__affine_kernel i arg1 harg1 arg2 harg2 arg3 harg3 arg4 harg4) K } := by
  refine ⟨?_, fun E K => ?run⟩
  case run =>
    simp only [cc1__affine_kernel_eq_skeleton]; unfold cc1__affine_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Fr

end
-- ==== Proof.KI.Reg1.lean ====
/-
  The affine launch as a pipeline region, entered at arbitrary buffer contents `V`: each window's block at a grid point,
  what the body leaves in the output window's buffer (the eight slabs the trips write, which tile it), the proof data,
  and the body obligation at every point.
-/
import proofs.«421103_j37855841747396_3_alg».proof.Proof.KI.Run1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The run's pieces for the output window tile its block (eight slabs along the leading axis), so they cover it. -/
theorem cover1_3 (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) (y : S8x64x3136.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x64x3136.size (by sl_kernel_rfl) y

/-- What the body leaves in the output window's staging buffer: its pieces read back. -/
def out1_3 (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) : Vec F S8x64x3136 .f32 :=
  VO1_3.read (Elt F) (VO1_3.writes (Elt F) VO1_3.junk (kernelRun1 c i arg1 harg1 arg2 harg2 arg3 harg3 arg4 harg4 x0 x1 x2).1)

/-- The proof data of the affine pipeline on core `c`: the arrays as the region finds them; after the body at point `t`
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Frame.lean ====
/-
  The whole program as a run: the buffer contents at every boundary between the host stretches and the two launches
  (a fold from the launch memory: a host stretch applies its operations; a launch leaves its arrays at what its
  write-backs make them and every other buffer as it was), each launch as a region of the pipeline library entered at
  the boundary's contents, each host stretch as a line of operations over the unscoped buffers, and the launch theorem
  over them: every weakly fair execution terminates with every unscoped buffer at the last boundary's contents. The three
  argument arrays are written by no operation and by no launch, so they end as launched.
-/
import proofs.«421103_j37855841747396_3_alg».proof.Proof.KI.Reg0
import proofs.«421103_j37855841747396_3_alg».proof.Proof.KI.Reg1
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the input (the statistics launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics launch's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the mean and the covariance, -/
abbrev W3 : Dev nD → Valuation τ sig (Elt F) := fun c => StableHlo.after hostOps1 (W2 m ρ c)
/-- the norm, -/
abbrev W4 : Dev nD → Valuation τ sig (Elt F) := fun c => StableHlo.after hostOps1_1 (W3 m ρ c)
/-- and the whitening matrix, the affine map's matrix and bias (the affine launch's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the affine launch's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the final reshape: the end. -/
abbrev W7 : Dev nD → Valuation τ sig (Elt F) := fun c => StableHlo.after hostOps2 (W6 m ρ c)

/-! ## The arguments end as launched -/

theorem W7_W6_main_arg0 (c : Dev nD) : W7 m ρ c (Proc.devRef .tc main_arg0) = W6 m ρ c (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W5_W4_main_arg0 (c : Dev nD) : W5 m ρ c (Proc.devRef .tc main_arg0) = W4 m ρ c (Proc.devRef .tc main_arg0) :=
  StableHlo.after_of_forall_not_mem (b := Proc.devRef .tc main_arg0) _ _ (List.forall_iff_forall_mem.mp (by
    simp only [hostOps1_2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W4_W3_main_arg0 (c : Dev nD) : W4 m ρ c (Proc.devRef .tc main_arg0) = W3 m ρ c (Proc.devRef .tc main_arg0) :=
  StableHlo.after_of_forall_not_mem (b := Proc.devRef .tc main_arg0) _ _ (List.forall_iff_forall_mem.mp (by
    simp only [hostOps1_1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W3_W2_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W1_W0_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
/-- `main_arg0` ends as launched: no host operation writes it and no launch may change it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_W6_main_arg0 m ρ c
    _ = W5 m ρ c (Proc.devRef .tc main_arg0) := W6_of_ne m ρ c main_arg0 (by decide)
    _ = W4 m ρ c (Proc.devRef .tc main_arg0) := W5_W4_main_arg0 m ρ c
    _ = W3 m ρ c (Proc.devRef .tc main_arg0) := W4_W3_main_arg0 m ρ c
    _ = W2 m ρ c (Proc.devRef .tc main_arg0) := W3_W2_main_arg0 m ρ c
    _ = W1 m ρ c (Proc.devRef .tc main_arg0) := W2_of_ne m ρ c main_arg0 (by decide)
    _ = W0 m ρ c (Proc.devRef .tc main_arg0) := W1_W0_main_arg0 m ρ c
    _ = m ((c : Thread nD τ).loc main_arg0) := rfl

theorem W7_W6_main_arg1 (c : Dev nD) : W7 m ρ c (Proc.devRef .tc main_arg1) = W6 m ρ c (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W5_W4_main_arg1 (c : Dev nD) : W5 m ρ c (Proc.devRef .tc main_arg1) = W4 m ρ c (Proc.devRef .tc main_arg1) :=
  StableHlo.after_of_forall_not_mem (b := Proc.devRef .tc main_arg1) _ _ (List.forall_iff_forall_mem.mp (by
    simp only [hostOps1_2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W4_W3_main_arg1 (c : Dev nD) : W4 m ρ c (Proc.devRef .tc main_arg1) = W3 m ρ c (Proc.devRef .tc main_arg1) :=
  StableHlo.after_of_forall_not_mem (b := Proc.devRef .tc main_arg1) _ _ (List.forall_iff_forall_mem.mp (by
    simp only [hostOps1_1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W3_W2_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W1_W0_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
/-- `main_arg1` ends as launched: no host operation writes it and no launch may change it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_W6_main_arg1 m ρ c
    _ = W5 m ρ c (Proc.devRef .tc main_arg1) := W6_of_ne m ρ c main_arg1 (by decide)
    _ = W4 m ρ c (Proc.devRef .tc main_arg1) := W5_W4_main_arg1 m ρ c
    _ = W3 m ρ c (Proc.devRef .tc main_arg1) := W4_W3_main_arg1 m ρ c
    _ = W2 m ρ c (Proc.devRef .tc main_arg1) := W3_W2_main_arg1 m ρ c
    _ = W1 m ρ c (Proc.devRef .tc main_arg1) := W2_of_ne m ρ c main_arg1 (by decide)
    _ = W0 m ρ c (Proc.devRef .tc main_arg1) := W1_W0_main_arg1 m ρ c
    _ = m ((c : Thread nD τ).loc main_arg1) := rfl

theorem W7_W6_main_arg2 (c : Dev nD) : W7 m ρ c (Proc.devRef .tc main_arg2) = W6 m ρ c (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W5_W4_main_arg2 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by
    simp only [hostOps1_2, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W4_W3_main_arg2 (c : Dev nD) : W4 m ρ c (Proc.devRef .tc main_arg2) = W3 m ρ c (Proc.devRef .tc main_arg2) :=
  StableHlo.after_of_forall_not_mem (b := Proc.devRef .tc main_arg2) _ _ (List.forall_iff_forall_mem.mp (by
    simp only [hostOps1_1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W3_W2_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
theorem W1_W0_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes,
      StableHlo.TRef.nullary, StableHlo.TRef.unary, StableHlo.TRef.binary, Finset.mem_singleton]
    repeat' apply And.intro
    all_goals exact StableHlo.devRef_ne_of_ne (by decide)))
/-- `main_arg2` ends as launched: no host operation writes it and no launch may change it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_W6_main_arg2 m ρ c
    _ = W5 m ρ c (Proc.devRef .tc main_arg2) := W6_of_ne m ρ c main_arg2 (by decide)
    _ = W4 m ρ c (Proc.devRef .tc main_arg2) := W5_W4_main_arg2 m ρ c
    _ = W3 m ρ c (Proc.devRef .tc main_arg2) := W4_W3_main_arg2 m ρ c
    _ = W2 m ρ c (Proc.devRef .tc main_arg2) := W3_W2_main_arg2 m ρ c
    _ = W1 m ρ c (Proc.devRef .tc main_arg2) := W2_of_ne m ρ c main_arg2 (by decide)
    _ = W0 m ρ c (Proc.devRef .tc main_arg2) := W1_W0_main_arg2 m ρ c
    _ = m ((c : Thread nD τ).loc main_arg2) := rfl

/-! ## The proof data family and the thread state -/

abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 over the thread state: entered from every unscoped buffer at `W1`, left at `W2`. Its arrays are split out
    of the unscoped buffers and put back at the exit contents; the generator register passes through the invariant;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W5`, left at `W6`. Its arrays are split out
    of the unscoped buffers and put back at the exit contents; the generator register passes through the invariant;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

set_option maxHeartbeats 4000000 in
theorem main_run (c : Dev nD) : main (F := F) c = Pipeline.Seg.run (segs m ρ) := (main_chain c).trans (by chain_rfl)

set_option maxHeartbeats 4000000 in
set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float family: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Fr

end
-- ==== Proof.KI.Val0Body.lean ====
/-
  What the statistics kernel's body leaves in its two accumulator buffers, read at an index as plain sums, at the ideal
  values. Each of the sixteen trips stores, through each accumulator's whole buffer, the update of what that accumulator
  held by one row of the input block: the row's sum over its last axis for the first, the row times its own transpose
  for the second. So what an accumulator reads after the trips is what it held at the loop's entry (zero after the
  reset, its running contents otherwise) plus the sixteen rows' contributions.
-/
import proofs.«421103_j37855841747396_3_alg».proof.Proof.KI.Reg0
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The two stores one trip makes: each accumulator's whole buffer receives the trip's payload, formed from row `k` of
    the input and from what that accumulator held. -/
abbrev tripPiece1 (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (X : BufTy.Contents (Elt F) arg2.view.ty) (k : Fin k0_t1_loop.trips) (f3 : BufTy.Contents (Elt F) arg3.view.ty) : View.Piece (Elt F) S1x64x1 .f32 :=
  ⟨Rect.unit ![0, 0, 0] S1x64x1.size inb_S1x64x1_S1x64x1_0_0_0,
    k0_pay4 (View.readAt (Elt F) arg2.view (Rect.unit (s := S16x64x3136) (k0_off1 k) S1x64x3136.size (k0_off1_inb k)).toLoadRect X)
      (View.readAt (Elt F) arg3.view (Rect.unit ![0, 0, 0] S1x64x1.size inb_S1x64x1_S1x64x1_0_0_0).toLoadRect f3)⟩
abbrev tripPiece2 (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (X : BufTy.Contents (Elt F) arg2.view.ty) (k : Fin k0_t1_loop.trips) (f4 : BufTy.Contents (Elt F) arg4.view.ty) : View.Piece (Elt F) S1x64x64 .f32 :=
  ⟨Rect.unit ![0, 0, 0] S1x64x64.size inb_S1x64x64_S1x64x64_0_0_0,
    k0_pay5 (View.readAt (Elt F) arg2.view (Rect.unit (s := S16x64x3136) (k0_off1 k) S1x64x3136.size (k0_off1_inb k)).toLoadRect X)
      (View.readAt (Elt F) arg4.view (Rect.unit ![0, 0, 0] S1x64x64.size inb_S1x64x64_S1x64x64_0_0_0).toLoadRect f4)⟩

unseal trip_k0_t1 in
/-- The trip's piece lists are these two single stores. -/
theorem tripL_eq (𝒱 : Variants) (c : Dev nD) (bd : Option 𝒱.V) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (X : BufTy.Contents (Elt F) arg2.view.ty) (k : Fin k0_t1_loop.trips)
    (f3 : BufTy.Contents (Elt F) arg3.view.ty) (f4 : BufTy.Contents (Elt F) arg4.view.ty) :
    tripL_k0_t1 (F := F) 𝒱 c bd i arg2 harg2 arg3 harg3 arg4 harg4 X k f3 f4 = ([tripPiece1 arg2 harg2 arg3 harg3 arg4 harg4 X k f3], [tripPiece2 arg2 harg2 arg3 harg3 arg4 harg4 X k f4]) := by
  unfold tripL_k0_t1 trip_k0_t1
  rfl

/-! ## What the accumulators read after the trips -/

theorem zeros3 : (![0, 0, 0] : Fin 3 → ℕ) = fun _ => 0 := by
  funext a; fin_cases a <;> rfl

/-- A store through the whole buffer, made last, is what the buffer then reads, whatever the view. -/
theorem read_writes_cons_whole {sig' : RefSig} {κ' : Kind} {sp' : Space} {S : Shape} {e : EltTy} (v : View sig' κ' sp' S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

section Trips

variable (𝒱 : Variants) (c : Dev nD) (bd : Option 𝒱.V) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole)
  (x0 : Vec F S16x64x3136 .f32) (G3 : BufTy.Contents (Elt F) arg3.view.ty) (G4 : BufTy.Contents (Elt F) arg4.view.ty)

/-- Row `k` of the input block. -/
abbrev rowOf (k : Fin k0_t1_loop.trips) : Vec F S1x64x3136 .f32 :=
  View.ld x0 (Rect.unit (s := S16x64x3136) (k0_off1 k) S1x64x3136.size (k0_off1_inb k))

/-- What each accumulator reads after the first `n` trips, from contents `G3`, `G4` at the loop's entry. -/
abbrev st1 (n : ℕ) : Vec F S1x64x1 .f32 :=
  arg3.view.read (Elt F) (arg3.view.writes (Elt F) G3 (pb_k0_t1 (F := F) 𝒱 c bd i arg2 harg2 arg3 harg3 arg4 harg4 (harg2.unread x0) G3 G4 n).1)
abbrev st2 (n : ℕ) : Vec F S1x64x64 .f32 :=
  arg4.view.read (Elt F) (arg4.view.writes (Elt F) G4 (pb_k0_t1 (F := F) 𝒱 c bd i arg2 harg2 arg3 harg3 arg4 harg4 (harg2.unread x0) G3 G4 n).2)

/-- The pieces after one more trip: that trip's store in front. -/
theorem pb_succ_fst (k : Fin k0_t1_loop.trips) :
    (pb_k0_t1 (F := F) 𝒱 c bd i arg2 harg2 arg3 harg3 arg4 harg4 (harg2.unread x0) G3 G4 (k.val + 1)).1
      = tripPiece1 arg2 harg2 arg3 harg3 arg4 harg4 (harg2.unread x0) k (arg3.view.writes (Elt F) G3 (pb_k0_t1 (F := F) 𝒱 c bd i arg2 harg2 arg3 harg3 arg4 harg4 (harg2.unread x0) G3 G4 k.val).1) :: (pb_k0_t1 (F := F) 𝒱 c bd i arg2 harg2 arg3 harg3 arg4 harg4 (harg2.unread x0) G3 G4 k.val).1 := by
  rw [pb_k0_t1_succ, tripL_eq]; rfl
theorem pb_succ_snd (k : Fin k0_t1_loop.trips) :
    (pb_k0_t1 (F := F) 𝒱 c bd i arg2 harg2 arg3 harg3 arg4 harg4 (harg2.unread x0) G3 G4 (k.val + 1)).2
      = tripPiece2 arg2 harg2 arg3 harg3 arg4 harg4 (harg2.unread x0) k (arg4.view.writes (Elt F) G4 (pb_k0_t1 (F := F) 𝒱 c bd i arg2 harg2 arg3 harg3 arg4 harg4 (harg2.unread x0) G3 G4 k.val).2) :: (pb_k0_t1 (F := F) 𝒱 c bd i arg2 harg2 arg3 harg3 arg4 harg4 (harg2.unread x0) G3 G4 k.val).2 := by
  rw [pb_k0_t1_succ, tripL_eq]; rfl

/-- Read through any view, over any prior contents and before any earlier pieces, the pieces of `k + 1` trips leave
    trip `k`'s payload: the update of what the accumulator read after `k` trips by row `k`. -/
theorem read_pb_succ_fst {sig' : RefSig} {κ' : Kind} {sp' : Space} (v : View sig' κ' sp' S1x64x1 .f32) (f : v.ty.Contents (Elt F))
    (T : List (View.Piece (Elt F) S1x64x1 .f32)) (k : Fin k0_t1_loop.trips) :
    v.read (Elt F) (v.writes (Elt F) f ((pb_k0_t1 (F := F) 𝒱 c bd i arg2 harg2 arg3 harg3 arg4 harg4 (harg2.unread x0) G3 G4 (k.val + 1)).1 ++ T))
      = k0_pay4 (rowOf x0 k) (st1 𝒱 c bd i arg2 harg2 arg3 harg3 arg4 harg4 x0 G3 G4 k.val) := by
  rw [pb_succ_fst, List.cons_append, read_writes_cons_whole v f zeros3]
  rw [View.readAt_eq_ld, View.readAt_eq_ld, harg2.read_unread, View.ld_unit_zero zeros3]
theorem read_pb_succ_snd {sig' : RefSig} {κ' : Kind} {sp' : Space} (v : View sig' κ' sp' S1x64x64 .f32) (f : v.ty.Contents (Elt F))
    (T : List (View.Piece (Elt F) S1x64x64 .f32)) (k : Fin k0_t1_loop.trips) :
    v.read (Elt F) (v.writes (Elt F) f ((pb_k0_t1 (F := F) 𝒱 c bd i arg2 harg2 arg3 harg3 arg4 harg4 (harg2.unread x0) G3 G4 (k.val + 1)).2 ++ T))
      = k0_pay5 (rowOf x0 k) (st2 𝒱 c bd i arg2 harg2 arg3 harg3 arg4 harg4 x0 G3 G4 k.val) := by
  rw [pb_succ_snd, List.cons_append, read_writes_cons_whole v f zeros3]
  rw [View.readAt_eq_ld, View.readAt_eq_ld, harg2.read_unread, View.ld_unit_zero zeros3]

/-- One more trip updates what each accumulator reads by that trip's row. -/
theorem st1_succ (k : Fin k0_t1_loop.trips) :
    st1 𝒱 c bd i arg2 harg2 arg3 harg3 arg4 harg4 x0 G3 G4 (k.val + 1) = k0_pay4 (rowOf x0 k) (st1 𝒱 c bd i arg2 harg2 arg3 harg3 arg4 harg4 x0 G3 G4 k.val) := by
  have h := read_pb_succ_fst 𝒱 c bd i arg2 harg2 arg3 harg3 arg4 harg4 x0 G3 G4 arg3.view G3 [] k
  rwa [List.append_nil] at h
theorem st2_succ (k : Fin k0_t1_loop.trips) :
    st2 𝒱 c bd i arg2 harg2 arg3 harg3 arg4 harg4 x0 G3 G4 (k.val + 1) = k0_pay5 (rowOf x0 k) (st2 𝒱 c bd i arg2 harg2 arg3 harg3 arg4 harg4 x0 G3 G4 k.val) := by
  have h := read_pb_succ_snd 𝒱 c bd i arg2 harg2 arg3 harg3 arg4 harg4 x0 G3 G4 arg4.view G4 [] k
  rwa [List.append_nil] at h

/-- All sixteen trips' pieces, read through any view over any contents and before any earlier pieces, leave what the
    accumulator reads after sixteen trips. -/
theorem read_pb_all_fst {sig' : RefSig} {κ' : Kind} {sp' : Space} (v : View sig' κ' sp' S1x64x1 .f32) (f : v.ty.Contents (Elt F))
    (T : List (View.Piece (Elt F) S1x64x1 .f32)) (n : ℕ) (hn : n = 16) :
    v.read (Elt F) (v.writes (Elt F) f ((pb_k0_t1 (F := F) 𝒱 c bd i arg2 harg2 arg3 harg3 arg4 harg4 (harg2.unread x0) G3 G4 n).1 ++ T)) = st1 𝒱 c bd i arg2 harg2 arg3 harg3 arg4 harg4 x0 G3 G4 16 := by
  subst hn
  exact (read_pb_succ_fst 𝒱 c bd i arg2 harg2 arg3 harg3 arg4 harg4 x0 G3 G4 v f T ⟨15, by decide⟩).trans (st1_succ 𝒱 c bd i arg2 harg2 arg3 harg3 arg4 harg4 x0 G3 G4 ⟨15, by decide⟩).symm
theorem read_pb_all_snd {sig' : RefSig} {κ' : Kind} {sp' : Space} (v : View sig' κ' sp' S1x64x64 .f32) (f : v.ty.Contents (Elt F))
    (T : List (View.Piece (Elt F) S1x64x64 .f32)) (n : ℕ) (hn : n = 16) :
    v.read (Elt F) (v.writes (Elt F) f ((pb_k0_t1 (F := F) 𝒱 c bd i arg2 harg2 arg3 harg3 arg4 harg4 (harg2.unread x0) G3 G4 n).2 ++ T)) = st2 𝒱 c bd i arg2 harg2 arg3 harg3 arg4 harg4 x0 G3 G4 16 := by
  subst hn
  exact (read_pb_succ_snd 𝒱 c bd i arg2 harg2 arg3 harg3 arg4 harg4 x0 G3 G4 v f T ⟨15, by decide⟩).trans (st2_succ 𝒱 c bd i arg2 harg2 arg3 harg3 arg4 harg4 x0 G3 G4 ⟨15, by decide⟩).symm

end Trips

/-! ## The payloads at an index, at the ideal values -/

/-- The reduced index with the summed coordinate put back. -/
theorem lift_row (g : Fin 64) (t : Fin 3136) : reduces_S64x3136_S64.lift (ix1 g) t = ix2 g t := by
  funext a
  match a with
  | ⟨0, _⟩ => exact Fin.ext rfl
  | ⟨1, _⟩ => exact Fin.ext rfl

/-- The loaded row with its unit axis dropped. -/
theorem pay3_apply (v5 : Vec Ideal S1x64x3136 .f32) (g : Fin 64) (t : Fin 3136) :
    k0_pay3 (F := Ideal) v5 (ix2 g t) = v5 (ix3 0 g t) := by
  unfold k0_pay3
  exact shapeCast_1ab_ab_apply v5 _ g t

/-- A vector cast to a one-column matrix reads its entry. -/
theorem col_apply (v : FVec Ideal S64 .f32) (g : Fin 64) :
    shapeCast S64x1 v shapeCasts_S64_S64x1 (ix2 g 0) = v (ix1 g) :=
  shapeCast_apply v _ _ _ (by
    rw [Shape.rowMajor_val_one, Shape.rowMajor_val_two]
    show g.val = g.val * 1 + 0
    omega)

/-- The first accumulator's update: what it held plus the row's sum over the last axis. -/
theorem pay4_apply (v5 : Vec Ideal S1x64x3136 .f32) (v7 : Vec Ideal S1x64x1 .f32) (g : Fin 64) :
    k0_pay4 (F := Ideal) v5 v7 (ix3 0 g 0) = v7 (ix3 0 g 0) + ∑ t : Fin 3136, v5 (ix3 0 g t) := by
  unfold k0_pay4
  dsimp only
  rw [shapeCast_ab_1ab_apply, addf_apply, shapeCast_1ab_ab_apply, col_apply]
  congr 1
  refine (Ideal.multiReduction_add_single _ _ _ _ _ _).trans (Finset.sum_congr rfl ?_)
  intro (t : Fin 3136) _
  rw [lift_row, pay3_apply]

/-- The product's operand indices, coordinate by coordinate: the left operand is read at (row, contraction position),
    the right one at (column, contraction position). -/
theorem lhs_D_0 (j : S64x64.Idx) (q : dot_S64x3136_S64x3136_S64x64_1_1_0_0_n_n.contr.Idx) : (dot_S64x3136_S64x3136_S64x64_1_1_0_0_n_n.lhsIdx j q 0).val = (j 0).val := by
  unfold DotDims.lhsIdx
  rw [dif_neg (show ¬(0 : Fin S64x3136.rank) ∈ dot_S64x3136_S64x3136_S64x64_1_1_0_0_n_n.lhsBatch by decide), dif_pos (show (0 : Fin S64x3136.rank) ∈ dot_S64x3136_S64x3136_S64x64_1_1_0_0_n_n.lhsNonContracting by decide)]
  rfl
theorem lhs_D_1 (j : S64x64.Idx) (q : dot_S64x3136_S64x3136_S64x64_1_1_0_0_n_n.contr.Idx) : (dot_S64x3136_S64x3136_S64x64_1_1_0_0_n_n.lhsIdx j q 1).val = (q ⟨0, by decide⟩).val :=
  dot_S64x3136_S64x3136_S64x64_1_1_0_0_n_n.lhsIdx_val_of_single rfl j q
theorem rhs_D_0 (j : S64x64.Idx) (q : dot_S64x3136_S64x3136_S64x64_1_1_0_0_n_n.contr.Idx) : (dot_S64x3136_S64x3136_S64x64_1_1_0_0_n_n.rhsIdx j q 0).val = (j 1).val := by
  unfold DotDims.rhsIdx
  rw [dif_neg (show ¬(0 : Fin S64x3136.rank) ∈ dot_S64x3136_S64x3136_S64x64_1_1_0_0_n_n.rhsBatch by decide), dif_pos (show (0 : Fin S64x3136.rank) ∈ dot_S64x3136_S64x3136_S64x64_1_1_0_0_n_n.rhsNonContracting by decide)]
  rfl
theorem rhs_D_1 (j : S64x64.Idx) (q : dot_S64x3136_S64x3136_S64x64_1_1_0_0_n_n.contr.Idx) : (dot_S64x3136_S64x3136_S64x64_1_1_0_0_n_n.rhsIdx j q 1).val = (q ⟨0, by decide⟩).val :=
  dot_S64x3136_S64x3136_S64x64_1_1_0_0_n_n.rhsIdx_val_of_single rfl j q

/-- The second accumulator's update: what it held plus the row times its own transpose. -/
theorem pay5_apply (v5 : Vec Ideal S1x64x3136 .f32) (v15 : Vec Ideal S1x64x64 .f32) (g g' : Fin 64) :
    k0_pay5 (F := Ideal) v5 v15 (ix3 0 g g') = v15 (ix3 0 g g') + ∑ t : Fin 3136, v5 (ix3 0 g t) * v5 (ix3 0 g' t) := by
  unfold k0_pay5
  rw [shapeCast_ab_1ab_apply, addf_apply, shapeCast_1ab_ab_apply]
  congr 1
  refine (Ideal.matmul_constant_zero_apply dot_S64x3136_S64x3136_S64x64_1_1_0_0_n_n none _ _ _).trans ?_
  rw [← Equiv.sum_comp (contrEquiv1 dot_S64x3136_S64x3136_S64x64_1_1_0_0_n_n 3136 rfl rfl).symm]
  refine Finset.sum_congr rfl fun k _ => ?_
  have hk := contrEquiv1_symm_val dot_S64x3136_S64x3136_S64x64_1_1_0_0_n_n 3136 rfl rfl k
  have el : dot_S64x3136_S64x3136_S64x64_1_1_0_0_n_n.lhsIdx (ix2 g g') ((contrEquiv1 dot_S64x3136_S64x3136_S64x64_1_1_0_0_n_n 3136 rfl rfl).symm k) = ix2 g k := funext fun a => Fin.ext (by
    match a with
    | ⟨0, _⟩ => exact lhs_D_0 _ _
    | ⟨1, _⟩ => exact (lhs_D_1 _ _).trans hk)
  have er : dot_S64x3136_S64x3136_S64x64_1_1_0_0_n_n.rhsIdx (ix2 g g') ((contrEquiv1 dot_S64x3136_S64x3136_S64x64_1_1_0_0_n_n 3136 rfl rfl).symm k) = ix2 g' k := funext fun a => Fin.ext (by
    match a with
    | ⟨0, _⟩ => exact rhs_D_0 _ _
    | ⟨1, _⟩ => exact (rhs_D_1 _ _).trans hk)
  rw [el, er, pay3_apply, pay3_apply]

/-- The two resets write zeros. -/
theorem pay1_apply (g : Fin 64) : k0_pay1 (F := Ideal) (ix3 0 g 0) = 0 := by
  unfold k0_pay1
  rw [shapeCast_ab_1ab_apply, broadcast_apply]
  exact Ideal.ofBits_zero_f32
theorem pay2_apply (g g' : Fin 64) : k0_pay2 (F := Ideal) (ix3 0 g g') = 0 := by
  unfold k0_pay2
  rw [shapeCast_ab_1ab_apply, broadcast_apply]
  exact Ideal.ofBits_zero_f32

/-- Row `k` of the input block at an index. -/
theorem ld_row_apply (x0 : Vec Ideal S16x64x3136 .f32) (k : Fin k0_t1_loop.trips) (hk : k.val < 16) (g : Fin 64) (t : Fin 3136) :
    View.ld x0 (Rect.unit (s := S16x64x3136) (k0_off1 k) S1x64x3136.size (k0_off1_inb k)) (ix3 0 g t) = x0 (ix3 ⟨k.val, hk⟩ g t) := by
  show x0 _ = x0 _
  congr 1
  funext a
  match a with
  | ⟨0, _⟩ => exact Fin.ext (by show k0_off1 k 0 + 1 * (0 : ℕ) = k.val; rw [k0_off1_eq]; rfl)
  | ⟨1, _⟩ => exact Fin.ext (by show k0_off1 k 1 + 1 * g.val = g.val; rw [k0_off1_eq]; show 0 + 1 * g.val = g.val; omega)
  | ⟨2, _⟩ => exact Fin.ext (by show k0_off1 k 2 + 1 * t.val = t.val; rw [k0_off1_eq]; show 0 + 1 * t.val = t.val; omega)

/-! ## The sums -/

/-- Row `r`'s contribution to each accumulator at an index (nothing past the last row). -/
def rowSum1 (x0 : Vec Ideal S16x64x3136 .f32) (g : Fin 64) (r : ℕ) : EReal :=
  if h : r < 16 then ∑ t : Fin 3136, x0 (ix3 (⟨r, h⟩ : Fin 16) g t) else 0
def rowSum2 (x0 : Vec Ideal S16x64x3136 .f32) (g g' : Fin 64) (r : ℕ) : EReal :=
  if h : r < 16 then ∑ t : Fin 3136, x0 (ix3 (⟨r, h⟩ : Fin 16) g t) * x0 (ix3 (⟨r, h⟩ : Fin 16) g' t) else 0

theorem sum_rowSum1 (x0 : Vec Ideal S16x64x3136 .f32) (g : Fin 64) :
    ∑ r ∈ Finset.range 16, rowSum1 x0 g r = ∑ r : Fin 16, ∑ t : Fin 3136, x0 (ix3 r g t) := by
  rw [← Fin.sum_univ_eq_sum_range (rowSum1 x0 g) 16]
  exact Finset.sum_congr rfl fun r _ => dif_pos r.isLt
theorem sum_rowSum2 (x0 : Vec Ideal S16x64x3136 .f32) (g g' : Fin 64) :
    ∑ r ∈ Finset.range 16, rowSum2 x0 g g' r = ∑ r : Fin 16, ∑ t : Fin 3136, x0 (ix3 r g t) * x0 (ix3 r g' t) := by
  rw [← Fin.sum_univ_eq_sum_range (rowSum2 x0 g g') 16]
  exact Finset.sum_congr rfl fun r _ => dif_pos r.isLt

section Value

variable (𝒱 : Variants) (c : Dev nD) (bd : Option 𝒱.V) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole)
  (x0 : Vec Ideal S16x64x3136 .f32) (G3 : BufTy.Contents (Elt Ideal) arg3.view.ty) (G4 : BufTy.Contents (Elt Ideal) arg4.view.ty)

/-- After `n` trips each accumulator reads what it held at the loop's entry plus the first `n` rows' contributions. -/
theorem st1_val (n : ℕ) (hn : n ≤ 16) (g : Fin 64) :
    st1 (F := Ideal) 𝒱 c bd i arg2 harg2 arg3 harg3 arg4 harg4 x0 G3 G4 n (ix3 0 g 0)
      = arg3.view.read (Elt Ideal) G3 (ix3 0 g 0) + ∑ r ∈ Finset.range n, rowSum1 x0 g r := by
  induction n with
  | zero =>
    show arg3.view.read (Elt Ideal) G3 (ix3 0 g 0) = _
    rw [Finset.range_zero, Finset.sum_empty, add_zero]
  | succ n ih =>
    have hn' : n < 16 := by omega
    have hk : n < k0_t1_loop.trips := lt_of_lt_of_eq hn' (by decide)
    have e : st1 (F := Ideal) 𝒱 c bd i arg2 harg2 arg3 harg3 arg4 harg4 x0 G3 G4 (n + 1) = k0_pay4 (rowOf x0 ⟨n, hk⟩) (st1 (F := Ideal) 𝒱 c bd i arg2 harg2 arg3 harg3 arg4 harg4 x0 G3 G4 n) :=
      st1_succ 𝒱 c bd i arg2 harg2 arg3 harg3 arg4 harg4 x0 G3 G4 ⟨n, hk⟩
    rw [e, pay4_apply, ih (by omega), Finset.sum_range_succ, add_assoc]
    congr 2
    unfold rowSum1
    rw [dif_pos hn']
    exact Finset.sum_congr rfl fun t _ => ld_row_apply x0 ⟨n, hk⟩ hn' g t
theorem st2_val (n : ℕ) (hn : n ≤ 16) (g g' : Fin 64) :
    st2 (F := Ideal) 𝒱 c bd i arg2 harg2 arg3 harg3 arg4 harg4 x0 G3 G4 n (ix3 0 g g')
      = arg4.view.read (Elt Ideal) G4 (ix3 0 g g') + ∑ r ∈ Finset.range n, rowSum2 x0 g g' r := by
  induction n with
  | zero =>
    show arg4.view.read (Elt Ideal) G4 (ix3 0 g g') = _
    rw [Finset.range_zero, Finset.sum_empty, add_zero]
  | succ n ih =>
    have hn' : n < 16 := by omega
    have hk : n < k0_t1_loop.trips := lt_of_lt_of_eq hn' (by decide)
    have e : st2 (F := Ideal) 𝒱 c bd i arg2 harg2 arg3 harg3 arg4 harg4 x0 G3 G4 (n + 1) = k0_pay5 (rowOf x0 ⟨n, hk⟩) (st2 (F := Ideal) 𝒱 c bd i arg2 harg2 arg3 harg3 arg4 harg4 x0 G3 G4 n) :=
      st2_succ 𝒱 c bd i arg2 harg2 arg3 harg3 arg4 harg4 x0 G3 G4 ⟨n, hk⟩
    rw [e, pay5_apply, ih (by omega), Finset.sum_range_succ, add_assoc]
    congr 2
    unfold rowSum2
    rw [dif_pos hn']
    exact Finset.sum_congr rfl fun t _ => congrArg₂ (· * ·) (ld_row_apply x0 ⟨n, hk⟩ hn' g t) (ld_row_apply x0 ⟨n, hk⟩ hn' g' t)

end Value

/-! ## The four readings -/

theorem out0_A_1_apply (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i) (x0 : Vec Ideal S16x64x3136 .f32) (g : Fin 64) :
    out0_A_1 (F := Ideal) c i arg2 harg2 arg3 harg3 arg4 harg4 hc0 x0 (ix3 0 g 0) = ∑ r : Fin 16, ∑ t : Fin 3136, x0 (ix3 r g t) := by
  unfold out0_A_1 kernelRun0_A
  dsimp only
  rw [read_pb_all_fst _ _ _ _ arg2 harg2 arg3 harg3 arg4 harg4 x0 _ _ VO0_1 _ _ _ (by decide), st1_val _ _ _ _ arg2 harg2 arg3 harg3 arg4 harg4 x0 _ _ 16 le_rfl g, sum_rowSum1]
  rw [show kernelRun0_A.sl.H1_1 (F := Ideal) = [(⟨Rect.unit ![0, 0, 0] S1x64x1.size inb_S1x64x1_S1x64x1_0_0_0, k0_pay1 (F := Ideal)⟩ : View.Piece (Elt Ideal) S1x64x1 .f32)] from rfl,
    read_writes_cons_whole _ _ zeros3, pay1_apply, zero_add]
theorem out0_A_2_apply (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : cond0_0 i) (x0 : Vec Ideal S16x64x3136 .f32) (g g' : Fin 64) :
    out0_A_2 (F := Ideal) c i arg2 harg2 arg3 harg3 arg4 harg4 hc0 x0 (ix3 0 g g') = ∑ r : Fin 16, ∑ t : Fin 3136, x0 (ix3 r g t) * x0 (ix3 r g' t) := by
  unfold out0_A_2 kernelRun0_A
  dsimp only
  rw [read_pb_all_snd _ _ _ _ arg2 harg2 arg3 harg3 arg4 harg4 x0 _ _ VO0_2 _ _ _ (by decide), st2_val _ _ _ _ arg2 harg2 arg3 harg3 arg4 harg4 x0 _ _ 16 le_rfl g g', sum_rowSum2]
  rw [show kernelRun0_A.sl.H2_1 (F := Ideal) = [(⟨Rect.unit ![0, 0, 0] S1x64x64.size inb_S1x64x64_S1x64x64_0_0_0, k0_pay2 (F := Ideal)⟩ : View.Piece (Elt Ideal) S1x64x64 .f32)] from rfl,
    read_writes_cons_whole _ _ zeros3, pay2_apply, zero_add]
theorem out0_B_1_apply (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i) (x0 : Vec Ideal S16x64x3136 .f32)
    (xo1 : Vec Ideal S1x64x1 .f32) (xo2 : Vec Ideal S1x64x64 .f32) (g : Fin 64) :
    out0_B_1 (F := Ideal) c i arg2 harg2 arg3 harg3 arg4 harg4 hc0 x0 xo1 xo2 (ix3 0 g 0) = xo1 (ix3 0 g 0) + ∑ r : Fin 16, ∑ t : Fin 3136, x0 (ix3 r g t) := by
  unfold out0_B_1 kernelRun0_B
  dsimp only
  rw [← List.append_nil (pb_k0_t1 _ _ _ _ _ _ _ _ _ _ _ _ _ _).1,
    read_pb_all_fst _ _ _ _ arg2 harg2 arg3 harg3 arg4 harg4 x0 _ _ VO0_1 _ _ _ (by decide), st1_val _ _ _ _ arg2 harg2 arg3 harg3 arg4 harg4 x0 _ _ 16 le_rfl g, sum_rowSum1,
    harg3.read_unread]
theorem out0_B_2_apply (c : Dev nD) (i : grid0.Coords) (arg2 : Memref sig .tc .vmem S16x64x3136 .f32) (harg2 : arg2.IsWhole) (arg3 : Memref sig .tc .vmem S1x64x1 .f32) (harg3 : arg3.IsWhole) (arg4 : Memref sig .tc .vmem S1x64x64 .f32) (harg4 : arg4.IsWhole) (hc0 : ¬cond0_0 i) (x0 : Vec Ideal S16x64x3136 .f32)
    (xo1 : Vec Ideal S1x64x1 .f32) (xo2 : Vec Ideal S1x64x64 .f32) (g g' : Fin 64) :
    out0_B_2 (F := Ideal) c i arg2 harg2 arg3 harg3 arg4 harg4 hc0 x0 xo1 xo2 (ix3 0 g g') = xo2 (ix3 0 g g') + ∑ r : Fin 16, ∑ t : Fin 3136, x0 (ix3 r g t) * x0 (ix3 r g' t) := by
  unfold out0_B_2 kernelRun0_B
  dsimp only
  rw [← List.append_nil (pb_k0_t1 _ _ _ _ _ _ _ _ _ _ _ _ _ _).2,
    read_pb_all_snd _ _ _ _ arg2 harg2 arg3 harg3 arg4 harg4 x0 _ _ VO0_2 _ _ _ (by decide), st2_val _ _ _ _ arg2 harg2 arg3 harg3 arg4 harg4 x0 _ _ 16 le_rfl g g', sum_rowSum2,
    harg4.read_unread]

end Cert.KernelIdeal.Fr

end
-- ==== Proof.KI.Val0.lean ====
/-
  The statistics launch's two result arrays after the whole grid, read at an index: row `p` of each holds, summed over
  the eight blocks of grid row `p` (sixteen samples each), what the body adds per block — the plain sum of the samples'
  entries for the first array, the sum of their products for the second. The accumulators are followed point by point
  (a row's first point resets, every other adds its block), and only a row's last point writes its buffers back, each
  into its own row of the arrays.
-/
import proofs.«421103_j37855841747396_3_alg».proof.Proof.KI.Val0Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- Row `16·(8p + q) + r` of the input array: sample `r` of block `q` of grid row `p`. -/
def bIdx (p : Fin 2) (q : Fin 8) (r : Fin 16) : Fin 256 :=
  ⟨(p.val * 8 + q.val) * 16 + r.val, by have := p.isLt; have := q.isLt; have := r.isLt; omega⟩

/-- The input array as the region finds it, as a function of its indices. -/
abbrev X0 (c : Dev nD) : S256x64x3136.Idx → EReal := V c main_v0

/-! ## The index maps, decided over the grid -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx0_1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)
theorem idx0_2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-! ## The input block at a point, read at an index -/

/-- Block `t` of the input array holds its rows `16·t … 16·t + 15`. -/
theorem iblk0_apply (c : Dev nD) (t : Fin cfg0.N) (r : Fin 16) (g : Fin 64) (u : Fin 3136) (h : t.val * 16 + r.val < 256) :
    (iblk0 V c 0 t : S16x64x3136.Idx → EReal) (ix3 r g u) = X0 V c (ix3 ⟨t.val * 16 + r.val, h⟩ g u) := by
  obtain ⟨e0, e1, e2⟩ := idx0_0 t
  unfold iblk0
  rw [View.read_apply]
  show V c main_v0 _ = V c main_v0 _
  congr 1
  funext a
  apply Fin.ext
  match a with
  | ⟨0, _⟩ => show win0_0.index t (0 : Fin 3) * 16 + 1 * r.val = t.val * 16 + r.val; rw [e0]; omega
  | ⟨1, _⟩ => show win0_0.index t (1 : Fin 3) * 64 + 1 * g.val = g.val; rw [e1]; omega
  | ⟨2, _⟩ => show win0_0.index t (2 : Fin 3) * 3136 + 1 * u.val = u.val; rw [e2]; omega

/-! ## What one block adds -/

/-- The input block at point `t`, as a function of its indices. -/
abbrev IB (c : Dev nD) (t : Fin cfg0.N) : S16x64x3136.Idx → EReal := iblk0 V c 0 t

/-- Block `k`'s addend to the first accumulator at column `g`: the sum of its sixteen samples' entries. -/
def B1 (c : Dev nD) (g : Fin 64) (k : ℕ) : EReal :=
  if hk : k < 16 then ∑ r : Fin 16, ∑ u : Fin 3136, X0 V c (ix3 ⟨k * 16 + r.val, by have := r.isLt; omega⟩ g u) else 0

/-- Block `k`'s addend to the second accumulator at `(g, g')`: the sum of its samples' products. -/
def B2 (c : Dev nD) (g g' : Fin 64) (k : ℕ) : EReal :=
  if hk : k < 16 then ∑ r : Fin 16, ∑ u : Fin 3136,
    X0 V c (ix3 ⟨k * 16 + r.val, by have := r.isLt; omega⟩ g u) * X0 V c (ix3 ⟨k * 16 + r.val, by have := r.isLt; omega⟩ g' u) else 0

theorem blk1_eq (c : Dev nD) (g : Fin 64) (t : Fin cfg0.N) :
    ∑ r : Fin 16, ∑ u : Fin 3136, IB V c t (ix3 r g u) = B1 V c g t.val := by
  have hN : t.val < 16 := lt_of_lt_of_eq t.isLt (show cfg0.N = 16 from N_0)
  unfold B1
  rw [dif_pos hN]
  exact Finset.sum_congr rfl fun r _ => Finset.sum_congr rfl fun u _ => iblk0_apply V c t r g u _

theorem blk2_eq (c : Dev nD) (g g' : Fin 64) (t : Fin cfg0.N) :
    ∑ r : Fin 16, ∑ u : Fin 3136, IB V c t (ix3 r g u) * IB V c t (ix3 r g' u)
      = B2 V c g g' t.val := by
  have hN : t.val < 16 := lt_of_lt_of_eq t.isLt (show cfg0.N = 16 from N_0)
  unfold B2
  rw [dif_pos hN]
  exact Finset.sum_congr rfl fun r _ => Finset.sum_congr rfl fun u _ =>
    congrArg₂ (· * ·) (iblk0_apply V c t r g u _) (iblk0_apply V c t r g' u _)

/-! ## The accumulators point by point -/

/-- A point that begins a row leaves its block's addend. -/
theorem acc1_A (c : Dev nD) (g : Fin 64) (n : ℕ) (h : n < cfg0.N) (h0 : n % 8 = 0) :
    ((outsAt0 V c n h).1 : S1x64x1.Idx → EReal) (ix3 0 g 0) = B1 V c g n := by
  rw [outsAt0_A V c ⟨n, h⟩ h0]
  show out0_A_1 (F := Ideal) c _ _ _ _ _ _ _ _ _ (ix3 0 g 0) = _
  rw [out0_A_1_apply]
  exact blk1_eq V c g ⟨n, h⟩
theorem acc2_A (c : Dev nD) (g g' : Fin 64) (n : ℕ) (h : n < cfg0.N) (h0 : n % 8 = 0) :
    ((outsAt0 V c n h).2 : S1x64x64.Idx → EReal) (ix3 0 g g') = B2 V c g g' n := by
  rw [outsAt0_A V c ⟨n, h⟩ h0]
  show out0_A_2 (F := Ideal) c _ _ _ _ _ _ _ _ _ (ix3 0 g g') = _
  rw [out0_A_2_apply]
  exact blk2_eq V c g g' ⟨n, h⟩

/-- Any other point adds its block's addend to what the point before left. -/
theorem acc1_B (c : Dev nD) (g : Fin 64) (n : ℕ) (h : n + 1 < cfg0.N) (h0 : ¬(n + 1) % 8 = 0) :
    ((outsAt0 V c (n + 1) h).1 : S1x64x1.Idx → EReal) (ix3 0 g 0)
      = ((outsAt0 V c n (Nat.lt_of_succ_lt h)).1 : S1x64x1.Idx → EReal) (ix3 0 g 0) + B1 V c g (n + 1) := by
  rw [outsAt0_B V c ⟨n + 1, h⟩ h0]
  show out0_B_1 (F := Ideal) c _ _ _ _ _ _ _ _ _ _ _ (ix3 0 g 0) = _
  rw [out0_B_1_apply]
  exact congrArg _ (blk1_eq V c g ⟨n + 1, h⟩)
theorem acc2_B (c : Dev nD) (g g' : Fin 64) (n : ℕ) (h : n + 1 < cfg0.N) (h0 : ¬(n + 1) % 8 = 0) :
    ((outsAt0 V c (n + 1) h).2 : S1x64x64.Idx → EReal) (ix3 0 g g')
      = ((outsAt0 V c n (Nat.lt_of_succ_lt h)).2 : S1x64x64.Idx → EReal) (ix3 0 g g') + B2 V c g g' (n + 1) := by
  rw [outsAt0_B V c ⟨n + 1, h⟩ h0]
  show out0_B_2 (F := Ideal) c _ _ _ _ _ _ _ _ _ _ _ (ix3 0 g g') = _
  rw [out0_B_2_apply]
  exact congrArg _ (blk2_eq V c g g' ⟨n + 1, h⟩)

/-- So after point `n` the first accumulator holds the addends of its row's blocks up to `n`. -/
theorem acc1 (c : Dev nD) (g : Fin 64) (n : ℕ) : ∀ (h : n < cfg0.N),
    ((outsAt0 V c n h).1 : S1x64x1.Idx → EReal) (ix3 0 g 0) = ∑ s ∈ Finset.range (n % 8 + 1), B1 V c g (8 * (n / 8) + s) := by
  induction n with
  | zero => intro h; rw [acc1_A V c g 0 h rfl]; simp
  | succ n ih =>
    intro h
    by_cases h0 : (n + 1) % 8 = 0
    · rw [acc1_A V c g (n + 1) h h0, h0, Nat.zero_add, Finset.sum_range_one]
      congr 1; omega
    · have e1 : (n + 1) % 8 = n % 8 + 1 := by omega
      have e2 : (n + 1) / 8 = n / 8 := by omega
      rw [acc1_B V c g n h h0, ih (Nat.lt_of_succ_lt h), e1, e2, Finset.sum_range_succ _ (n % 8 + 1)]
      congr 2; omega
theorem acc2 (c : Dev nD) (g g' : Fin 64) (n : ℕ) : ∀ (h : n < cfg0.N),
    ((outsAt0 V c n h).2 : S1x64x64.Idx → EReal) (ix3 0 g g') = ∑ s ∈ Finset.range (n % 8 + 1), B2 V c g g' (8 * (n / 8) + s) := by
  induction n with
  | zero => intro h; rw [acc2_A V c g g' 0 h rfl]; simp
  | succ n ih =>
    intro h
    by_cases h0 : (n + 1) % 8 = 0
    · rw [acc2_A V c g g' (n + 1) h h0, h0, Nat.zero_add, Finset.sum_range_one]
      congr 1; omega
    · have e1 : (n + 1) % 8 = n % 8 + 1 := by omega
      have e2 : (n + 1) / 8 = n / 8 := by omega
      rw [acc2_B V c g g' n h h0, ih (Nat.lt_of_succ_lt h), e1, e2, Finset.sum_range_succ _ (n % 8 + 1)]
      congr 2; omega

/-! ## What the write-backs write: each row's last point, the whole row's sums -/

/-- Row `p`'s sums at column `g`, as contents of the first result array. -/
def G1 (c : Dev nD) : S2x64x1.Idx → EReal := fun i =>
  ∑ q : Fin 8, ∑ r : Fin 16, ∑ u : Fin 3136, X0 V c (ix3 (bIdx ⟨(i 0).val, (i 0).isLt⟩ q r) ⟨(i 1).val, (i 1).isLt⟩ u)

/-- Row `p`'s sums of products at `(g, g')`, as contents of the second result array. -/
def G2 (c : Dev nD) : S2x64x64.Idx → EReal := fun i =>
  ∑ q : Fin 8, ∑ r : Fin 16, ∑ u : Fin 3136,
    X0 V c (ix3 (bIdx ⟨(i 0).val, (i 0).isLt⟩ q r) ⟨(i 1).val, (i 1).isLt⟩ u) * X0 V c (ix3 (bIdx ⟨(i 0).val, (i 0).isLt⟩ q r) ⟨(i 2).val, (i 2).isLt⟩ u)

/-- An index of a `[1, 64, 1]` block is `(0, g, 0)`. -/
theorem idx_1x64x1 (y : S1x64x1.Idx) : y = ix3 0 (y 1) 0 := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)
/-- An index of a `[1, 64, 64]` block is `(0, g, g')`. -/
theorem idx_1x64x64 (y : S1x64x64.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The rows of the input array that grid row `t / 8`'s block `q` holds, named both ways. -/
theorem row_eq (t : ℕ) (ht : t / 8 < 2) (q : Fin 8) (r : Fin 16) (h : (8 * (t / 8) + q.val) * 16 + r.val < 256) :
    (⟨(8 * (t / 8) + q.val) * 16 + r.val, h⟩ : Fin 256) = bIdx ⟨t / 8, ht⟩ q r :=
  Fin.ext (by show (8 * (t / 8) + q.val) * 16 + r.val = (t / 8 * 8 + q.val) * 16 + r.val; omega)

/-- The first accumulator after a row's last point: the whole row's sums. -/
theorem row1 (c : Dev nD) (t : Fin cfg0.N) (h7 : t.val % 8 = 7) (ht : t.val / 8 < 2) (g : Fin 64) :
    ((outsAt0 V c t.val t.isLt).1 : S1x64x1.Idx → EReal) (ix3 0 g 0) = G1 V c (ix3 ⟨t.val / 8, ht⟩ g 0) := by
  have hN : t.val < 16 := lt_of_lt_of_eq t.isLt (show cfg0.N = 16 from N_0)
  have e8 : t.val % 8 + 1 = 8 := by omega
  refine (acc1 V c g t.val t.isLt).trans ?_
  rw [e8, Finset.sum_range]
  unfold G1
  refine Finset.sum_congr rfl fun q _ => ?_
  unfold B1
  rw [dif_pos (by have := q.isLt; omega)]
  refine Finset.sum_congr rfl fun r _ => Finset.sum_congr rfl fun u _ => ?_
  rw [row_eq t.val ht q r]
/-- The second accumulator after a row's last point: the whole row's sums of products. -/
theorem row2 (c : Dev nD) (t : Fin cfg0.N) (h7 : t.val % 8 = 7) (ht : t.val / 8 < 2) (g g' : Fin 64) :
    ((outsAt0 V c t.val t.isLt).2 : S1x64x64.Idx → EReal) (ix3 0 g g') = G2 V c (ix3 ⟨t.val / 8, ht⟩ g g') := by
  have hN : t.val < 16 := lt_of_lt_of_eq t.isLt (show cfg0.N = 16 from N_0)
  have e8 : t.val % 8 + 1 = 8 := by omega
  refine (acc2 V c g g' t.val t.isLt).trans ?_
  rw [e8, Finset.sum_range]
  unfold G2
  refine Finset.sum_congr rfl fun q _ => ?_
  unfold B2
  rw [dif_pos (by have := q.isLt; omega)]
  refine Finset.sum_congr rfl fun r _ => Finset.sum_congr rfl fun u _ => ?_
  rw [row_eq t.val ht q r]

theorem flushed0_1_eq (c : Dev nD) (t : Fin cfg0.N) (hf : (cfg0.win 1).flush t = true) :
    (dat0 V c).flushed 1 t = ((cfg0.win 1).blk t).view.read (Elt Ideal) (G1 V c) := by
  have hN : t.val < 16 := lt_of_lt_of_eq t.isLt (show cfg0.N = 16 from N_0)
  have h7 : t.val % 8 = 7 := (flush0_1 t).mp hf
  obtain ⟨e0, e1, e2⟩ := idx0_1 t
  funext y
  obtain ⟨g, rfl⟩ : ∃ g : Fin 64, y = (ix3 0 g 0 : S1x64x1.Idx) := ⟨y 1, idx_1x64x1 y⟩
  rw [View.read_apply]
  show ((dat0 V c).after 1 t : S1x64x1.Idx → EReal) (ix3 0 g 0) = G1 V c (((cfg0.win 1).blk t).view.emb (ix3 0 g 0))
  have hemb : ((cfg0.win 1).blk t).view.emb (ix3 0 g 0 : S1x64x1.Idx) = (ix3 ⟨t.val / 8, by omega⟩ g 0 : S2x64x1.Idx) := by
    funext a
    apply Fin.ext
    match a with
    | ⟨0, _⟩ => show win0_1.index t (0 : Fin 3) * 1 + 1 * 0 = t.val / 8; rw [e0]; omega
    | ⟨1, _⟩ => show win0_1.index t (1 : Fin 3) * 64 + 1 * g.val = g.val; rw [e1]; omega
    | ⟨2, _⟩ => show win0_1.index t (2 : Fin 3) * 1 + 1 * 0 = 0; rw [e2]
  rw [hemb]
  exact (congrFun (after0_1 V c t) (ix3 0 g 0)).trans (row1 V c t h7 (by omega) g)

theorem flushed0_2_eq (c : Dev nD) (t : Fin cfg0.N) (hf : (cfg0.win 2).flush t = true) :
    (dat0 V c).flushed 2 t = ((cfg0.win 2).blk t).view.read (Elt Ideal) (G2 V c) := by
  have hN : t.val < 16 := lt_of_lt_of_eq t.isLt (show cfg0.N = 16 from N_0)
  have h7 : t.val % 8 = 7 := (flush0_2 t).mp hf
  obtain ⟨e0, e1, e2⟩ := idx0_2 t
  funext y
  obtain ⟨g, g', rfl⟩ : ∃ g g' : Fin 64, y = (ix3 0 g g' : S1x64x64.Idx) := ⟨y 1, y 2, idx_1x64x64 y⟩
  rw [View.read_apply]
  show ((dat0 V c).after 2 t : S1x64x64.Idx → EReal) (ix3 0 g g') = G2 V c (((cfg0.win 2).blk t).view.emb (ix3 0 g g'))
  have hemb : ((cfg0.win 2).blk t).view.emb (ix3 0 g g' : S1x64x64.Idx) = (ix3 ⟨t.val / 8, by omega⟩ g g' : S2x64x64.Idx) := by
    funext a
    apply Fin.ext
    match a with
    | ⟨0, _⟩ => show win0_2.index t (0 : Fin 3) * 1 + 1 * 0 = t.val / 8; rw [e0]; omega
    | ⟨1, _⟩ => show win0_2.index t (1 : Fin 3) * 64 + 1 * g.val = g.val; rw [e1]; omega
    | ⟨2, _⟩ => show win0_2.index t (2 : Fin 3) * 64 + 1 * g'.val = g'.val; rw [e2]; omega
  rw [hemb]
  exact (congrFun (after0_2 V c t) (ix3 0 g g')).trans (row2 V c t h7 (by omega) g g')

/-! ## The result arrays after the run, read at an index -/

theorem arrAt0_1_apply (c : Dev nD) (p : Fin 2) (g : Fin 64) :
    ((dat0 V c).arrAt 1 cfg0.N : S2x64x1.Idx → EReal) (ix3 p g 0)
      = ∑ q : Fin 8, ∑ r : Fin 16, ∑ t : Fin 3136, X0 V c (ix3 (bIdx p q r) g t) := by
  have hp := p.isLt
  have ht : p.val * 8 + 7 < cfg0.N := by rw [show cfg0.N = 16 from N_0]; omega
  have hf : (cfg0.win 1).flush ⟨p.val * 8 + 7, ht⟩ = true := (flush0_1 _).mpr (by show (p.val * 8 + 7) % 8 = 7; omega)
  obtain ⟨e0, e1, e2⟩ := idx0_1 ⟨p.val * 8 + 7, ht⟩
  have hi : (ix3 p g 0 : S2x64x1.Idx) ∈ ((cfg0.win 1).blk ⟨p.val * 8 + 7, ht⟩).view.set := by
    show (ix3 p g 0 : S2x64x1.Idx) ∈ ((View.whole main_v1_0).slice (win0_1.rect ⟨p.val * 8 + 7, ht⟩)).set
    rw [View.set_slice_whole, Rect.mem_set_unit]
    intro a
    match a with
    | ⟨0, _⟩ => show win0_1.index ⟨p.val * 8 + 7, ht⟩ (0 : Fin 3) * 1 ≤ p.val ∧ p.val < win0_1.index ⟨p.val * 8 + 7, ht⟩ (0 : Fin 3) * 1 + 1
                rw [e0]; show (p.val * 8 + 7) / 8 * 1 ≤ p.val ∧ p.val < (p.val * 8 + 7) / 8 * 1 + 1; omega
    | ⟨1, _⟩ => show win0_1.index ⟨p.val * 8 + 7, ht⟩ (1 : Fin 3) * 64 ≤ g.val ∧ g.val < win0_1.index ⟨p.val * 8 + 7, ht⟩ (1 : Fin 3) * 64 + 64
                rw [e1]; have := g.isLt; omega
    | ⟨2, _⟩ => show win0_1.index ⟨p.val * 8 + 7, ht⟩ (2 : Fin 3) * 1 ≤ 0 ∧ 0 < win0_1.index ⟨p.val * 8 + 7, ht⟩ (2 : Fin 3) * 1 + 1
                rw [e2]; omega
  exact (dat0 V c).arrAt_apply_of_mem 1 (G1 V c) (flushed0_1_eq V c) cfg0.N ⟨p.val * 8 + 7, ht⟩ (ix3 p g 0) ht hf hi

theorem arrAt0_2_apply (c : Dev nD) (p : Fin 2) (g g' : Fin 64) :
    ((dat0 V c).arrAt 2 cfg0.N : S2x64x64.Idx → EReal) (ix3 p g g')
      = ∑ q : Fin 8, ∑ r : Fin 16, ∑ t : Fin 3136,
          X0 V c (ix3 (bIdx p q r) g t) * X0 V c (ix3 (bIdx p q r) g' t) := by
  have hp := p.isLt
  have ht : p.val * 8 + 7 < cfg0.N := by rw [show cfg0.N = 16 from N_0]; omega
  have hf : (cfg0.win 2).flush ⟨p.val * 8 + 7, ht⟩ = true := (flush0_2 _).mpr (by show (p.val * 8 + 7) % 8 = 7; omega)
  obtain ⟨e0, e1, e2⟩ := idx0_2 ⟨p.val * 8 + 7, ht⟩
  have hi : (ix3 p g g' : S2x64x64.Idx) ∈ ((cfg0.win 2).blk ⟨p.val * 8 + 7, ht⟩).view.set := by
    show (ix3 p g g' : S2x64x64.Idx) ∈ ((View.whole main_v1_1).slice (win0_2.rect ⟨p.val * 8 + 7, ht⟩)).set
    rw [View.set_slice_whole, Rect.mem_set_unit]
    intro a
    match a with
    | ⟨0, _⟩ => show win0_2.index ⟨p.val * 8 + 7, ht⟩ (0 : Fin 3) * 1 ≤ p.val ∧ p.val < win0_2.index ⟨p.val * 8 + 7, ht⟩ (0 : Fin 3) * 1 + 1
                rw [e0]; show (p.val * 8 + 7) / 8 * 1 ≤ p.val ∧ p.val < (p.val * 8 + 7) / 8 * 1 + 1; omega
    | ⟨1, _⟩ => show win0_2.index ⟨p.val * 8 + 7, ht⟩ (1 : Fin 3) * 64 ≤ g.val ∧ g.val < win0_2.index ⟨p.val * 8 + 7, ht⟩ (1 : Fin 3) * 64 + 64
                rw [e1]; have := g.isLt; omega
    | ⟨2, _⟩ => show win0_2.index ⟨p.val * 8 + 7, ht⟩ (2 : Fin 3) * 64 ≤ g'.val ∧ g'.val < win0_2.index ⟨p.val * 8 + 7, ht⟩ (2 : Fin 3) * 64 + 64
                rw [e2]; have := g'.isLt; omega
  exact (dat0 V c).arrAt_apply_of_mem 2 (G2 V c) (flushed0_2_eq V c) cfg0.N ⟨p.val * 8 + 7, ht⟩ (ix3 p g g') ht hf hi

end Cert.KernelIdeal.Fr

end
-- ==== Proof.Spec.lean ====
/-
  The mathematics shared by the two programs, stated once and over no program.

  Data: a matrix `X g b t` of 64 features by 256 × 3136 samples (extended reals), a 64×64 matrix `w`, a 64×1 column `bb`.
  Both programs whiten the features: with `μ` the per-feature mean over all samples and `Σ` the covariance plus a small
  multiple of the identity, they form `D = Σ^(-1/2)` by ten Newton–Schulz iterations started from `Σ / ‖Σ‖`, and return
  `(w · D) · (X - μ) + bb`.  One program centres the data first (`covR`, `outR`); the other accumulates the uncentred
  sums and folds the mean into the bias (`covK`, `outK`).  Over finite reals the two agree: the covariance because the
  sample count equals the divisor, the output by distributivity — which needs every entry of `w · D` finite, hence the
  norm of `Σ` nonzero, which the positive diagonal gives.
-/
import Idealize.ShloMosaic.PureOps.Ideal
import Idealize.ShloMosaic.PureOps.Ideal.Laws
import Idealize.ShloMosaic.Lib.ValueIdx
import Idealize.ShloMosaic.Lib.StableHlo.Run

noncomputable section

namespace Cert.Spec

open Idealize.ShloMosaic Idealize.ShloMosaic.ValueIdx

abbrev M64 : Shape := ⟨2, ![64, 64]⟩
abbrev C64 : Shape := ⟨2, ![64, 1]⟩
abbrev S0 : Shape := ⟨0, ![]⟩

theorem hS0 : 0 < S0.numel := by decide
theorem hbM : S0.BroadcastsInDim M64 (![] : Fin 0 → Fin M64.rank) := by decide
theorem hredM : M64.ReducesTo [0, 1] S0 := by decide
theorem dotMM_wf : DotDims.WF M64 M64 M64 [1] [0] [0] [1] [] [] := by decide
theorem dotMC_wf : DotDims.WF M64 C64 C64 [1] [0] [0] [1] [] [] := by decide

/-- The plain product of two 64×64 matrices (contract the left's columns with the right's rows). -/
def dotMM : DotDims M64 M64 M64 where
  lhsContracting := [1]
  rhsContracting := [0]
  lhsNonContracting := [0]
  rhsNonContracting := [1]
  lhsBatch := []
  rhsBatch := []
  wf := dotMM_wf
/-- A 64×64 matrix times a 64×1 column. -/
def dotMC : DotDims M64 C64 C64 where
  lhsContracting := [1]
  rhsContracting := [0]
  lhsNonContracting := [0]
  rhsNonContracting := [1]
  lhsBatch := []
  rhsBatch := []
  wf := dotMC_wf

section Generic
variable {F : FTy → Type} [FloatOps F]

/-- The 64×64 identity, as both programs compute it: row index = column index, converted to a float. -/
def eye : FVec F M64 .f32 :=
  (uitofp .f32 : (⟨M64, .i1⟩ : BufTy).Contents (Elt F) → (⟨M64, .f32⟩ : BufTy).Contents (Elt F))
    ((cmpi .eq : (⟨M64, .i32⟩ : BufTy).Contents (Elt F) → (⟨M64, .i32⟩ : BufTy).Contents (Elt F) → (⟨M64, .i1⟩ : BufTy).Contents (Elt F))
      ((addi : (⟨M64, .i32⟩ : BufTy).Contents (Elt F) → (⟨M64, .i32⟩ : BufTy).Contents (Elt F) → (⟨M64, .i32⟩ : BufTy).Contents (Elt F))
        (iotaInDim M64 32 0)
        ((broadcastInDim M64 ![] hbM : (⟨S0, .i32⟩ : BufTy).Contents (Elt F) → (⟨M64, .i32⟩ : BufTy).Contents (Elt F)) (constantI S0 32 0#32)))
      (iotaInDim M64 32 1))

/-- A scalar spread over the 64×64 matrix. -/
def bcM (s : FVec F S0 .f32) : FVec F M64 .f32 := broadcastInDim M64 ![] hbM s
/-- The float constant `w` spread over the 64×64 matrix. -/
def cM (w : BitVec 32) : FVec F M64 .f32 := bcM (constant S0 .f32 w)
/-- The matrix product. -/
def mm (l r : FVec F M64 .f32) : FVec F M64 .f32 := Host.dotGeneral dotMM none l r
/-- The Frobenius norm. -/
def nrm (a : FVec F M64 .f32) : FVec F S0 .f32 :=
  Host.sqrt (Host.reduceAdd (mulf a a) (constant S0 .f32 0x00000000#32) hredM hS0)
/-- One Newton–Schulz correction: `½ (3 I − Z Y)`. -/
def nsT (I Y Z : FVec F M64 .f32) : FVec F M64 .f32 :=
  mulf (cM 0x3F000000#32) (subf (mulf (cM 0x40400000#32) I) (mm Z Y))
/-- One Newton–Schulz iteration on the pair `(Y, Z)`: `(Y T, T Z)`. -/
def nsStep (I : FVec F M64 .f32) (p : FVec F M64 .f32 × FVec F M64 .f32) : FVec F M64 .f32 × FVec F M64 .f32 :=
  (mm p.1 (nsT I p.1 p.2), mm (nsT I p.1 p.2) p.2)
/-- The inverse square root by ten iterations from `a / ‖a‖`, rescaled by `√‖a‖`; `I` is the identity the programs hold. -/
def decorrI (I a : FVec F M64 .f32) : FVec F M64 .f32 :=
  Host.divf ((nsStep I)^[10] (Host.divf a (bcM (nrm a)), I)).2 (bcM (Host.sqrt (nrm a)))
def decorr (a : FVec F M64 .f32) : FVec F M64 .f32 := decorrI eye a
/-- `ε` times the identity. -/
def epsEye : FVec F M64 .f32 := mulf (cM 0x3727C5AC#32) eye

end Generic

/-! ## The statistics and the two outputs, index by index, at the exact instance -/

/-- The sample count as the programs spell it (802816.0). -/
def Mc : EReal := Ideal.ofBits .f32 0x49440000#32

abbrev Data := Fin 64 → Fin 256 → Fin 3136 → EReal

/-- The per-feature mean. -/
def mu (X : Data) (g : Fin 64) : EReal := Ideal.div (∑ b : Fin 256, ∑ t : Fin 3136, X g b t) Mc

/-- The covariance from uncentred sums: `E[x xᵀ] − μ μᵀ + ε I`. -/
def covK (X : Data) : FVec Ideal M64 .f32 := fun i =>
  Ideal.div (∑ b : Fin 256, ∑ t : Fin 3136, X (i 0) b t * X (i 1) b t) Mc - mu X (i 0) * mu X (i 1) + epsEye (F := Ideal) i

/-- The covariance from centred data: `E[(x−μ)(x−μ)ᵀ] + ε I`. -/
def covR (X : Data) : FVec Ideal M64 .f32 := fun i =>
  Ideal.div (∑ b : Fin 256, ∑ t : Fin 3136, (X (i 0) b t - mu X (i 0)) * (X (i 1) b t - mu X (i 1))) Mc + epsEye (F := Ideal) i

/-- The affine map's matrix. -/
def Amat (w cv : FVec Ideal M64 .f32) : FVec Ideal M64 .f32 := mm w (decorr cv)

/-- The output with the mean folded into the bias. -/
def outK (X : Data) (w : FVec Ideal M64 .f32) (bb : FVec Ideal C64 .f32) (g : Fin 64) (b : Fin 256) (t : Fin 3136) : EReal :=
  (∑ k : Fin 64, Amat w (covK X) (ix2 g k) * X k b t) + (bb (ix2 g 0) - ∑ k : Fin 64, Amat w (covK X) (ix2 g k) * mu X k)

/-- The output on centred data. -/
def outR (X : Data) (w : FVec Ideal M64 .f32) (bb : FVec Ideal C64 .f32) (g : Fin 64) (b : Fin 256) (t : Fin 3136) : EReal :=
  (∑ k : Fin 64, Amat w (covR X) (ix2 g k) * (X k b t - mu X k)) + bb (ix2 g 0)

/-- Every entry a real number. -/
def Finite {ι : Type} (f : ι → EReal) : Prop := ∀ i, ∃ r : ℝ, f i = (r : EReal)

/-- The data matrix read off the 4-dimensional input: sample `b = n·4 + q`, `t = h·56 + w` of feature `g` is channel `q·64 + g`. -/
def Xof (x : (⟨4, ![64, 256, 56, 56]⟩ : Shape).Idx → EReal) : Data := fun g b t =>
  x (ix4 (⟨b.val / 4, by have := b.isLt; omega⟩ : Fin 64) (⟨(b.val % 4) * 64 + g.val, by have := g.isLt; omega⟩ : Fin 256)
      (⟨t.val / 56, by have := t.isLt; omega⟩ : Fin 56) (⟨t.val % 56, Nat.mod_lt _ (by decide)⟩ : Fin 56))

/-- The feature, sample row and sample column of an output position `(n, ch, h, w)`. -/
def gOf (i : (⟨4, ![64, 256, 56, 56]⟩ : Shape).Idx) : Fin 64 := ⟨(i 1).val % 64, Nat.mod_lt _ (by decide)⟩
def bOf (i : (⟨4, ![64, 256, 56, 56]⟩ : Shape).Idx) : Fin 256 :=
  ⟨(i 0).val * 4 + (i 1).val / 64, by have h0 : (i 0).val < 64 := (i 0).isLt; have h1 : (i 1).val < 256 := (i 1).isLt; omega⟩
def tOf (i : (⟨4, ![64, 256, 56, 56]⟩ : Shape).Idx) : Fin 3136 :=
  ⟨(i 2).val * 56 + (i 3).val, by have h2 : (i 2).val < 56 := (i 2).isLt; have h3 : (i 3).val < 56 := (i 3).isLt; omega⟩

end Cert.Spec

end
-- ==== Proof.KI.HostHead.lean ====
/-
  The program's first host stretch after the statistics launch, run from arbitrary buffer contents and read at an index.

  The launch leaves two partial-sum arrays: `s1` (2×64×1, the per-feature sums of the two halves of the samples) and `s2`
  (2×64×64, the sums of products). The stretch adds the two halves, divides by the sample count `Mc` to get the mean
  column `m g = (∑ p, s1 p g) / Mc` and the second moments, subtracts the product of the mean column with its transpose
  (a contraction over an axis of one element, so one product `m g * m g'`), and adds `ε` times the identity. Hence at
  `(g, g')` the covariance buffer holds `(∑ p, s2 p g g') / Mc − m g * m g' + (ε I) g g'`. The stretch writes neither
  the program's arguments nor the reshaped input.
-/
import proofs.«421103_j37855841747396_3_alg».proof.Proof.Gen.KernelIdeal.Launch
import proofs.«421103_j37855841747396_3_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Fr

open Cert.KernelIdeal Cert.KernelIdeal.Gen Idealize.ShloMosaic Idealize.ShloMosaic.ValueIdx
open Idealize.ShloMosaic.StableHlo

/-! ## The operations of the stretch, each read at an index -/

/-- The sum over the two partial rows of a 2×64×1 array, started from the constant zero, at row `g`. -/
theorem sumCol_apply (x : FVec Ideal S2x64x1 .f32) (g : Fin 64) :
    (Host.reduceAdd (F := Ideal) x (constant S_ .f32 0x00000000#32) reducesTo_S2x64x1_S64x1_d0 h_S_ : FVec Ideal S64x1 .f32) (ix2 g 0)
      = ∑ p : Fin 2, x (ix3 p g 0) := by
  simp only [Host.reduceAdd, Ideal.hostReduceAdd_def]
  rw [Ideal.hostReduceAdd_single reducesTo_S2x64x1_S64x1_d0 (by decide)]
  show Ideal.ofBits .f32 0x00000000#32 + _ = _
  rw [Ideal.ofBits_zero_f32, zero_add]
  refine Finset.sum_congr rfl fun p _ => ?_
  exact congrArg x (funext fun a => Fin.ext (by match a with | ⟨0, _⟩ => rfl | ⟨1, _⟩ => rfl | ⟨2, _⟩ => rfl))

/-- The same over a 2×64×64 array, at `(g, g')`. -/
theorem sumMat_apply (x : FVec Ideal S2x64x64 .f32) (g g' : Fin 64) :
    (Host.reduceAdd (F := Ideal) x (constant S_ .f32 0x00000000#32) reducesTo_S2x64x64_S64x64_d0 h_S_ : FVec Ideal S64x64 .f32) (ix2 g g')
      = ∑ p : Fin 2, x (ix3 p g g') := by
  simp only [Host.reduceAdd, Ideal.hostReduceAdd_def]
  rw [Ideal.hostReduceAdd_single reducesTo_S2x64x64_S64x64_d0 (by decide)]
  show Ideal.ofBits .f32 0x00000000#32 + _ = _
  rw [Ideal.ofBits_zero_f32, zero_add]
  refine Finset.sum_congr rfl fun p _ => ?_
  exact congrArg x (funext fun a => Fin.ext (by match a with | ⟨0, _⟩ => rfl | ⟨1, _⟩ => rfl | ⟨2, _⟩ => rfl))

/-- In the 64×1 by 1×64 product, the left operand's index at output `(g, g')` is `(g, 0)` … -/
theorem outer_lhs0 (i : S64x64.Idx) (q : dot_S64x1_S1x64_S64x64_1_0_0_1_n_n.contr.Idx) :
    (dot_S64x1_S1x64_S64x64_1_0_0_1_n_n.lhsIdx i q 0).val = (i 0).val := by
  unfold DotDims.lhsIdx
  rw [dif_neg (show ¬(0 : Fin S64x1.rank) ∈ dot_S64x1_S1x64_S64x64_1_0_0_1_n_n.lhsBatch by decide), dif_pos (show (0 : Fin S64x1.rank) ∈ dot_S64x1_S1x64_S64x64_1_0_0_1_n_n.lhsNonContracting by decide)]
  rfl
/-- … and the right operand's is `(0, g')`. -/
theorem outer_rhs1 (i : S64x64.Idx) (q : dot_S64x1_S1x64_S64x64_1_0_0_1_n_n.contr.Idx) :
    (dot_S64x1_S1x64_S64x64_1_0_0_1_n_n.rhsIdx i q 1).val = (i 1).val := by
  unfold DotDims.rhsIdx
  rw [dif_neg (show ¬(1 : Fin S1x64.rank) ∈ dot_S64x1_S1x64_S64x64_1_0_0_1_n_n.rhsBatch by decide), dif_pos (show (1 : Fin S1x64.rank) ∈ dot_S64x1_S1x64_S64x64_1_0_0_1_n_n.rhsNonContracting by decide)]
  rfl

/-- The product of a 64×1 column with its own transpose, at `(g, g')`: the contraction has one term, the product of the
    column's entries `g` and `g'`. -/
theorem outer_apply (m : FVec Ideal S64x1 .f32) (g g' : Fin 64) :
    (Host.dotGeneral (F := Ideal) dot_S64x1_S1x64_S64x64_1_0_0_1_n_n none m (transpose S1x64 [1, 0] m transposes_S64x1_S1x64_1_0) : FVec Ideal S64x64 .f32) (ix2 g g')
      = m (ix2 g 0) * m (ix2 g' 0) := by
  simp only [Host.dotGeneral]
  rw [Ideal.dotGeneral_apply, ← Equiv.sum_comp (contrEquiv1 dot_S64x1_S1x64_S64x64_1_0_0_1_n_n 1 rfl rfl).symm, Fin.sum_univ_one]
  have hk := contrEquiv1_symm_val dot_S64x1_S1x64_S64x64_1_0_0_1_n_n 1 rfl rfl 0
  have el : dot_S64x1_S1x64_S64x64_1_0_0_1_n_n.lhsIdx (ix2 g g') ((contrEquiv1 dot_S64x1_S1x64_S64x64_1_0_0_1_n_n 1 rfl rfl).symm 0) = ix2 g 0 := funext fun a => Fin.ext (by
    match a with
    | ⟨0, _⟩ => exact outer_lhs0 _ _
    | ⟨1, _⟩ => exact (dot_S64x1_S1x64_S64x64_1_0_0_1_n_n.lhsIdx_val_of_single rfl _ _).trans hk)
  rw [el]
  refine congrArg (m (ix2 g 0) * ·) ?_
  exact transpose_apply [1, 0] m transposes_S64x1_S1x64_1_0 _ (ix2 g' 0) (fun b => match b with
    | ⟨0, _⟩ => ((dot_S64x1_S1x64_S64x64_1_0_0_1_n_n.rhsIdx_val_of_single rfl _ _).trans hk).symm
    | ⟨1, _⟩ => (outer_rhs1 (ix2 g g') _).symm)

/-! ## The mean and the covariance as functions of the two partial-sum arrays -/

/-- The mean column the program forms from the partial sums `s1`: their sum over the leading axis, divided by the
    sample count spread over the column. -/
def meanCol (s1 : FVec Ideal S2x64x1 .f32) : FVec Ideal S64x1 .f32 :=
  Host.divf (Host.reduceAdd (F := Ideal) s1 (constant S_ .f32 0x00000000#32) reducesTo_S2x64x1_S64x1_d0 h_S_)
    (broadcastInDim S64x1 ![] bcast_S_S64x1 (constant S_ .f32 0x49440000#32))

/-- Entry `g` of the mean column: the two partial sums added, over the sample count. -/
theorem meanCol_apply (s1 : FVec Ideal S2x64x1 .f32) (g : Fin 64) :
    meanCol s1 (ix2 g 0) = Ideal.div (∑ p : Fin 2, s1 (ix3 p g 0)) Cert.Spec.Mc := by
  show Ideal.div ((Host.reduceAdd (F := Ideal) s1 (constant S_ .f32 0x00000000#32) reducesTo_S2x64x1_S64x1_d0 h_S_ : FVec Ideal S64x1 .f32) (ix2 g 0))
      (Ideal.ofBits .f32 0x49440000#32) = _
  rw [sumCol_apply]
  rfl

/-- The covariance matrix the program forms from the partial sums: the second moments over the sample count, less the
    product of the mean column with its transpose, plus `ε` times the identity. -/
def covMat (s1 : FVec Ideal S2x64x1 .f32) (s2 : FVec Ideal S2x64x64 .f32) : FVec Ideal S64x64 .f32 :=
  addf
    (subf
      (Host.divf (Host.reduceAdd (F := Ideal) s2 (constant S_ .f32 0x00000000#32) reducesTo_S2x64x64_S64x64_d0 h_S_)
        (broadcastInDim S64x64 ![] bcast_S_S64x64 (constant S_ .f32 0x49440000#32)))
      (Host.dotGeneral dot_S64x1_S1x64_S64x64_1_0_0_1_n_n none (meanCol s1) (transpose S1x64 [1, 0] (meanCol s1) transposes_S64x1_S1x64_1_0)))
    (Cert.Spec.epsEye (F := Ideal))

/-- Entry `(g, g')` of the covariance matrix. -/
theorem covMat_apply (s1 : FVec Ideal S2x64x1 .f32) (s2 : FVec Ideal S2x64x64 .f32) (g g' : Fin 64) :
    covMat s1 s2 (ix2 g g')
      = Ideal.div (∑ p : Fin 2, s2 (ix3 p g g')) Cert.Spec.Mc
          - (Ideal.div (∑ p : Fin 2, s1 (ix3 p g 0)) Cert.Spec.Mc) * (Ideal.div (∑ p : Fin 2, s1 (ix3 p g' 0)) Cert.Spec.Mc)
          + Cert.Spec.epsEye (F := Ideal) (ix2 g g') := by
  show Ideal.div ((Host.reduceAdd (F := Ideal) s2 (constant S_ .f32 0x00000000#32) reducesTo_S2x64x64_S64x64_d0 h_S_ : FVec Ideal S64x64 .f32) (ix2 g g'))
        (Ideal.ofBits .f32 0x49440000#32)
      - (Host.dotGeneral (F := Ideal) dot_S64x1_S1x64_S64x64_1_0_0_1_n_n none (meanCol s1) (transpose S1x64 [1, 0] (meanCol s1) transposes_S64x1_S1x64_1_0) : FVec Ideal S64x64 .f32) (ix2 g g')
      + Cert.Spec.epsEye (F := Ideal) (ix2 g g') = _
  rw [sumMat_apply, outer_apply, meanCol_apply, meanCol_apply]
  rfl

/-! ## The stretch run from any contents -/

/-- After the stretch the mean column's buffer holds, at `(g, 0)`, the partial sums of row `g` added, over the sample count. -/
theorem head_v5_apply (V : Valuation τ sig (Elt Ideal)) (g : Fin 64) :
    (StableHlo.after (hostOps1 (F := Ideal)) V (Proc.devRef .tc main_v5) : S64x1.Idx → EReal) (ix2 g 0)
      = Ideal.div (∑ p : Fin 2, (V (Proc.devRef .tc main_v1_0) : S2x64x1.Idx → EReal) (ix3 p g 0)) Cert.Spec.Mc := by
  after_results
  exact meanCol_apply (V (Proc.devRef .tc main_v1_0)) g

/-- After the stretch the covariance's buffer holds, at `(g, g')`, the second moments over the sample count, less the product
    of the two means, plus the `ε`-identity's entry. -/
theorem head_v19_apply (V : Valuation τ sig (Elt Ideal)) (g g' : Fin 64) :
    (StableHlo.after (hostOps1 (F := Ideal)) V (Proc.devRef .tc main_v19) : S64x64.Idx → EReal) (ix2 g g')
      = Ideal.div (∑ p : Fin 2, (V (Proc.devRef .tc main_v1_1) : S2x64x64.Idx → EReal) (ix3 p g g')) Cert.Spec.Mc
          - (Ideal.div (∑ p : Fin 2, (V (Proc.devRef .tc main_v1_0) : S2x64x1.Idx → EReal) (ix3 p g 0)) Cert.Spec.Mc)
            * (Ideal.div (∑ p : Fin 2, (V (Proc.devRef .tc main_v1_0) : S2x64x1.Idx → EReal) (ix3 p g' 0)) Cert.Spec.Mc)
          + Cert.Spec.epsEye (F := Ideal) (ix2 g g') := by
  after_results
  exact covMat_apply (V (Proc.devRef .tc main_v1_0)) (V (Proc.devRef .tc main_v1_1)) g g'

/-- The stretch writes none of the program's arguments, nor the reshaped input: each keeps its contents. -/
theorem head_keep (V : Valuation τ sig (Elt Ideal)) (b : Ref sig .tc) (hb : b ∈ [main_arg0, main_arg1, main_arg2, main_v0]) :
    StableHlo.after (hostOps1 (F := Ideal)) V (Proc.devRef .tc b) = V (Proc.devRef .tc b) := by
  simp only [List.mem_cons, List.not_mem_nil, or_false] at hb
  rcases hb with rfl | rfl | rfl | rfl
  · after_results
  · after_results
  · after_results
  · after_results

end Cert.KernelIdeal.Fr

end
-- ==== Proof.KI.ValStats.lean ====
/-
  The statistics of the kernel program at the exact instance, brought to the shared mathematics: the reshaped input
  read at an index is the data matrix; the statistics launch leaves, in the two rows of each result array, the sums over
  the two halves of the samples; the host stretch after it adds the halves, divides by the sample count and forms the
  covariance from the uncentred sums. So the mean column is the per-feature mean and the covariance buffer is the
  covariance of the data matrix.
-/
import proofs.«421103_j37855841747396_3_alg».proof.Proof.KI.Frame
import proofs.«421103_j37855841747396_3_alg».proof.Proof.KI.Val0
import proofs.«421103_j37855841747396_3_alg».proof.Proof.KI.HostHead
import proofs.«421103_j37855841747396_3_alg».proof.Proof.Spec
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The 256 sample rows, counted as two halves of eight blocks of sixteen. -/
theorem stat_sum_bIdx {M : Type} [AddCommMonoid M] (f : Fin 256 → M) :
    ∑ p : Fin 2, ∑ q : Fin 8, ∑ r : Fin 16, f (bIdx p q r) = ∑ b : Fin 256, f b := by
  let e : (Fin 2 × Fin 8) × Fin 16 ≃ Fin 256 := (finProdFinEquiv.prodCongr (Equiv.refl _)).trans finProdFinEquiv
  rw [← Equiv.sum_comp e f, Fintype.sum_prod_type, Fintype.sum_prod_type]
  refine Finset.sum_congr rfl fun p _ => Finset.sum_congr rfl fun q _ => Finset.sum_congr rfl fun r _ => congrArg f (Fin.ext ?_)
  show (p.val * 8 + q.val) * 16 + r.val = r.val + 16 * (q.val + 8 * p.val)
  omega

variable (m : (ℓ : Loc nD τ sig) → Buf (Elt Ideal) ℓ) (ρ : Dev nD → PrngReg) (c : Dev nD)

/-- The input as a function of its four indices. -/
abbrev stat_x : S64x256x56x56.Idx → EReal := m ((c : Thread nD τ).loc main_arg0)
/-- The data matrix of the input. -/
abbrev stat_X : Cert.Spec.Data := Cert.Spec.Xof (stat_x m c)

/-- The reshaped input read at an index is the data matrix. -/
theorem W1_v0_apply (b : Fin 256) (g : Fin 64) (t : Fin 3136) :
    (W1 m ρ c (Proc.devRef .tc main_v0) : S256x64x3136.Idx → EReal) (ix3 b g t) = stat_X m c g b t := by
  show (StableHlo.after (hostOps0 (F := Ideal)) (W0 m ρ c) (Proc.devRef .tc main_v0) : S256x64x3136.Idx → EReal) (ix3 b g t) = _
  after_results
  show shapeCast S256x64x3136 (stat_x m c) shapeCasts_S64x256x56x56_S256x64x3136 (ix3 b g t) = _
  unfold stat_X Cert.Spec.Xof
  refine shapeCast_apply (stat_x m c) shapeCasts_S64x256x56x56_S256x64x3136 (ix3 b g t) _ ?_
  rewrite [Shape.rowMajor_val_four, Shape.rowMajor_val_three]
  have hb := b.isLt; have hg := g.isLt; have ht := t.isLt
  show ((b.val / 4 * 256 + (b.val % 4 * 64 + g.val)) * 56 + t.val / 56) * 56 + t.val % 56 = (b.val * 64 + g.val) * 3136 + t.val
  omega

/-- The statistics launch reads the reshaped input and leaves it as it found it. -/
theorem W2_v0_keep : W2 m ρ c (Proc.devRef .tc main_v0) = W1 m ρ c (Proc.devRef .tc main_v0) :=
  (W2_arr m ρ c 0).trans (((dat0 (V1 m ρ) c).arrAt_in 0 rfl _).trans (A_eq0 (V1 m ρ) c 0))

/-- Nor does the stretch after it write the reshaped input. -/
theorem W3_v0 : W3 m ρ c (Proc.devRef .tc main_v0) = W1 m ρ c (Proc.devRef .tc main_v0) :=
  (head_keep (W2 m ρ c) main_v0 (by simp)).trans (W2_v0_keep m ρ c)

/-- The second argument is as launched. -/
theorem W3_arg1 : W3 m ρ c (Proc.devRef .tc main_arg1) = m ((c : Thread nD τ).loc main_arg1) :=
  (W3_W2_main_arg1 m ρ c).trans ((W2_of_ne m ρ c main_arg1 (by decide)).trans (W1_W0_main_arg1 m ρ c))

/-- The third argument is as launched. -/
theorem W3_arg2 : W3 m ρ c (Proc.devRef .tc main_arg2) = m ((c : Thread nD τ).loc main_arg2) :=
  (W3_W2_main_arg2 m ρ c).trans ((W2_of_ne m ρ c main_arg2 (by decide)).trans (W1_W0_main_arg2 m ρ c))

/-- The first result array of the statistics launch, as a function of its indices. -/
abbrev stat_s1 : S2x64x1.Idx → EReal := W2 m ρ c (Proc.devRef .tc main_v1_0)
/-- The second. -/
abbrev stat_s2 : S2x64x64.Idx → EReal := W2 m ρ c (Proc.devRef .tc main_v1_1)

/-- The two rows of the first result array, added, are the sum of the feature's entries over all samples. -/
theorem stat_s1_sum (g : Fin 64) :
    ∑ p : Fin 2, stat_s1 m ρ c (ix3 p g 0) = ∑ b : Fin 256, ∑ t : Fin 3136, stat_X m c g b t := by
  rw [← stat_sum_bIdx (fun b => ∑ t : Fin 3136, stat_X m c g b t)]
  refine Finset.sum_congr rfl fun p _ => ?_
  have e : stat_s1 m ρ c = ((dat0 (V1 m ρ) c).arrAt 1 cfg0.N : S2x64x1.Idx → EReal) := W2_arr m ρ c 1
  refine ((congrFun e (ix3 p g 0)).trans (arrAt0_1_apply (V1 m ρ) c p g)).trans ?_
  refine Finset.sum_congr rfl fun q _ => Finset.sum_congr rfl fun r _ => Finset.sum_congr rfl fun t _ => ?_
  exact W1_v0_apply m ρ c (bIdx p q r) g t

/-- The two rows of the second result array, added, are the sum of the products of two features' entries over all samples. -/
theorem stat_s2_sum (g g' : Fin 64) :
    ∑ p : Fin 2, stat_s2 m ρ c (ix3 p g g') = ∑ b : Fin 256, ∑ t : Fin 3136, stat_X m c g b t * stat_X m c g' b t := by
  rw [← stat_sum_bIdx (fun b => ∑ t : Fin 3136, stat_X m c g b t * stat_X m c g' b t)]
  refine Finset.sum_congr rfl fun p _ => ?_
  have e : stat_s2 m ρ c = ((dat0 (V1 m ρ) c).arrAt 2 cfg0.N : S2x64x64.Idx → EReal) := W2_arr m ρ c 2
  refine ((congrFun e (ix3 p g g')).trans (arrAt0_2_apply (V1 m ρ) c p g g')).trans ?_
  refine Finset.sum_congr rfl fun q _ => Finset.sum_congr rfl fun r _ => Finset.sum_congr rfl fun t _ => ?_
  exact congrArg₂ (· * ·) (W1_v0_apply m ρ c (bIdx p q r) g t) (W1_v0_apply m ρ c (bIdx p q r) g' t)

/-- The mean column is the per-feature mean of the data matrix. -/
theorem W3_v5_apply (g : Fin 64) :
    (W3 m ρ c (Proc.devRef .tc main_v5) : S64x1.Idx → EReal) (ix2 g 0) = Cert.Spec.mu (stat_X m c) g := by
  refine (head_v5_apply (W2 m ρ c) g).trans ?_
  unfold Cert.Spec.mu
  exact congrArg (Ideal.div · Cert.Spec.Mc) (stat_s1_sum m ρ c g)

/-- The covariance buffer is the covariance of the data matrix, from the uncentred sums. -/
theorem W3_v19_eq : (W3 m ρ c (Proc.devRef .tc main_v19) : S64x64.Idx → EReal) = Cert.Spec.covK (stat_X m c) := by
  funext i
  obtain ⟨g, g', rfl⟩ : ∃ g g', i = ix2 g g' := ⟨i 0, i 1, eq_ix2 i⟩
  refine (head_v19_apply (W2 m ρ c) g g').trans ?_
  show _ = Ideal.div (∑ b : Fin 256, ∑ t : Fin 3136, stat_X m c g b t * stat_X m c g' b t) Cert.Spec.Mc
      - Cert.Spec.mu (stat_X m c) g * Cert.Spec.mu (stat_X m c) g' + Cert.Spec.epsEye (F := Ideal) (ix2 g g')
  unfold Cert.Spec.mu
  exact congrArg₂ (· + ·) (congrArg₂ (· - ·) (congrArg (Ideal.div · Cert.Spec.Mc) (stat_s2_sum m ρ c g g'))
    (congrArg₂ (· * ·) (congrArg (Ideal.div · Cert.Spec.Mc) (stat_s1_sum m ρ c g)) (congrArg (Ideal.div · Cert.Spec.Mc) (stat_s1_sum m ρ c g')))) rfl

end Cert.KernelIdeal.Fr

end
-- ==== Proof.KI.Val1.lean ====
/-
  The affine kernel region's output array, entry by entry, at the exact instance.

  One trip k of the body stores, at row k of the output block, A · (row k of the input block) + bias: the 64×64 matrix
  contracted over its columns with the row's 64 features, plus the 64×1 column spread along the 3136 positions.  So the
  body leaves in the output block, at (r, g, t), the sum over k of A(g, k) · x(r, k, t) plus bias(g).  Point t of the grid
  reads rows 8t … 8t+7 of the input array and writes rows 8t … 8t+7 of the output array; the 32 blocks tile it, so the
  output array ends, at (b, g, t), at the sum over k of A(g, k) · x(b, k, t) plus bias(g), of the arrays as the region
  finds them.
-/
import proofs.«421103_j37855841747396_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The payload of one trip, read at an index

One trip stores A · row + bias: the 64×64 matrix A times the trip's 64×3136 row of the input block, contracted over the
matrix's columns, plus the 64×1 column broadcast along the 3136 positions. -/

/-- A column [a, 1] broadcast to [a, b] reads, at (p, q), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The matrix operand of the product is read at the output's row and the contraction index, -/
theorem lhs_mm_0 (i : S64x3136.Idx) (q : dot_S64x64_S64x3136_S64x3136_1_0_0_1_n_n.contr.Idx) :
    (dot_S64x64_S64x3136_S64x3136_1_0_0_1_n_n.lhsIdx i q 0).val = (i 0).val := by
  unfold DotDims.lhsIdx
  rw [dif_neg (show ¬(0 : Fin S64x64.rank) ∈ dot_S64x64_S64x3136_S64x3136_1_0_0_1_n_n.lhsBatch by decide), dif_pos (show (0 : Fin S64x64.rank) ∈ dot_S64x64_S64x3136_S64x3136_1_0_0_1_n_n.lhsNonContracting by decide)]
  rfl
theorem lhs_mm_1 (i : S64x3136.Idx) (q : dot_S64x64_S64x3136_S64x3136_1_0_0_1_n_n.contr.Idx) :
    (dot_S64x64_S64x3136_S64x3136_1_0_0_1_n_n.lhsIdx i q 1).val = (q ⟨0, by decide⟩).val :=
  dot_S64x64_S64x3136_S64x3136_1_0_0_1_n_n.lhsIdx_val_of_single rfl i q
/-- and the row operand at the contraction index and the output's column. -/
theorem rhs_mm_0 (i : S64x3136.Idx) (q : dot_S64x64_S64x3136_S64x3136_1_0_0_1_n_n.contr.Idx) :
    (dot_S64x64_S64x3136_S64x3136_1_0_0_1_n_n.rhsIdx i q 0).val = (q ⟨0, by decide⟩).val :=
  dot_S64x64_S64x3136_S64x3136_1_0_0_1_n_n.rhsIdx_val_of_single rfl i q
theorem rhs_mm_1 (i : S64x3136.Idx) (q : dot_S64x64_S64x3136_S64x3136_1_0_0_1_n_n.contr.Idx) :
    (dot_S64x64_S64x3136_S64x3136_1_0_0_1_n_n.rhsIdx i q 1).val = (i 1).val := by
  unfold DotDims.rhsIdx
  rw [dif_neg (show ¬(1 : Fin S64x3136.rank) ∈ dot_S64x64_S64x3136_S64x3136_1_0_0_1_n_n.rhsBatch by decide), dif_pos (show (1 : Fin S64x3136.rank) ∈ dot_S64x64_S64x3136_S64x3136_1_0_0_1_n_n.rhsNonContracting by decide)]
  rfl

/-- The product into the zero accumulator at (g, t): the sum over the matrix's columns. -/
theorem mm_apply (A : FVec Ideal S64x64 .f32) (R : FVec Ideal S64x3136 .f32) (g : Fin 64) (t : Fin 3136) :
    FloatOps.matmul dot_S64x64_S64x3136_S64x3136_1_0_0_1_n_n none A R (constant (F := Ideal) S64x3136 .f32 0x00000000#32) (ix2 g t)
      = ∑ k : Fin 64, A (ix2 g k) * R (ix2 k t) := by
  rw [Ideal.matmul_constant_zero_apply, ← Equiv.sum_comp (contrEquiv1 dot_S64x64_S64x3136_S64x3136_1_0_0_1_n_n 64 rfl rfl).symm]
  refine Finset.sum_congr rfl fun k _ => ?_
  have hk := contrEquiv1_symm_val dot_S64x64_S64x3136_S64x3136_1_0_0_1_n_n 64 rfl rfl k
  have el : dot_S64x64_S64x3136_S64x3136_1_0_0_1_n_n.lhsIdx (ix2 g t) ((contrEquiv1 dot_S64x64_S64x3136_S64x3136_1_0_0_1_n_n 64 rfl rfl).symm k) = ix2 g k := funext fun a => Fin.ext (by
    match a with
    | ⟨0, _⟩ => exact lhs_mm_0 _ _
    | ⟨1, _⟩ => exact (lhs_mm_1 _ _).trans hk)
  have er : dot_S64x64_S64x3136_S64x3136_1_0_0_1_n_n.rhsIdx (ix2 g t) ((contrEquiv1 dot_S64x64_S64x3136_S64x3136_1_0_0_1_n_n 64 rfl rfl).symm k) = ix2 k t := funext fun a => Fin.ext (by
    match a with
    | ⟨0, _⟩ => exact (rhs_mm_0 _ _).trans hk
    | ⟨1, _⟩ => exact rhs_mm_1 _ _)
  rw [el, er]

/-- One trip's payload at (u, g, t), u the block's unit leading coordinate. -/
theorem k1_pay1_apply (v0 : Vec Ideal S64x64 .f32) (v2 : Vec Ideal S64x1 .f32) (v6 : Vec Ideal S1x64x3136 .f32) (u : Fin 1) (g : Fin 64) (t : Fin 3136) :
    k1_pay1 v0 v2 v6 (ix3 u g t) = (∑ k : Fin 64, v0 (ix2 g k) * v6 (ix3 (0 : Fin 1) k t)) + v2 (ix2 g (0 : Fin 1)) := by
  unfold k1_pay1
  rw [shapeCast_ab_1ab_apply, addf_apply, broadcastTo_a1_ab_apply, shapeCast_self, shapeCast_self]
  simp only [matmul]
  rw [mm_apply]
  simp only [shapeCast_1ab_ab_apply]

/-! ## The body's pieces

The run's piece list is the eight trips' pieces; trip k writes ONE piece: its payload, of the matrix, the column and row k
of the input block, at row k of the output block. -/

section Pieces

variable {F : FTy → Type} [FloatOps F]

/-- The run's piece list: the trips' pieces, last trip first, over the matrix and the column as the two loads before
    the loop read them. -/
theorem run1_pieces (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec F S8x64x3136 .f32) (x1 : Vec F S64x64 .f32) (x2 : Vec F S64x1 .f32) :
    (kernelRun1 c i arg1 harg1 arg2 harg2 arg3 harg3 arg4 harg4 x0 x1 x2).1
      = pb_k1_t1 (F := F) Variants.none c none i arg1 harg1 arg2 harg2 arg3 harg3 arg4 harg4
          (View.readAt (Elt F) arg2.view (Rect.unit ![0, 0] S64x64.size inb_S64x64_S64x64_0_0).toLoadRect (harg2.unread x1))
          (View.readAt (Elt F) arg3.view (Rect.unit ![0, 0] S64x1.size inb_S64x1_S64x1_0_0).toLoadRect (harg3.unread x2))
          (harg1.unread x0) k1_t1_loop.trips := by
  unfold kernelRun1
  rfl

/-- Trip k's one piece. -/
theorem trip1_piece (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (v0 : Vec F S64x64 .f32) (v2 : Vec F S64x1 .f32) (X : BufTy.Contents (Elt F) arg1.view.ty) (k : Fin k1_t1_loop.trips) :
    tripL_k1_t1 (F := F) Variants.none c none i arg1 harg1 arg2 harg2 arg3 harg3 arg4 harg4 v0 v2 X k
      = [⟨Rect.unit (s := S8x64x3136) (k1_off1 k) S1x64x3136.size (k1_off1_inb k),
          k1_pay1 v0 v2 (View.readAt (Elt F) arg1.view (Rect.unit (s := S8x64x3136) (k1_off1 k) S1x64x3136.size (k1_off1_inb k)).toLoadRect X)⟩] := by
  unfold tripL_k1_t1 trip_k1_t1
  rfl

end Pieces

theorem hz2 : (![0, 0] : Fin 2 → Nat) = fun _ => 0 := funext fun a => by fin_cases a <;> rfl

/-- The affine map at one entry: row g of the matrix against column t of row-block r of the input, plus the column's
    entry g. -/
def affAt (x0 : Vec Ideal S8x64x3136 .f32) (x1 : Vec Ideal S64x64 .f32) (x2 : Vec Ideal S64x1 .f32) (r : Fin 8) (g : Fin 64) (t : Fin 3136) : Elt Ideal .f32 :=
  (∑ k : Fin 64, x1 (ix2 g k) * x0 (ix3 r k t)) + x2 (ix2 g (0 : Fin 1))

/-- The same as a function of the block's index. -/
def affBlk (x0 : Vec Ideal S8x64x3136 .f32) (x1 : Vec Ideal S64x64 .f32) (x2 : Vec Ideal S64x1 .f32) : Vec Ideal S8x64x3136 .f32 :=
  fun y => affAt x0 x1 x2 (y 0) (y 1) (y 2)

/-- Trip k's payload, at a local index, is the affine map at the block index its rectangle places it at. -/
theorem piece1_apply (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole)
    (x0 : Vec Ideal S8x64x3136 .f32) (x1 : Vec Ideal S64x64 .f32) (x2 : Vec Ideal S64x1 .f32) (k : Fin k1_t1_loop.trips) (x : S1x64x3136.Idx) :
    k1_pay1 (View.readAt (Elt Ideal) arg2.view (Rect.unit ![0, 0] S64x64.size inb_S64x64_S64x64_0_0).toLoadRect (harg2.unread x1))
        (View.readAt (Elt Ideal) arg3.view (Rect.unit ![0, 0] S64x1.size inb_S64x1_S64x1_0_0).toLoadRect (harg3.unread x2))
        (View.readAt (Elt Ideal) arg1.view (Rect.unit (s := S8x64x3136) (k1_off1 k) S1x64x3136.size (k1_off1_inb k)).toLoadRect (harg1.unread x0)) x
      = affBlk x0 x1 x2 ((Rect.unit (s := S8x64x3136) (k1_off1 k) S1x64x3136.size (k1_off1_inb k)).emb x) := by
  obtain ⟨u, g, t, rfl⟩ : ∃ (u : Fin 1) (g : Fin 64) (t : Fin 3136), x = ix3 u g t := ⟨x 0, x 1, x 2, eq_ix3 x⟩
  have h1 : View.readAt (Elt Ideal) arg2.view (Rect.unit ![0, 0] S64x64.size inb_S64x64_S64x64_0_0).toLoadRect (harg2.unread x1) = x1 := by
    rw [View.readAt_eq_ld, harg2.read_unread]; exact View.ld_unit_zero hz2 _ x1
  have h2 : View.readAt (Elt Ideal) arg3.view (Rect.unit ![0, 0] S64x1.size inb_S64x1_S64x1_0_0).toLoadRect (harg3.unread x2) = x2 := by
    rw [View.readAt_eq_ld, harg3.read_unread]; exact View.ld_unit_zero hz2 _ x2
  rw [h1, h2, k1_pay1_apply, View.readAt_eq_ld, harg1.read_unread]
  have hk : k.val < 8 := Nat.lt_of_lt_of_le k.isLt k1_t1_abs.2.1
  have hemb : ∀ (u' : Fin 1) (g' : Fin 64) (t' : Fin 3136),
      (Rect.unit (s := S8x64x3136) (k1_off1 k) S1x64x3136.size (k1_off1_inb k)).emb (ix3 u' g' t') = ix3 (⟨k.val, hk⟩ : Fin 8) g' t' := fun u' g' t' =>
    funext fun a => Fin.ext (by
      match a with
      | ⟨0, _⟩ => show k1_off1 k 0 + 1 * u'.val = k.val; rw [k1_off1_eq k]; show k.val + 1 * u'.val = k.val; omega
      | ⟨1, _⟩ => show k1_off1 k 1 + 1 * g'.val = g'.val; rw [k1_off1_eq k]; show 0 + 1 * g'.val = g'.val; omega
      | ⟨2, _⟩ => show k1_off1 k 2 + 1 * t'.val = t'.val; rw [k1_off1_eq k]; show 0 + 1 * t'.val = t'.val; omega)
  rw [hemb]
  show (∑ kk : Fin 64, x1 (ix2 g kk) * x0 ((Rect.unit (s := S8x64x3136) (k1_off1 k) S1x64x3136.size (k1_off1_inb k)).emb (ix3 (0 : Fin 1) kk t))) + x2 (ix2 g (0 : Fin 1))
    = affAt x0 x1 x2 ⟨k.val, hk⟩ g t
  simp only [hemb]
  rfl

/-- Every piece of the trips before n agrees with the affine map: by induction on the trips. -/
theorem pieces1_agree (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec Ideal S8x64x3136 .f32) (x1 : Vec Ideal S64x64 .f32) (x2 : Vec Ideal S64x1 .f32) :
    ∀ n, n ≤ k1_t1_loop.trips → ∀ p ∈ pb_k1_t1 (F := Ideal) Variants.none c none i arg1 harg1 arg2 harg2 arg3 harg3 arg4 harg4
          (View.readAt (Elt Ideal) arg2.view (Rect.unit ![0, 0] S64x64.size inb_S64x64_S64x64_0_0).toLoadRect (harg2.unread x1))
          (View.readAt (Elt Ideal) arg3.view (Rect.unit ![0, 0] S64x1.size inb_S64x1_S64x1_0_0).toLoadRect (harg3.unread x2))
          (harg1.unread x0) n,
        ∀ x : p.1.shape.Idx, p.2 x = affBlk x0 x1 x2 (p.1.emb x)
  | 0, _, p, hp, _ => by
    rw [pb_k1_t1] at hp
    exact absurd hp List.not_mem_nil
  | n + 1, hn, p, hp, x => by
    rw [pb_k1_t1_succ Variants.none c none i arg1 harg1 arg2 harg2 arg3 harg3 arg4 harg4 _ _ _ ⟨n, hn⟩, trip1_piece] at hp
    rcases List.mem_append.mp hp with h | h
    · obtain rfl := List.mem_singleton.mp h
      exact piece1_apply arg1 harg1 arg2 harg2 arg3 harg3 x0 x1 x2 ⟨n, hn⟩ x
    · exact pieces1_agree c i arg1 harg1 arg2 harg2 arg3 harg3 arg4 harg4 x0 x1 x2 n (Nat.le_of_succ_le hn) p h x

/-- WHAT THE BODY LEAVES in the output block, entry by entry: the affine map of its three input blocks. -/
theorem out1_3_apply (c : Dev nD) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S8x64x3136 .f32) (harg4 : arg4.IsWhole)
    (x0 : Vec Ideal S8x64x3136 .f32) (x1 : Vec Ideal S64x64 .f32) (x2 : Vec Ideal S64x1 .f32) (r : Fin 8) (g : Fin 64) (t : Fin 3136) :
    out1_3 (F := Ideal) c i arg1 harg1 arg2 harg2 arg3 harg3 arg4 harg4 x0 x1 x2 (ix3 r g t)
      = (∑ k : Fin 64, x1 (ix2 g k) * x0 (ix3 r k t)) + x2 (ix2 g (0 : Fin 1)) := by
  unfold out1_3
  rw [View.read_writes_eq_canon _ _ _ (cover1_3 c i arg1 harg1 arg2 harg2 arg3 harg3 arg4 harg4 x0 x1 x2)]
  rw [View.canon_apply_of_pieces (affBlk x0 x1 x2) _ ?_ _ (cover1_3 c i arg1 harg1 arg2 harg2 arg3 harg3 arg4 harg4 x0 x1 x2 (ix3 r g t))]
  · rfl
  · rw [run1_pieces]
    exact pieces1_agree c i arg1 harg1 arg2 harg2 arg3 harg3 arg4 harg4 x0 x1 x2 k1_t1_loop.trips (Nat.le_refl _)

/-! ## From the blocks to the array

Point t of the grid reads rows 8t … 8t+7 of the input array and the whole matrix and column, and writes rows 8t … 8t+7
of the output array; the 32 points' blocks tile it. -/

section Array

variable (V : (c : Dev nD) → (b : Ref sig .tc) → Buf (Elt Ideal) ((c : Thread nD τ).loc b))

/-- The windows' index maps over the grid: the input's and the output's block index is the point on the leading axis and
    zero on the others; the matrix's and the column's is zero. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The input window's block at point t is rows 8t … 8t+7 of its array. -/
theorem iblk1_0_apply (c : Dev nD) (t : Fin cfg1.N) (r : Fin 8) (k : Fin 64) (tt : Fin 3136) (b : Fin 256) (hb : b.val = 8 * t.val + r.val) :
    (iblk1 V c 0 t : Vec Ideal S8x64x3136 .f32) (ix3 r k tt) = (V c main_v0 : S256x64x3136.Idx → Elt Ideal .f32) (ix3 b k tt) := by
  obtain ⟨a00, a01, a02, -⟩ := idx_facts1 t
  unfold iblk1
  rw [View.read_apply]
  show V c main_v0 _ = V c main_v0 _
  congr 1
  funext a
  apply Fin.ext
  match a with
  | ⟨0, _⟩ => show win1_0.index t 0 * 8 + 1 * r.val = b.val; rw [a00, hb]; omega
  | ⟨1, _⟩ => show win1_0.index t 1 * 64 + 1 * k.val = k.val; rw [a01]; omega
  | ⟨2, _⟩ => show win1_0.index t 2 * 3136 + 1 * tt.val = tt.val; rw [a02]; omega

/-- The matrix's window is its whole array at every point, -/
theorem iblk1_1_apply (c : Dev nD) (t : Fin cfg1.N) (g k : Fin 64) :
    (iblk1 V c 1 t : Vec Ideal S64x64 .f32) (ix2 g k) = (V c main_v112 : S64x64.Idx → Elt Ideal .f32) (ix2 g k) := by
  obtain ⟨-, -, -, a10, a11, -⟩ := idx_facts1 t
  unfold iblk1
  rw [View.read_apply]
  show V c main_v112 _ = V c main_v112 _
  congr 1
  funext a
  apply Fin.ext
  match a with
  | ⟨0, _⟩ => show win1_1.index t 0 * 64 + 1 * g.val = g.val; rw [a10]; omega
  | ⟨1, _⟩ => show win1_1.index t 1 * 64 + 1 * k.val = k.val; rw [a11]; omega

/-- and so is the column's. -/
theorem iblk1_2_apply (c : Dev nD) (t : Fin cfg1.N) (g : Fin 64) (z : Fin 1) :
    (iblk1 V c 2 t : Vec Ideal S64x1 .f32) (ix2 g z) = (V c main_v114 : S64x1.Idx → Elt Ideal .f32) (ix2 g z) := by
  obtain ⟨-, -, -, -, -, a20, a21, -⟩ := idx_facts1 t
  unfold iblk1
  rw [View.read_apply]
  show V c main_v114 _ = V c main_v114 _
  congr 1
  funext a
  apply Fin.ext
  match a with
  | ⟨0, _⟩ => show win1_2.index t 0 * 64 + 1 * g.val = g.val; rw [a20]; omega
  | ⟨1, _⟩ => show win1_2.index t 1 * 1 + 1 * z.val = z.val; rw [a21]; omega

/-- The affine map on the whole arrays, at one entry, -/
def affArrAt (X : S256x64x3136.Idx → Elt Ideal .f32) (A : S64x64.Idx → Elt Ideal .f32) (B : S64x1.Idx → Elt Ideal .f32) (b : Fin 256) (g : Fin 64) (t : Fin 3136) : Elt Ideal .f32 :=
  (∑ k : Fin 64, A (ix2 g k) * X (ix3 b k t)) + B (ix2 g (0 : Fin 1))

/-- and as the contents of the output array. -/
def affArr (X : S256x64x3136.Idx → Elt Ideal .f32) (A : S64x64.Idx → Elt Ideal .f32) (B : S64x1.Idx → Elt Ideal .f32) : S256x64x3136.Idx → Elt Ideal .f32 :=
  fun i => affArrAt X A B (i 0) (i 1) (i 2)

/-- WHAT POINT t WRITES BACK is block t of the affine map of the arrays as the region finds them. -/
theorem flushed1_3_eq (c : Dev nD) (t : Fin cfg1.N) :
    (dat1 V c).flushed 3 t = ((cfg1.win 3).blk t).view.read (Elt Ideal) (affArr (V c main_v0) (V c main_v112) (V c main_v114)) := by
  show (cfg1.win 3).cut (grid1.coords t) ((dat1 V c).after 3 t) = _
  rw [after1_3]
  obtain ⟨-, -, -, -, -, -, -, a30, a31, a32⟩ := idx_facts1 t
  have ht : t.val < 32 := Nat.lt_of_lt_of_eq t.isLt N_1
  funext j
  have hj0 : (j 0).val < 8 := (j 0).isLt
  have hj1 : (j 1).val < 64 := (j 1).isLt
  have hj2 : (j 2).val < 3136 := (j 2).isLt
  have hx : (cfg1.win 3).xinj (grid1.coords t) j = ix3 (⟨(j 0).val, hj0⟩ : Fin 8) (⟨(j 1).val, hj1⟩ : Fin 64) (⟨(j 2).val, hj2⟩ : Fin 3136) :=
    funext fun a => by match a with | ⟨0, _⟩ => rfl | ⟨1, _⟩ => rfl | ⟨2, _⟩ => rfl
  show out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) ((cfg1.win 3).xinj (grid1.coords t) j) = _
  rw [hx, out1_3_apply]
  have hb : 8 * t.val + (j 0).val < 256 := by omega
  have hemb : ((cfg1.win 3).blk t).view.emb j = ix3 (⟨8 * t.val + (j 0).val, hb⟩ : Fin 256) (⟨(j 1).val, hj1⟩ : Fin 64) (⟨(j 2).val, hj2⟩ : Fin 3136) := by
    funext a
    apply Fin.ext
    match a with
    | ⟨0, _⟩ => show win1_3.index t 0 * 8 + 1 * (j 0).val = 8 * t.val + (j 0).val; rw [a30]; omega
    | ⟨1, _⟩ => show win1_3.index t 1 * 64 + 1 * (j 1).val = (j 1).val; rw [a31]; omega
    | ⟨2, _⟩ => show win1_3.index t 2 * 3136 + 1 * (j 2).val = (j 2).val; rw [a32]; omega
  show _ = affArr (V c main_v0) (V c main_v112) (V c main_v114) (((cfg1.win 3).blk t).view.emb j)
  refine Eq.trans ?_ (congrArg (affArr (V c main_v0) (V c main_v112) (V c main_v114)) hemb.symm)
  show _ = affArrAt (V c main_v0) (V c main_v112) (V c main_v114) ⟨8 * t.val + (j 0).val, hb⟩ ⟨(j 1).val, hj1⟩ ⟨(j 2).val, hj2⟩
  unfold affArrAt
  rw [iblk1_2_apply]
  simp only [iblk1_1_apply, iblk1_0_apply V c t ⟨(j 0).val, hj0⟩ _ _ ⟨8 * t.val + (j 0).val, hb⟩ rfl]

/-- An index of the output array is in point t's block iff each coordinate is in the block's range on its axis. -/
theorem mem_blk1_3 (t : Fin cfg1.N) (i : S256x64x3136.Idx) :
    i ∈ ((cfg1.win 3).blk t).view.set ↔ ∀ a : Fin 3, win1_3.index t a * S8x64x3136.size a ≤ (i a).val ∧ (i a).val < win1_3.index t a * S8x64x3136.size a + S8x64x3136.size a := by
  show i ∈ ((View.whole main_v115).slice (win1_3.rect t)).set ↔ _
  rw [View.set_slice_whole, Rect.mem_set_unit]
  exact Iff.rfl

/-- Every index of the output array is in the block of the point its leading coordinate names: row b is in block b / 8. -/
theorem cover1_arr (i : S256x64x3136.Idx) : ∃ t : Fin cfg1.N, (cfg1.win 3).flush t = true ∧ i ∈ ((cfg1.win 3).blk t).view.set := by
  have hi0 : (i 0).val < 256 := (i 0).isLt
  have hi1 : (i 1).val < 64 := (i 1).isLt
  have hi2 : (i 2).val < 3136 := (i 2).isLt
  have hN : cfg1.N = 32 := N_1
  have hq : (i 0).val / 8 < cfg1.N := by rw [hN]; omega
  obtain ⟨-, -, -, -, -, -, -, a30, a31, a32⟩ := idx_facts1 ⟨(i 0).val / 8, hq⟩
  refine ⟨⟨(i 0).val / 8, hq⟩, flush1_3 _, ?_⟩
  rw [mem_blk1_3]
  intro a
  match a with
  | ⟨0, _⟩ =>
    show win1_3.index ⟨(i 0).val / 8, hq⟩ 0 * 8 ≤ (i 0).val ∧ (i 0).val < win1_3.index ⟨(i 0).val / 8, hq⟩ 0 * 8 + 8
    rw [a30]; show (i 0).val / 8 * 8 ≤ (i 0).val ∧ (i 0).val < (i 0).val / 8 * 8 + 8; omega
  | ⟨1, _⟩ =>
    show win1_3.index ⟨(i 0).val / 8, hq⟩ 1 * 64 ≤ (i 1).val ∧ (i 1).val < win1_3.index ⟨(i 0).val / 8, hq⟩ 1 * 64 + 64
    rw [a31]; omega
  | ⟨2, _⟩ =>
    show win1_3.index ⟨(i 0).val / 8, hq⟩ 2 * 3136 ≤ (i 2).val ∧ (i 2).val < win1_3.index ⟨(i 0).val / 8, hq⟩ 2 * 3136 + 3136
    rw [a32]; omega

/-- THE OUTPUT ARRAY after the region: the affine map of the arrays as the region finds them. -/
theorem arrAt1_3_eq (c : Dev nD) :
    (dat1 (F := Ideal) V c).arrAt 3 cfg1.N = affArr (V c main_v0) (V c main_v112) (V c main_v114) :=
  (dat1 V c).arrAt_eq_of_cover 3 (affArr (V c main_v0) (V c main_v112) (V c main_v114)) (fun t _ => flushed1_3_eq V c t) cover1_arr

/-- The same, entry by entry, over the three arrays named at their literal shapes. -/
theorem arrAt1_3_apply (c : Dev nD) (A : S64x64.Idx → EReal) (x0 : S256x64x3136.Idx → EReal) (β : S64x1.Idx → EReal)
    (hA : V c main_v112 = A) (h0 : V c main_v0 = x0) (hβ : V c main_v114 = β) (b : Fin 256) (g : Fin 64) (t : Fin 3136) :
    ((dat1 (F := Ideal) V c).arrAt 3 cfg1.N : S256x64x3136.Idx → EReal) (ix3 b g t)
      = (∑ k : Fin 64, A (ix2 g k) * x0 (ix3 b k t)) + β (ix2 g 0) := by
  subst hA h0 hβ
  rw [arrAt1_3_eq]
  rfl

end Array

end Cert.KernelIdeal.Fr

end
-- ==== Proof.KI.HostNS.lean ====
/-
  The host stretch that turns the covariance into the whitening matrix, read as one function of what the buffers hold
  before it: the Frobenius norm, the scaled start, the identity, ten Newton–Schulz rounds, the rescaling, and the two
  products and the subtraction that follow.  Each round is a function of the contents it finds, so the ten rounds
  compose as the tenth iterate of one Newton–Schulz step.
-/
import proofs.«421103_j37855841747396_3_alg».proof.Proof.Gen.KernelIdeal.Launch
import proofs.«421103_j37855841747396_3_alg».proof.Proof.Spec
import Mathlib.Logic.Function.Iterate

set_option maxRecDepth 16384

noncomputable section

namespace Cert.KernelIdeal.Fr

open Cert.KernelIdeal Cert.KernelIdeal.Gen Idealize.ShloMosaic

variable {F : FTy → Type} [FloatOps F]

/-- Running two lines one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## The stretch cut into its start, its ten rounds and its end -/

/-- The start: the norm spread, the scaled matrix, the identity. -/
def nsPre : List (HloOp τ sig (Elt F)) :=
  [ StableHlo.unary main_v20 main_v21 (broadcastInDim S64x64 ![] bcast_S_S64x64 : (⟨S_, .f32⟩ : BufTy).Contents (Elt F) → (⟨S64x64, .f32⟩ : BufTy).Contents (Elt F)),
    StableHlo.binary main_v19 main_v21 main_v22 (Host.divf : (⟨S64x64, .f32⟩ : BufTy).Contents (Elt F) → (⟨S64x64, .f32⟩ : BufTy).Contents (Elt F) → (⟨S64x64, .f32⟩ : BufTy).Contents (Elt F)),
    StableHlo.nullary main_v23 (iotaInDim S64x64 32 0),
    StableHlo.nullary main_v24 (iotaInDim S64x64 32 1),
    StableHlo.nullary main_c_4 (constantI S_ 32 0#32),
    StableHlo.unary main_c_4 main_v25 (broadcastInDim S64x64 ![] bcast_S_S64x64 : (⟨S_, .i32⟩ : BufTy).Contents (Elt F) → (⟨S64x64, .i32⟩ : BufTy).Contents (Elt F)),
    StableHlo.binary main_v23 main_v25 main_v26 (addi : (⟨S64x64, .i32⟩ : BufTy).Contents (Elt F) → (⟨S64x64, .i32⟩ : BufTy).Contents (Elt F) → (⟨S64x64, .i32⟩ : BufTy).Contents (Elt F)),
    StableHlo.binary main_v26 main_v24 main_v27 (cmpi .eq : (⟨S64x64, .i32⟩ : BufTy).Contents (Elt F) → (⟨S64x64, .i32⟩ : BufTy).Contents (Elt F) → (⟨S64x64, .i1⟩ : BufTy).Contents (Elt F)),
    StableHlo.unary main_v27 main_v28 (uitofp .f32 : (⟨S64x64, .i1⟩ : BufTy).Contents (Elt F) → (⟨S64x64, .f32⟩ : BufTy).Contents (Elt F)) ]
/-- Round 0. -/
def nsR0 : List (HloOp τ sig (Elt F)) :=
  [ StableHlo.nullary main_cst_5 (constant S_ .f32 0x40400000#32),
    StableHlo.unary main_cst_5 main_v29 (broadcastInDim S64x64 ![] bcast_S_S64x64 : (⟨S_, .f32⟩ : BufTy).Contents (Elt F) → (⟨S64x64, .f32⟩ : BufTy).Contents (Elt F)),
    StableHlo.binary main_v29 main_v28 main_v30 (mulf : (⟨S64x64, .f32⟩ : BufTy).Contents (Elt F) → (⟨S64x64, .f32⟩ : BufTy).Contents (Elt F) → (⟨S64x64, .f32⟩ : BufTy).Contents (Elt F)),
    StableHlo.binary main_v28 main_v22 main_v31 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v30 main_v31 main_v32 (subf : (⟨S64x64, .f32⟩ : BufTy).Contents (Elt F) → (⟨S64x64, .f32⟩ : BufTy).Contents (Elt F) → (⟨S64x64, .f32⟩ : BufTy).Contents (Elt F)),
    StableHlo.nullary main_cst_6 (constant S_ .f32 0x3F000000#32),
    StableHlo.unary main_cst_6 main_v33 (broadcastInDim S64x64 ![] bcast_S_S64x64 : (⟨S_, .f32⟩ : BufTy).Contents (Elt F) → (⟨S64x64, .f32⟩ : BufTy).Contents (Elt F)),
    StableHlo.binary main_v33 main_v32 main_v34 (mulf : (⟨S64x64, .f32⟩ : BufTy).Contents (Elt F) → (⟨S64x64, .f32⟩ : BufTy).Contents (Elt F) → (⟨S64x64, .f32⟩ : BufTy).Contents (Elt F)),
    StableHlo.binary main_v22 main_v34 main_v35 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v34 main_v28 main_v36 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 1. -/
def nsR1 : List (HloOp τ sig (Elt F)) :=
  [ StableHlo.nullary main_cst_7 (constant S_ .f32 0x40400000#32),
    StableHlo.unary main_cst_7 main_v37 (broadcastInDim S64x64 ![] bcast_S_S64x64 : (⟨S_, .f32⟩ : BufTy).Contents (Elt F) → (⟨S64x64, .f32⟩ : BufTy).Contents (Elt F)),
    StableHlo.binary main_v37 main_v28 main_v38 (mulf : (⟨S64x64, .f32⟩ : BufTy).Contents (Elt F) → (⟨S64x64, .f32⟩ : BufTy).Contents (Elt F) → (⟨S64x64, .f32⟩ : BufTy).Contents (Elt F)),
    StableHlo.binary main_v36 main_v35 main_v39 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v38 main_v39 main_v40 (subf : (⟨S64x64, .f32⟩ : BufTy).Contents (Elt F) → (⟨S64x64, .f32⟩ : BufTy).Contents (Elt F) → (⟨S64x64, .f32⟩ : BufTy).Contents (Elt F)),
    StableHlo.nullary main_cst_8 (constant S_ .f32 0x3F000000#32),
    StableHlo.unary main_cst_8 main_v41 (broadcastInDim S64x64 ![] bcast_S_S64x64 : (⟨S_, .f32⟩ : BufTy).Contents (Elt F) → (⟨S64x64, .f32⟩ : BufTy).Contents (Elt F)),
    StableHlo.binary main_v41 main_v40 main_v42 (mulf : (⟨S64x64, .f32⟩ : BufTy).Contents (Elt F) → (⟨S64x64, .f32⟩ : BufTy).Contents (Elt F) → (⟨S64x64, .f32⟩ : BufTy).Contents (Elt F)),
    StableHlo.binary main_v35 main_v42 main_v43 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v42 main_v36 main_v44 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 2. -/
def nsR2 : List (HloOp τ sig (Elt F)) :=
  [ StableHlo.nullary main_cst_9 (constant S_ .f32 0x40400000#32),
    StableHlo.unary main_cst_9 main_v45 (broadcastInDim S64x64 ![] bcast_S_S64x64 : (⟨S_, .f32⟩ : BufTy).Contents (Elt F) → (⟨S64x64, .f32⟩ : BufTy).Contents (Elt F)),
    StableHlo.binary main_v45 main_v28 main_v46 (mulf : (⟨S64x64, .f32⟩ : BufTy).Contents (Elt F) → (⟨S64x64, .f32⟩ : BufTy).Contents (Elt F) → (⟨S64x64, .f32⟩ : BufTy).Contents (Elt F)),
    StableHlo.binary main_v44 main_v43 main_v47 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v46 main_v47 main_v48 (subf : (⟨S64x64, .f32⟩ : BufTy).Contents (Elt F) → (⟨S64x64, .f32⟩ : BufTy).Contents (Elt F) → (⟨S64x64, .f32⟩ : BufTy).Contents (Elt F)),
    StableHlo.nullary main_cst_10 (constant S_ .f32 0x3F000000#32),
    StableHlo.unary main_cst_10 main_v49 (broadcastInDim S64x64 ![] bcast_S_S64x64 : (⟨S_, .f32⟩ : BufTy).Contents (Elt F) → (⟨S64x64, .f32⟩ : BufTy).Contents (Elt F)),
    StableHlo.binary main_v49 main_v48 main_v50 (mulf : (⟨S64x64, .f32⟩ : BufTy).Contents (Elt F) → (⟨S64x64, .f32⟩ : BufTy).Contents (Elt F) → (⟨S64x64, .f32⟩ : BufTy).Contents (Elt F)),
    StableHlo.binary main_v43 main_v50 main_v51 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v50 main_v44 main_v52 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 3. -/
def nsR3 : List (HloOp τ sig (Elt F)) :=
  [ StableHlo.nullary main_cst_11 (constant S_ .f32 0x40400000#32),
    StableHlo.unary main_cst_11 main_v53 (broadcastInDim S64x64 ![] bcast_S_S64x64 : (⟨S_, .f32⟩ : BufTy).Contents (Elt F) → (⟨S64x64, .f32⟩ : BufTy).Contents (Elt F)),
    StableHlo.binary main_v53 main_v28 main_v54 (mulf : (⟨S64x64, .f32⟩ : BufTy).Contents (Elt F) → (⟨S64x64, .f32⟩ : BufTy).Contents (Elt F) → (⟨S64x64, .f32⟩ : BufTy).Contents (Elt F)),
    StableHlo.binary main_v52 main_v51 main_v55 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v54 main_v55 main_v56 (subf : (⟨S64x64, .f32⟩ : BufTy).Contents (Elt F) → (⟨S64x64, .f32⟩ : BufTy).Contents (Elt F) → (⟨S64x64, .f32⟩ : BufTy).Contents (Elt F)),
    StableHlo.nullary main_cst_12 (constant S_ .f32 0x3F000000#32),
    StableHlo.unary main_cst_12 main_v57 (broadcastInDim S64x64 ![] bcast_S_S64x64 : (⟨S_, .f32⟩ : BufTy).Contents (Elt F) → (⟨S64x64, .f32⟩ : BufTy).Contents (Elt F)),
    StableHlo.binary main_v57 main_v56 main_v58 (mulf : (⟨S64x64, .f32⟩ : BufTy).Contents (Elt F) → (⟨S64x64, .f32⟩ : BufTy).Contents (Elt F) → (⟨S64x64, .f32⟩ : BufTy).Contents (Elt F)),
    StableHlo.binary main_v51 main_v58 main_v59 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v58 main_v52 main_v60 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 4. -/
def nsR4 : List (HloOp τ sig (Elt F)) :=
  [ StableHlo.nullary main_cst_13 (constant S_ .f32 0x40400000#32),
    StableHlo.unary main_cst_13 main_v61 (broadcastInDim S64x64 ![] bcast_S_S64x64 : (⟨S_, .f32⟩ : BufTy).Contents (Elt F) → (⟨S64x64, .f32⟩ : BufTy).Contents (Elt F)),
    StableHlo.binary main_v61 main_v28 main_v62 (mulf : (⟨S64x64, .f32⟩ : BufTy).Contents (Elt F) → (⟨S64x64, .f32⟩ : BufTy).Contents (Elt F) → (⟨S64x64, .f32⟩ : BufTy).Contents (Elt F)),
    StableHlo.binary main_v60 main_v59 main_v63 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v62 main_v63 main_v64 (subf : (⟨S64x64, .f32⟩ : BufTy).Contents (Elt F) → (⟨S64x64, .f32⟩ : BufTy).Contents (Elt F) → (⟨S64x64, .f32⟩ : BufTy).Contents (Elt F)),
    StableHlo.nullary main_cst_14 (constant S_ .f32 0x3F000000#32),
    StableHlo.unary main_cst_14 main_v65 (broadcastInDim S64x64 ![] bcast_S_S64x64 : (⟨S_, .f32⟩ : BufTy).Contents (Elt F) → (⟨S64x64, .f32⟩ : BufTy).Contents (Elt F)),
    StableHlo.binary main_v65 main_v64 main_v66 (mulf : (⟨S64x64, .f32⟩ : BufTy).Contents (Elt F) → (⟨S64x64, .f32⟩ : BufTy).Contents (Elt F) → (⟨S64x64, .f32⟩ : BufTy).Contents (Elt F)),
    StableHlo.binary main_v59 main_v66 main_v67 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v66 main_v60 main_v68 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 5. -/
def nsR5 : List (HloOp τ sig (Elt F)) :=
  [ StableHlo.nullary main_cst_15 (constant S_ .f32 0x40400000#32),
    StableHlo.unary main_cst_15 main_v69 (broadcastInDim S64x64 ![] bcast_S_S64x64 : (⟨S_, .f32⟩ : BufTy).Contents (Elt F) → (⟨S64x64, .f32⟩ : BufTy).Contents (Elt F)),
    StableHlo.binary main_v69 main_v28 main_v70 (mulf : (⟨S64x64, .f32⟩ : BufTy).Contents (Elt F) → (⟨S64x64, .f32⟩ : BufTy).Contents (Elt F) → (⟨S64x64, .f32⟩ : BufTy).Contents (Elt F)),
    StableHlo.binary main_v68 main_v67 main_v71 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v70 main_v71 main_v72 (subf : (⟨S64x64, .f32⟩ : BufTy).Contents (Elt F) → (⟨S64x64, .f32⟩ : BufTy).Contents (Elt F) → (⟨S64x64, .f32⟩ : BufTy).Contents (Elt F)),
    StableHlo.nullary main_cst_16 (constant S_ .f32 0x3F000000#32),
    StableHlo.unary main_cst_16 main_v73 (broadcastInDim S64x64 ![] bcast_S_S64x64 : (⟨S_, .f32⟩ : BufTy).Contents (Elt F) → (⟨S64x64, .f32⟩ : BufTy).Contents (Elt F)),
    StableHlo.binary main_v73 main_v72 main_v74 (mulf : (⟨S64x64, .f32⟩ : BufTy).Contents (Elt F) → (⟨S64x64, .f32⟩ : BufTy).Contents (Elt F) → (⟨S64x64, .f32⟩ : BufTy).Contents (Elt F)),
    StableHlo.binary main_v67 main_v74 main_v75 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v74 main_v68 main_v76 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 6. -/
def nsR6 : List (HloOp τ sig (Elt F)) :=
  [ StableHlo.nullary main_cst_17 (constant S_ .f32 0x40400000#32),
    StableHlo.unary main_cst_17 main_v77 (broadcastInDim S64x64 ![] bcast_S_S64x64 : (⟨S_, .f32⟩ : BufTy).Contents (Elt F) → (⟨S64x64, .f32⟩ : BufTy).Contents (Elt F)),
    StableHlo.binary main_v77 main_v28 main_v78 (mulf : (⟨S64x64, .f32⟩ : BufTy).Contents (Elt F) → (⟨S64x64, .f32⟩ : BufTy).Contents (Elt F) → (⟨S64x64, .f32⟩ : BufTy).Contents (Elt F)),
    StableHlo.binary main_v76 main_v75 main_v79 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v78 main_v79 main_v80 (subf : (⟨S64x64, .f32⟩ : BufTy).Contents (Elt F) → (⟨S64x64, .f32⟩ : BufTy).Contents (Elt F) → (⟨S64x64, .f32⟩ : BufTy).Contents (Elt F)),
    StableHlo.nullary main_cst_18 (constant S_ .f32 0x3F000000#32),
    StableHlo.unary main_cst_18 main_v81 (broadcastInDim S64x64 ![] bcast_S_S64x64 : (⟨S_, .f32⟩ : BufTy).Contents (Elt F) → (⟨S64x64, .f32⟩ : BufTy).Contents (Elt F)),
    StableHlo.binary main_v81 main_v80 main_v82 (mulf : (⟨S64x64, .f32⟩ : BufTy).Contents (Elt F) → (⟨S64x64, .f32⟩ : BufTy).Contents (Elt F) → (⟨S64x64, .f32⟩ : BufTy).Contents (Elt F)),
    StableHlo.binary main_v75 main_v82 main_v83 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v82 main_v76 main_v84 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 7. -/
def nsR7 : List (HloOp τ sig (Elt F)) :=
  [ StableHlo.nullary main_cst_19 (constant S_ .f32 0x40400000#32),
    StableHlo.unary main_cst_19 main_v85 (broadcastInDim S64x64 ![] bcast_S_S64x64 : (⟨S_, .f32⟩ : BufTy).Contents (Elt F) → (⟨S64x64, .f32⟩ : BufTy).Contents (Elt F)),
    StableHlo.binary main_v85 main_v28 main_v86 (mulf : (⟨S64x64, .f32⟩ : BufTy).Contents (Elt F) → (⟨S64x64, .f32⟩ : BufTy).Contents (Elt F) → (⟨S64x64, .f32⟩ : BufTy).Contents (Elt F)),
    StableHlo.binary main_v84 main_v83 main_v87 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v86 main_v87 main_v88 (subf : (⟨S64x64, .f32⟩ : BufTy).Contents (Elt F) → (⟨S64x64, .f32⟩ : BufTy).Contents (Elt F) → (⟨S64x64, .f32⟩ : BufTy).Contents (Elt F)),
    StableHlo.nullary main_cst_20 (constant S_ .f32 0x3F000000#32),
    StableHlo.unary main_cst_20 main_v89 (broadcastInDim S64x64 ![] bcast_S_S64x64 : (⟨S_, .f32⟩ : BufTy).Contents (Elt F) → (⟨S64x64, .f32⟩ : BufTy).Contents (Elt F)),
    StableHlo.binary main_v89 main_v88 main_v90 (mulf : (⟨S64x64, .f32⟩ : BufTy).Contents (Elt F) → (⟨S64x64, .f32⟩ : BufTy).Contents (Elt F) → (⟨S64x64, .f32⟩ : BufTy).Contents (Elt F)),
    StableHlo.binary main_v83 main_v90 main_v91 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v90 main_v84 main_v92 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 8. -/
def nsR8 : List (HloOp τ sig (Elt F)) :=
  [ StableHlo.nullary main_cst_21 (constant S_ .f32 0x40400000#32),
    StableHlo.unary main_cst_21 main_v93 (broadcastInDim S64x64 ![] bcast_S_S64x64 : (⟨S_, .f32⟩ : BufTy).Contents (Elt F) → (⟨S64x64, .f32⟩ : BufTy).Contents (Elt F)),
    StableHlo.binary main_v93 main_v28 main_v94 (mulf : (⟨S64x64, .f32⟩ : BufTy).Contents (Elt F) → (⟨S64x64, .f32⟩ : BufTy).Contents (Elt F) → (⟨S64x64, .f32⟩ : BufTy).Contents (Elt F)),
    StableHlo.binary main_v92 main_v91 main_v95 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v94 main_v95 main_v96 (subf : (⟨S64x64, .f32⟩ : BufTy).Contents (Elt F) → (⟨S64x64, .f32⟩ : BufTy).Contents (Elt F) → (⟨S64x64, .f32⟩ : BufTy).Contents (Elt F)),
    StableHlo.nullary main_cst_22 (constant S_ .f32 0x3F000000#32),
    StableHlo.unary main_cst_22 main_v97 (broadcastInDim S64x64 ![] bcast_S_S64x64 : (⟨S_, .f32⟩ : BufTy).Contents (Elt F) → (⟨S64x64, .f32⟩ : BufTy).Contents (Elt F)),
    StableHlo.binary main_v97 main_v96 main_v98 (mulf : (⟨S64x64, .f32⟩ : BufTy).Contents (Elt F) → (⟨S64x64, .f32⟩ : BufTy).Contents (Elt F) → (⟨S64x64, .f32⟩ : BufTy).Contents (Elt F)),
    StableHlo.binary main_v91 main_v98 main_v99 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v98 main_v92 main_v100 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- Round 9. -/
def nsR9 : List (HloOp τ sig (Elt F)) :=
  [ StableHlo.nullary main_cst_23 (constant S_ .f32 0x40400000#32),
    StableHlo.unary main_cst_23 main_v101 (broadcastInDim S64x64 ![] bcast_S_S64x64 : (⟨S_, .f32⟩ : BufTy).Contents (Elt F) → (⟨S64x64, .f32⟩ : BufTy).Contents (Elt F)),
    StableHlo.binary main_v101 main_v28 main_v102 (mulf : (⟨S64x64, .f32⟩ : BufTy).Contents (Elt F) → (⟨S64x64, .f32⟩ : BufTy).Contents (Elt F) → (⟨S64x64, .f32⟩ : BufTy).Contents (Elt F)),
    StableHlo.binary main_v100 main_v99 main_v103 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v102 main_v103 main_v104 (subf : (⟨S64x64, .f32⟩ : BufTy).Contents (Elt F) → (⟨S64x64, .f32⟩ : BufTy).Contents (Elt F) → (⟨S64x64, .f32⟩ : BufTy).Contents (Elt F)),
    StableHlo.nullary main_cst_24 (constant S_ .f32 0x3F000000#32),
    StableHlo.unary main_cst_24 main_v105 (broadcastInDim S64x64 ![] bcast_S_S64x64 : (⟨S_, .f32⟩ : BufTy).Contents (Elt F) → (⟨S64x64, .f32⟩ : BufTy).Contents (Elt F)),
    StableHlo.binary main_v105 main_v104 main_v106 (mulf : (⟨S64x64, .f32⟩ : BufTy).Contents (Elt F) → (⟨S64x64, .f32⟩ : BufTy).Contents (Elt F) → (⟨S64x64, .f32⟩ : BufTy).Contents (Elt F)),
    StableHlo.binary main_v99 main_v106 main_v107 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v106 main_v100 main_v108 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
/-- The end: the rescaling, the two products, the subtraction. -/
def nsPost : List (HloOp τ sig (Elt F)) :=
  [ StableHlo.unary main_v20 main_v109 (Host.sqrt : (⟨S_, .f32⟩ : BufTy).Contents (Elt F) → (⟨S_, .f32⟩ : BufTy).Contents (Elt F)),
    StableHlo.unary main_v109 main_v110 (broadcastInDim S64x64 ![] bcast_S_S64x64 : (⟨S_, .f32⟩ : BufTy).Contents (Elt F) → (⟨S64x64, .f32⟩ : BufTy).Contents (Elt F)),
    StableHlo.binary main_v108 main_v110 main_v111 (Host.divf : (⟨S64x64, .f32⟩ : BufTy).Contents (Elt F) → (⟨S64x64, .f32⟩ : BufTy).Contents (Elt F) → (⟨S64x64, .f32⟩ : BufTy).Contents (Elt F)),
    StableHlo.binary main_arg1 main_v111 main_v112 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v112 main_v5 main_v113 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    StableHlo.binary main_arg2 main_v113 main_v114 (subf : (⟨S64x1, .f32⟩ : BufTy).Contents (Elt F) → (⟨S64x1, .f32⟩ : BufTy).Contents (Elt F) → (⟨S64x1, .f32⟩ : BufTy).Contents (Elt F)) ]

set_option maxHeartbeats 4000000 in
theorem hostOps1_2_cut : (hostOps1_2 : List (HloOp τ sig (Elt F)))
    = nsPre ++ (nsR0 ++ (nsR1 ++ (nsR2 ++ (nsR3 ++ (nsR4 ++ (nsR5 ++ (nsR6 ++ (nsR7 ++ (nsR8 ++ (nsR9 ++ nsPost)))))))))) := rfl

/-! ## What is carried through -/

/-- The buffers the rounds read or that are read after them, none of which a round writes. -/
abbrev nsKeep : List (Ref sig .tc) := [main_v28, main_v20, main_v5, main_arg0, main_arg1, main_arg2, main_v0]
/-- The same for the norm's four operations and for the start. -/
abbrev nsKeepN : List (Ref sig .tc) := [main_v19, main_v5, main_arg0, main_arg1, main_arg2, main_v0]
abbrev nsKeepP : List (Ref sig .tc) := [main_v20, main_v5, main_arg0, main_arg1, main_arg2, main_v0]
abbrev nsKeepE : List (Ref sig .tc) := [main_arg0, main_arg1, main_arg2, main_v0]

/-! ## The norm -/

/-- The references `hostOps1_1` writes. -/
abbrev hostOps1_1_W : List (Ref sig .tc) := [main_call0_v0, main_call0_cst, main_call0_v1, main_v20]
theorem hostOps1_1_writes : (hostOps1_1 : List (HloOp τ sig (Elt F))).Forall fun op => op.writes ⊆ (hostOps1_1_W.map (Proc.devRef (τ := τ) .tc)).toFinset := by
  simp only [hostOps1_1, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem hostOps1_1_keep (V : Valuation τ sig (Elt F)) (r : Ref sig .tc) (h : r ∉ (hostOps1_1_W : List (Ref sig .tc))) :
    StableHlo.after hostOps1_1 V (Proc.devRef .tc r) = V (Proc.devRef .tc r) :=
  StableHlo.after_of_writes_sub hostOps1_1 V hostOps1_1_writes h
theorem hostOps1_1_keeps (V : Valuation τ sig (Elt F)) (r : Ref sig .tc) (hr : r ∈ (nsKeepN : List (Ref sig .tc))) :
    StableHlo.after hostOps1_1 V (Proc.devRef .tc r) = V (Proc.devRef .tc r) :=
  hostOps1_1_keep V r ((by decide : ∀ r ∈ (nsKeepN : List (Ref sig .tc)), r ∉ (hostOps1_1_W : List (Ref sig .tc))) r hr)
/-- The four operations leave the Frobenius norm of the matrix. -/
theorem hostOps1_1_v20 (V : Valuation τ sig (Elt F)) :
    (StableHlo.after hostOps1_1 V (Proc.devRef .tc main_v20) : FVec F Cert.Spec.S0 .f32) = Cert.Spec.nrm (V (Proc.devRef .tc main_v19)) := by
  simp only [hostOps1_1]
  after_results
  rfl

/-! ## The start -/

/-- The references `nsPre` writes. -/
abbrev nsPre_W : List (Ref sig .tc) := [main_v21, main_v22, main_v23, main_v24, main_c_4, main_v25, main_v26, main_v27, main_v28]
theorem nsPre_writes : (nsPre : List (HloOp τ sig (Elt F))).Forall fun op => op.writes ⊆ (nsPre_W.map (Proc.devRef (τ := τ) .tc)).toFinset := by
  simp only [nsPre, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsPre_keep (V : Valuation τ sig (Elt F)) (r : Ref sig .tc) (h : r ∉ (nsPre_W : List (Ref sig .tc))) :
    StableHlo.after nsPre V (Proc.devRef .tc r) = V (Proc.devRef .tc r) :=
  StableHlo.after_of_writes_sub nsPre V nsPre_writes h
theorem nsPre_keeps (V : Valuation τ sig (Elt F)) (r : Ref sig .tc) (hr : r ∈ (nsKeepP : List (Ref sig .tc))) :
    StableHlo.after nsPre V (Proc.devRef .tc r) = V (Proc.devRef .tc r) :=
  nsPre_keep V r ((by decide : ∀ r ∈ (nsKeepP : List (Ref sig .tc)), r ∉ (nsPre_W : List (Ref sig .tc))) r hr)
/-- The scaled start. -/
theorem nsPre_v22 (V : Valuation τ sig (Elt F)) :
    (StableHlo.after nsPre V (Proc.devRef .tc main_v22) : FVec F Cert.Spec.M64 .f32)
      = Host.divf (V (Proc.devRef .tc main_v19) : FVec F Cert.Spec.M64 .f32) (Cert.Spec.bcM (V (Proc.devRef .tc main_v20))) := by
  unfold nsPre
  after_results
  rfl
/-- The identity. -/
theorem nsPre_v28 (V : Valuation τ sig (Elt F)) :
    (StableHlo.after nsPre V (Proc.devRef .tc main_v28) : FVec F Cert.Spec.M64 .f32) = Cert.Spec.eye := by
  unfold nsPre
  after_results
  rfl

/-! ## The rounds, one at a time over arbitrary contents -/

/-- The references `nsR0` writes. -/
abbrev nsR0_W : List (Ref sig .tc) := [main_cst_5, main_v29, main_v30, main_v31, main_v32, main_cst_6, main_v33, main_v34, main_v35, main_v36]
theorem nsR0_writes : (nsR0 : List (HloOp τ sig (Elt F))).Forall fun op => op.writes ⊆ (nsR0_W.map (Proc.devRef (τ := τ) .tc)).toFinset := by
  simp only [nsR0, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR0_keep (V : Valuation τ sig (Elt F)) (r : Ref sig .tc) (h : r ∉ (nsR0_W : List (Ref sig .tc))) :
    StableHlo.after nsR0 V (Proc.devRef .tc r) = V (Proc.devRef .tc r) :=
  StableHlo.after_of_writes_sub nsR0 V nsR0_writes h
theorem nsR0_keeps (V : Valuation τ sig (Elt F)) (r : Ref sig .tc) (hr : r ∈ (nsKeep : List (Ref sig .tc))) :
    StableHlo.after nsR0 V (Proc.devRef .tc r) = V (Proc.devRef .tc r) :=
  nsR0_keep V r ((by decide : ∀ r ∈ (nsKeep : List (Ref sig .tc)), r ∉ (nsR0_W : List (Ref sig .tc))) r hr)
theorem nsR0_Y (V : Valuation τ sig (Elt F)) :
    (StableHlo.after nsR0 V (Proc.devRef .tc main_v35) : FVec F Cert.Spec.M64 .f32)
      = (Cert.Spec.nsStep (V (Proc.devRef .tc main_v28)) (V (Proc.devRef .tc main_v22), V (Proc.devRef .tc main_v28))).1 := by
  unfold nsR0
  after_results
  rfl
theorem nsR0_Z (V : Valuation τ sig (Elt F)) :
    (StableHlo.after nsR0 V (Proc.devRef .tc main_v36) : FVec F Cert.Spec.M64 .f32)
      = (Cert.Spec.nsStep (V (Proc.devRef .tc main_v28)) (V (Proc.devRef .tc main_v22), V (Proc.devRef .tc main_v28))).2 := by
  unfold nsR0
  after_results
  rfl
/-- Round 0 takes the pair it finds to its Newton–Schulz successor. -/
theorem nsR0_run (V : Valuation τ sig (Elt F)) :
    ((StableHlo.after nsR0 V (Proc.devRef .tc main_v35) : FVec F Cert.Spec.M64 .f32), (StableHlo.after nsR0 V (Proc.devRef .tc main_v36) : FVec F Cert.Spec.M64 .f32))
      = Cert.Spec.nsStep (V (Proc.devRef .tc main_v28)) (V (Proc.devRef .tc main_v22), V (Proc.devRef .tc main_v28)) :=
  Prod.ext (nsR0_Y V) (nsR0_Z V)

/-- The references `nsR1` writes. -/
abbrev nsR1_W : List (Ref sig .tc) := [main_cst_7, main_v37, main_v38, main_v39, main_v40, main_cst_8, main_v41, main_v42, main_v43, main_v44]
theorem nsR1_writes : (nsR1 : List (HloOp τ sig (Elt F))).Forall fun op => op.writes ⊆ (nsR1_W.map (Proc.devRef (τ := τ) .tc)).toFinset := by
  simp only [nsR1, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR1_keep (V : Valuation τ sig (Elt F)) (r : Ref sig .tc) (h : r ∉ (nsR1_W : List (Ref sig .tc))) :
    StableHlo.after nsR1 V (Proc.devRef .tc r) = V (Proc.devRef .tc r) :=
  StableHlo.after_of_writes_sub nsR1 V nsR1_writes h
theorem nsR1_keeps (V : Valuation τ sig (Elt F)) (r : Ref sig .tc) (hr : r ∈ (nsKeep : List (Ref sig .tc))) :
    StableHlo.after nsR1 V (Proc.devRef .tc r) = V (Proc.devRef .tc r) :=
  nsR1_keep V r ((by decide : ∀ r ∈ (nsKeep : List (Ref sig .tc)), r ∉ (nsR1_W : List (Ref sig .tc))) r hr)
theorem nsR1_Y (V : Valuation τ sig (Elt F)) :
    (StableHlo.after nsR1 V (Proc.devRef .tc main_v43) : FVec F Cert.Spec.M64 .f32)
      = (Cert.Spec.nsStep (V (Proc.devRef .tc main_v28)) (V (Proc.devRef .tc main_v35), V (Proc.devRef .tc main_v36))).1 := by
  unfold nsR1
  after_results
  rfl
theorem nsR1_Z (V : Valuation τ sig (Elt F)) :
    (StableHlo.after nsR1 V (Proc.devRef .tc main_v44) : FVec F Cert.Spec.M64 .f32)
      = (Cert.Spec.nsStep (V (Proc.devRef .tc main_v28)) (V (Proc.devRef .tc main_v35), V (Proc.devRef .tc main_v36))).2 := by
  unfold nsR1
  after_results
  rfl
/-- Round 1 takes the pair it finds to its Newton–Schulz successor. -/
theorem nsR1_run (V : Valuation τ sig (Elt F)) :
    ((StableHlo.after nsR1 V (Proc.devRef .tc main_v43) : FVec F Cert.Spec.M64 .f32), (StableHlo.after nsR1 V (Proc.devRef .tc main_v44) : FVec F Cert.Spec.M64 .f32))
      = Cert.Spec.nsStep (V (Proc.devRef .tc main_v28)) (V (Proc.devRef .tc main_v35), V (Proc.devRef .tc main_v36)) :=
  Prod.ext (nsR1_Y V) (nsR1_Z V)

/-- The references `nsR2` writes. -/
abbrev nsR2_W : List (Ref sig .tc) := [main_cst_9, main_v45, main_v46, main_v47, main_v48, main_cst_10, main_v49, main_v50, main_v51, main_v52]
theorem nsR2_writes : (nsR2 : List (HloOp τ sig (Elt F))).Forall fun op => op.writes ⊆ (nsR2_W.map (Proc.devRef (τ := τ) .tc)).toFinset := by
  simp only [nsR2, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR2_keep (V : Valuation τ sig (Elt F)) (r : Ref sig .tc) (h : r ∉ (nsR2_W : List (Ref sig .tc))) :
    StableHlo.after nsR2 V (Proc.devRef .tc r) = V (Proc.devRef .tc r) :=
  StableHlo.after_of_writes_sub nsR2 V nsR2_writes h
theorem nsR2_keeps (V : Valuation τ sig (Elt F)) (r : Ref sig .tc) (hr : r ∈ (nsKeep : List (Ref sig .tc))) :
    StableHlo.after nsR2 V (Proc.devRef .tc r) = V (Proc.devRef .tc r) :=
  nsR2_keep V r ((by decide : ∀ r ∈ (nsKeep : List (Ref sig .tc)), r ∉ (nsR2_W : List (Ref sig .tc))) r hr)
theorem nsR2_Y (V : Valuation τ sig (Elt F)) :
    (StableHlo.after nsR2 V (Proc.devRef .tc main_v51) : FVec F Cert.Spec.M64 .f32)
      = (Cert.Spec.nsStep (V (Proc.devRef .tc main_v28)) (V (Proc.devRef .tc main_v43), V (Proc.devRef .tc main_v44))).1 := by
  unfold nsR2
  after_results
  rfl
theorem nsR2_Z (V : Valuation τ sig (Elt F)) :
    (StableHlo.after nsR2 V (Proc.devRef .tc main_v52) : FVec F Cert.Spec.M64 .f32)
      = (Cert.Spec.nsStep (V (Proc.devRef .tc main_v28)) (V (Proc.devRef .tc main_v43), V (Proc.devRef .tc main_v44))).2 := by
  unfold nsR2
  after_results
  rfl
/-- Round 2 takes the pair it finds to its Newton–Schulz successor. -/
theorem nsR2_run (V : Valuation τ sig (Elt F)) :
    ((StableHlo.after nsR2 V (Proc.devRef .tc main_v51) : FVec F Cert.Spec.M64 .f32), (StableHlo.after nsR2 V (Proc.devRef .tc main_v52) : FVec F Cert.Spec.M64 .f32))
      = Cert.Spec.nsStep (V (Proc.devRef .tc main_v28)) (V (Proc.devRef .tc main_v43), V (Proc.devRef .tc main_v44)) :=
  Prod.ext (nsR2_Y V) (nsR2_Z V)

/-- The references `nsR3` writes. -/
abbrev nsR3_W : List (Ref sig .tc) := [main_cst_11, main_v53, main_v54, main_v55, main_v56, main_cst_12, main_v57, main_v58, main_v59, main_v60]
theorem nsR3_writes : (nsR3 : List (HloOp τ sig (Elt F))).Forall fun op => op.writes ⊆ (nsR3_W.map (Proc.devRef (τ := τ) .tc)).toFinset := by
  simp only [nsR3, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR3_keep (V : Valuation τ sig (Elt F)) (r : Ref sig .tc) (h : r ∉ (nsR3_W : List (Ref sig .tc))) :
    StableHlo.after nsR3 V (Proc.devRef .tc r) = V (Proc.devRef .tc r) :=
  StableHlo.after_of_writes_sub nsR3 V nsR3_writes h
theorem nsR3_keeps (V : Valuation τ sig (Elt F)) (r : Ref sig .tc) (hr : r ∈ (nsKeep : List (Ref sig .tc))) :
    StableHlo.after nsR3 V (Proc.devRef .tc r) = V (Proc.devRef .tc r) :=
  nsR3_keep V r ((by decide : ∀ r ∈ (nsKeep : List (Ref sig .tc)), r ∉ (nsR3_W : List (Ref sig .tc))) r hr)
theorem nsR3_Y (V : Valuation τ sig (Elt F)) :
    (StableHlo.after nsR3 V (Proc.devRef .tc main_v59) : FVec F Cert.Spec.M64 .f32)
      = (Cert.Spec.nsStep (V (Proc.devRef .tc main_v28)) (V (Proc.devRef .tc main_v51), V (Proc.devRef .tc main_v52))).1 := by
  unfold nsR3
  after_results
  rfl
theorem nsR3_Z (V : Valuation τ sig (Elt F)) :
    (StableHlo.after nsR3 V (Proc.devRef .tc main_v60) : FVec F Cert.Spec.M64 .f32)
      = (Cert.Spec.nsStep (V (Proc.devRef .tc main_v28)) (V (Proc.devRef .tc main_v51), V (Proc.devRef .tc main_v52))).2 := by
  unfold nsR3
  after_results
  rfl
/-- Round 3 takes the pair it finds to its Newton–Schulz successor. -/
theorem nsR3_run (V : Valuation τ sig (Elt F)) :
    ((StableHlo.after nsR3 V (Proc.devRef .tc main_v59) : FVec F Cert.Spec.M64 .f32), (StableHlo.after nsR3 V (Proc.devRef .tc main_v60) : FVec F Cert.Spec.M64 .f32))
      = Cert.Spec.nsStep (V (Proc.devRef .tc main_v28)) (V (Proc.devRef .tc main_v51), V (Proc.devRef .tc main_v52)) :=
  Prod.ext (nsR3_Y V) (nsR3_Z V)

/-- The references `nsR4` writes. -/
abbrev nsR4_W : List (Ref sig .tc) := [main_cst_13, main_v61, main_v62, main_v63, main_v64, main_cst_14, main_v65, main_v66, main_v67, main_v68]
theorem nsR4_writes : (nsR4 : List (HloOp τ sig (Elt F))).Forall fun op => op.writes ⊆ (nsR4_W.map (Proc.devRef (τ := τ) .tc)).toFinset := by
  simp only [nsR4, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR4_keep (V : Valuation τ sig (Elt F)) (r : Ref sig .tc) (h : r ∉ (nsR4_W : List (Ref sig .tc))) :
    StableHlo.after nsR4 V (Proc.devRef .tc r) = V (Proc.devRef .tc r) :=
  StableHlo.after_of_writes_sub nsR4 V nsR4_writes h
theorem nsR4_keeps (V : Valuation τ sig (Elt F)) (r : Ref sig .tc) (hr : r ∈ (nsKeep : List (Ref sig .tc))) :
    StableHlo.after nsR4 V (Proc.devRef .tc r) = V (Proc.devRef .tc r) :=
  nsR4_keep V r ((by decide : ∀ r ∈ (nsKeep : List (Ref sig .tc)), r ∉ (nsR4_W : List (Ref sig .tc))) r hr)
theorem nsR4_Y (V : Valuation τ sig (Elt F)) :
    (StableHlo.after nsR4 V (Proc.devRef .tc main_v67) : FVec F Cert.Spec.M64 .f32)
      = (Cert.Spec.nsStep (V (Proc.devRef .tc main_v28)) (V (Proc.devRef .tc main_v59), V (Proc.devRef .tc main_v60))).1 := by
  unfold nsR4
  after_results
  rfl
theorem nsR4_Z (V : Valuation τ sig (Elt F)) :
    (StableHlo.after nsR4 V (Proc.devRef .tc main_v68) : FVec F Cert.Spec.M64 .f32)
      = (Cert.Spec.nsStep (V (Proc.devRef .tc main_v28)) (V (Proc.devRef .tc main_v59), V (Proc.devRef .tc main_v60))).2 := by
  unfold nsR4
  after_results
  rfl
/-- Round 4 takes the pair it finds to its Newton–Schulz successor. -/
theorem nsR4_run (V : Valuation τ sig (Elt F)) :
    ((StableHlo.after nsR4 V (Proc.devRef .tc main_v67) : FVec F Cert.Spec.M64 .f32), (StableHlo.after nsR4 V (Proc.devRef .tc main_v68) : FVec F Cert.Spec.M64 .f32))
      = Cert.Spec.nsStep (V (Proc.devRef .tc main_v28)) (V (Proc.devRef .tc main_v59), V (Proc.devRef .tc main_v60)) :=
  Prod.ext (nsR4_Y V) (nsR4_Z V)

/-- The references `nsR5` writes. -/
abbrev nsR5_W : List (Ref sig .tc) := [main_cst_15, main_v69, main_v70, main_v71, main_v72, main_cst_16, main_v73, main_v74, main_v75, main_v76]
theorem nsR5_writes : (nsR5 : List (HloOp τ sig (Elt F))).Forall fun op => op.writes ⊆ (nsR5_W.map (Proc.devRef (τ := τ) .tc)).toFinset := by
  simp only [nsR5, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR5_keep (V : Valuation τ sig (Elt F)) (r : Ref sig .tc) (h : r ∉ (nsR5_W : List (Ref sig .tc))) :
    StableHlo.after nsR5 V (Proc.devRef .tc r) = V (Proc.devRef .tc r) :=
  StableHlo.after_of_writes_sub nsR5 V nsR5_writes h
theorem nsR5_keeps (V : Valuation τ sig (Elt F)) (r : Ref sig .tc) (hr : r ∈ (nsKeep : List (Ref sig .tc))) :
    StableHlo.after nsR5 V (Proc.devRef .tc r) = V (Proc.devRef .tc r) :=
  nsR5_keep V r ((by decide : ∀ r ∈ (nsKeep : List (Ref sig .tc)), r ∉ (nsR5_W : List (Ref sig .tc))) r hr)
theorem nsR5_Y (V : Valuation τ sig (Elt F)) :
    (StableHlo.after nsR5 V (Proc.devRef .tc main_v75) : FVec F Cert.Spec.M64 .f32)
      = (Cert.Spec.nsStep (V (Proc.devRef .tc main_v28)) (V (Proc.devRef .tc main_v67), V (Proc.devRef .tc main_v68))).1 := by
  unfold nsR5
  after_results
  rfl
theorem nsR5_Z (V : Valuation τ sig (Elt F)) :
    (StableHlo.after nsR5 V (Proc.devRef .tc main_v76) : FVec F Cert.Spec.M64 .f32)
      = (Cert.Spec.nsStep (V (Proc.devRef .tc main_v28)) (V (Proc.devRef .tc main_v67), V (Proc.devRef .tc main_v68))).2 := by
  unfold nsR5
  after_results
  rfl
/-- Round 5 takes the pair it finds to its Newton–Schulz successor. -/
theorem nsR5_run (V : Valuation τ sig (Elt F)) :
    ((StableHlo.after nsR5 V (Proc.devRef .tc main_v75) : FVec F Cert.Spec.M64 .f32), (StableHlo.after nsR5 V (Proc.devRef .tc main_v76) : FVec F Cert.Spec.M64 .f32))
      = Cert.Spec.nsStep (V (Proc.devRef .tc main_v28)) (V (Proc.devRef .tc main_v67), V (Proc.devRef .tc main_v68)) :=
  Prod.ext (nsR5_Y V) (nsR5_Z V)

/-- The references `nsR6` writes. -/
abbrev nsR6_W : List (Ref sig .tc) := [main_cst_17, main_v77, main_v78, main_v79, main_v80, main_cst_18, main_v81, main_v82, main_v83, main_v84]
theorem nsR6_writes : (nsR6 : List (HloOp τ sig (Elt F))).Forall fun op => op.writes ⊆ (nsR6_W.map (Proc.devRef (τ := τ) .tc)).toFinset := by
  simp only [nsR6, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR6_keep (V : Valuation τ sig (Elt F)) (r : Ref sig .tc) (h : r ∉ (nsR6_W : List (Ref sig .tc))) :
    StableHlo.after nsR6 V (Proc.devRef .tc r) = V (Proc.devRef .tc r) :=
  StableHlo.after_of_writes_sub nsR6 V nsR6_writes h
theorem nsR6_keeps (V : Valuation τ sig (Elt F)) (r : Ref sig .tc) (hr : r ∈ (nsKeep : List (Ref sig .tc))) :
    StableHlo.after nsR6 V (Proc.devRef .tc r) = V (Proc.devRef .tc r) :=
  nsR6_keep V r ((by decide : ∀ r ∈ (nsKeep : List (Ref sig .tc)), r ∉ (nsR6_W : List (Ref sig .tc))) r hr)
theorem nsR6_Y (V : Valuation τ sig (Elt F)) :
    (StableHlo.after nsR6 V (Proc.devRef .tc main_v83) : FVec F Cert.Spec.M64 .f32)
      = (Cert.Spec.nsStep (V (Proc.devRef .tc main_v28)) (V (Proc.devRef .tc main_v75), V (Proc.devRef .tc main_v76))).1 := by
  unfold nsR6
  after_results
  rfl
theorem nsR6_Z (V : Valuation τ sig (Elt F)) :
    (StableHlo.after nsR6 V (Proc.devRef .tc main_v84) : FVec F Cert.Spec.M64 .f32)
      = (Cert.Spec.nsStep (V (Proc.devRef .tc main_v28)) (V (Proc.devRef .tc main_v75), V (Proc.devRef .tc main_v76))).2 := by
  unfold nsR6
  after_results
  rfl
/-- Round 6 takes the pair it finds to its Newton–Schulz successor. -/
theorem nsR6_run (V : Valuation τ sig (Elt F)) :
    ((StableHlo.after nsR6 V (Proc.devRef .tc main_v83) : FVec F Cert.Spec.M64 .f32), (StableHlo.after nsR6 V (Proc.devRef .tc main_v84) : FVec F Cert.Spec.M64 .f32))
      = Cert.Spec.nsStep (V (Proc.devRef .tc main_v28)) (V (Proc.devRef .tc main_v75), V (Proc.devRef .tc main_v76)) :=
  Prod.ext (nsR6_Y V) (nsR6_Z V)

/-- The references `nsR7` writes. -/
abbrev nsR7_W : List (Ref sig .tc) := [main_cst_19, main_v85, main_v86, main_v87, main_v88, main_cst_20, main_v89, main_v90, main_v91, main_v92]
theorem nsR7_writes : (nsR7 : List (HloOp τ sig (Elt F))).Forall fun op => op.writes ⊆ (nsR7_W.map (Proc.devRef (τ := τ) .tc)).toFinset := by
  simp only [nsR7, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR7_keep (V : Valuation τ sig (Elt F)) (r : Ref sig .tc) (h : r ∉ (nsR7_W : List (Ref sig .tc))) :
    StableHlo.after nsR7 V (Proc.devRef .tc r) = V (Proc.devRef .tc r) :=
  StableHlo.after_of_writes_sub nsR7 V nsR7_writes h
theorem nsR7_keeps (V : Valuation τ sig (Elt F)) (r : Ref sig .tc) (hr : r ∈ (nsKeep : List (Ref sig .tc))) :
    StableHlo.after nsR7 V (Proc.devRef .tc r) = V (Proc.devRef .tc r) :=
  nsR7_keep V r ((by decide : ∀ r ∈ (nsKeep : List (Ref sig .tc)), r ∉ (nsR7_W : List (Ref sig .tc))) r hr)
theorem nsR7_Y (V : Valuation τ sig (Elt F)) :
    (StableHlo.after nsR7 V (Proc.devRef .tc main_v91) : FVec F Cert.Spec.M64 .f32)
      = (Cert.Spec.nsStep (V (Proc.devRef .tc main_v28)) (V (Proc.devRef .tc main_v83), V (Proc.devRef .tc main_v84))).1 := by
  unfold nsR7
  after_results
  rfl
theorem nsR7_Z (V : Valuation τ sig (Elt F)) :
    (StableHlo.after nsR7 V (Proc.devRef .tc main_v92) : FVec F Cert.Spec.M64 .f32)
      = (Cert.Spec.nsStep (V (Proc.devRef .tc main_v28)) (V (Proc.devRef .tc main_v83), V (Proc.devRef .tc main_v84))).2 := by
  unfold nsR7
  after_results
  rfl
/-- Round 7 takes the pair it finds to its Newton–Schulz successor. -/
theorem nsR7_run (V : Valuation τ sig (Elt F)) :
    ((StableHlo.after nsR7 V (Proc.devRef .tc main_v91) : FVec F Cert.Spec.M64 .f32), (StableHlo.after nsR7 V (Proc.devRef .tc main_v92) : FVec F Cert.Spec.M64 .f32))
      = Cert.Spec.nsStep (V (Proc.devRef .tc main_v28)) (V (Proc.devRef .tc main_v83), V (Proc.devRef .tc main_v84)) :=
  Prod.ext (nsR7_Y V) (nsR7_Z V)

/-- The references `nsR8` writes. -/
abbrev nsR8_W : List (Ref sig .tc) := [main_cst_21, main_v93, main_v94, main_v95, main_v96, main_cst_22, main_v97, main_v98, main_v99, main_v100]
theorem nsR8_writes : (nsR8 : List (HloOp τ sig (Elt F))).Forall fun op => op.writes ⊆ (nsR8_W.map (Proc.devRef (τ := τ) .tc)).toFinset := by
  simp only [nsR8, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR8_keep (V : Valuation τ sig (Elt F)) (r : Ref sig .tc) (h : r ∉ (nsR8_W : List (Ref sig .tc))) :
    StableHlo.after nsR8 V (Proc.devRef .tc r) = V (Proc.devRef .tc r) :=
  StableHlo.after_of_writes_sub nsR8 V nsR8_writes h
theorem nsR8_keeps (V : Valuation τ sig (Elt F)) (r : Ref sig .tc) (hr : r ∈ (nsKeep : List (Ref sig .tc))) :
    StableHlo.after nsR8 V (Proc.devRef .tc r) = V (Proc.devRef .tc r) :=
  nsR8_keep V r ((by decide : ∀ r ∈ (nsKeep : List (Ref sig .tc)), r ∉ (nsR8_W : List (Ref sig .tc))) r hr)
theorem nsR8_Y (V : Valuation τ sig (Elt F)) :
    (StableHlo.after nsR8 V (Proc.devRef .tc main_v99) : FVec F Cert.Spec.M64 .f32)
      = (Cert.Spec.nsStep (V (Proc.devRef .tc main_v28)) (V (Proc.devRef .tc main_v91), V (Proc.devRef .tc main_v92))).1 := by
  unfold nsR8
  after_results
  rfl
theorem nsR8_Z (V : Valuation τ sig (Elt F)) :
    (StableHlo.after nsR8 V (Proc.devRef .tc main_v100) : FVec F Cert.Spec.M64 .f32)
      = (Cert.Spec.nsStep (V (Proc.devRef .tc main_v28)) (V (Proc.devRef .tc main_v91), V (Proc.devRef .tc main_v92))).2 := by
  unfold nsR8
  after_results
  rfl
/-- Round 8 takes the pair it finds to its Newton–Schulz successor. -/
theorem nsR8_run (V : Valuation τ sig (Elt F)) :
    ((StableHlo.after nsR8 V (Proc.devRef .tc main_v99) : FVec F Cert.Spec.M64 .f32), (StableHlo.after nsR8 V (Proc.devRef .tc main_v100) : FVec F Cert.Spec.M64 .f32))
      = Cert.Spec.nsStep (V (Proc.devRef .tc main_v28)) (V (Proc.devRef .tc main_v91), V (Proc.devRef .tc main_v92)) :=
  Prod.ext (nsR8_Y V) (nsR8_Z V)

/-- The references `nsR9` writes. -/
abbrev nsR9_W : List (Ref sig .tc) := [main_cst_23, main_v101, main_v102, main_v103, main_v104, main_cst_24, main_v105, main_v106, main_v107, main_v108]
theorem nsR9_writes : (nsR9 : List (HloOp τ sig (Elt F))).Forall fun op => op.writes ⊆ (nsR9_W.map (Proc.devRef (τ := τ) .tc)).toFinset := by
  simp only [nsR9, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsR9_keep (V : Valuation τ sig (Elt F)) (r : Ref sig .tc) (h : r ∉ (nsR9_W : List (Ref sig .tc))) :
    StableHlo.after nsR9 V (Proc.devRef .tc r) = V (Proc.devRef .tc r) :=
  StableHlo.after_of_writes_sub nsR9 V nsR9_writes h
theorem nsR9_keeps (V : Valuation τ sig (Elt F)) (r : Ref sig .tc) (hr : r ∈ (nsKeep : List (Ref sig .tc))) :
    StableHlo.after nsR9 V (Proc.devRef .tc r) = V (Proc.devRef .tc r) :=
  nsR9_keep V r ((by decide : ∀ r ∈ (nsKeep : List (Ref sig .tc)), r ∉ (nsR9_W : List (Ref sig .tc))) r hr)
theorem nsR9_Y (V : Valuation τ sig (Elt F)) :
    (StableHlo.after nsR9 V (Proc.devRef .tc main_v107) : FVec F Cert.Spec.M64 .f32)
      = (Cert.Spec.nsStep (V (Proc.devRef .tc main_v28)) (V (Proc.devRef .tc main_v99), V (Proc.devRef .tc main_v100))).1 := by
  unfold nsR9
  after_results
  rfl
theorem nsR9_Z (V : Valuation τ sig (Elt F)) :
    (StableHlo.after nsR9 V (Proc.devRef .tc main_v108) : FVec F Cert.Spec.M64 .f32)
      = (Cert.Spec.nsStep (V (Proc.devRef .tc main_v28)) (V (Proc.devRef .tc main_v99), V (Proc.devRef .tc main_v100))).2 := by
  unfold nsR9
  after_results
  rfl
/-- Round 9 takes the pair it finds to its Newton–Schulz successor. -/
theorem nsR9_run (V : Valuation τ sig (Elt F)) :
    ((StableHlo.after nsR9 V (Proc.devRef .tc main_v107) : FVec F Cert.Spec.M64 .f32), (StableHlo.after nsR9 V (Proc.devRef .tc main_v108) : FVec F Cert.Spec.M64 .f32))
      = Cert.Spec.nsStep (V (Proc.devRef .tc main_v28)) (V (Proc.devRef .tc main_v99), V (Proc.devRef .tc main_v100)) :=
  Prod.ext (nsR9_Y V) (nsR9_Z V)

/-! ## The ten rounds as an iterate -/

/-- One more round on top of `k`. -/
theorem ns_chain {I I' : FVec F Cert.Spec.M64 .f32} {p0 : FVec F Cert.Spec.M64 .f32 × FVec F Cert.Spec.M64 .f32} {k : ℕ} {y z y' z' : FVec F Cert.Spec.M64 .f32}
    (hI : I' = I) (hp : (y, z) = (Cert.Spec.nsStep I)^[k] p0) (hs : (y', z') = Cert.Spec.nsStep I' (y, z)) :
    (y', z') = (Cert.Spec.nsStep I)^[k + 1] p0 := by
  rw [Function.iterate_succ_apply', ← hp, ← hI]; exact hs

/-- The contents after the ten rounds run from `V`. -/
def nsAfterRounds (V : Valuation τ sig (Elt F)) : Valuation τ sig (Elt F) :=
  (StableHlo.after nsR9 (StableHlo.after nsR8 (StableHlo.after nsR7 (StableHlo.after nsR6 (StableHlo.after nsR5 (StableHlo.after nsR4 (StableHlo.after nsR3 (StableHlo.after nsR2 (StableHlo.after nsR1 (StableHlo.after nsR0 V))))))))))

theorem nsAfterRounds_keeps (V : Valuation τ sig (Elt F)) (r : Ref sig .tc) (hr : r ∈ (nsKeep : List (Ref sig .tc))) :
    nsAfterRounds V (Proc.devRef .tc r) = V (Proc.devRef .tc r) := by
  unfold nsAfterRounds
  rw [nsR9_keeps _ r hr, nsR8_keeps _ r hr, nsR7_keeps _ r hr, nsR6_keeps _ r hr, nsR5_keeps _ r hr, nsR4_keeps _ r hr, nsR3_keeps _ r hr, nsR2_keeps _ r hr, nsR1_keeps _ r hr, nsR0_keeps _ r hr]

/-- Ten rounds from `(Y, Z)` with the identity buffer holding `I` leave the tenth iterate. -/
theorem nsAfterRounds_run (V : Valuation τ sig (Elt F)) :
    ((nsAfterRounds V (Proc.devRef .tc main_v107) : FVec F Cert.Spec.M64 .f32), (nsAfterRounds V (Proc.devRef .tc main_v108) : FVec F Cert.Spec.M64 .f32))
      = (Cert.Spec.nsStep (V (Proc.devRef .tc main_v28)))^[10] (V (Proc.devRef .tc main_v22), V (Proc.devRef .tc main_v28)) := by
  have i0 : (V (Proc.devRef .tc main_v28) : FVec F Cert.Spec.M64 .f32) = V (Proc.devRef .tc main_v28) := rfl
  have p0 : ((V (Proc.devRef .tc main_v22) : FVec F Cert.Spec.M64 .f32), (V (Proc.devRef .tc main_v28) : FVec F Cert.Spec.M64 .f32))
      = (Cert.Spec.nsStep (V (Proc.devRef .tc main_v28)))^[0] (V (Proc.devRef .tc main_v22), V (Proc.devRef .tc main_v28)) := rfl
  have p1 := ns_chain i0 p0 (nsR0_run V)
  have i1 : ((StableHlo.after nsR0 V) (Proc.devRef .tc main_v28) : FVec F Cert.Spec.M64 .f32) = V (Proc.devRef .tc main_v28) :=
    (nsR0_keeps V main_v28 (by decide)).trans i0
  have p2 := ns_chain i1 p1 (nsR1_run (StableHlo.after nsR0 V))
  have i2 : ((StableHlo.after nsR1 (StableHlo.after nsR0 V)) (Proc.devRef .tc main_v28) : FVec F Cert.Spec.M64 .f32) = V (Proc.devRef .tc main_v28) :=
    (nsR1_keeps (StableHlo.after nsR0 V) main_v28 (by decide)).trans i1
  have p3 := ns_chain i2 p2 (nsR2_run (StableHlo.after nsR1 (StableHlo.after nsR0 V)))
  have i3 : ((StableHlo.after nsR2 (StableHlo.after nsR1 (StableHlo.after nsR0 V))) (Proc.devRef .tc main_v28) : FVec F Cert.Spec.M64 .f32) = V (Proc.devRef .tc main_v28) :=
    (nsR2_keeps (StableHlo.after nsR1 (StableHlo.after nsR0 V)) main_v28 (by decide)).trans i2
  have p4 := ns_chain i3 p3 (nsR3_run (StableHlo.after nsR2 (StableHlo.after nsR1 (StableHlo.after nsR0 V))))
  have i4 : ((StableHlo.after nsR3 (StableHlo.after nsR2 (StableHlo.after nsR1 (StableHlo.after nsR0 V)))) (Proc.devRef .tc main_v28) : FVec F Cert.Spec.M64 .f32) = V (Proc.devRef .tc main_v28) :=
    (nsR3_keeps (StableHlo.after nsR2 (StableHlo.after nsR1 (StableHlo.after nsR0 V))) main_v28 (by decide)).trans i3
  have p5 := ns_chain i4 p4 (nsR4_run (StableHlo.after nsR3 (StableHlo.after nsR2 (StableHlo.after nsR1 (StableHlo.after nsR0 V)))))
  have i5 : ((StableHlo.after nsR4 (StableHlo.after nsR3 (StableHlo.after nsR2 (StableHlo.after nsR1 (StableHlo.after nsR0 V))))) (Proc.devRef .tc main_v28) : FVec F Cert.Spec.M64 .f32) = V (Proc.devRef .tc main_v28) :=
    (nsR4_keeps (StableHlo.after nsR3 (StableHlo.after nsR2 (StableHlo.after nsR1 (StableHlo.after nsR0 V)))) main_v28 (by decide)).trans i4
  have p6 := ns_chain i5 p5 (nsR5_run (StableHlo.after nsR4 (StableHlo.after nsR3 (StableHlo.after nsR2 (StableHlo.after nsR1 (StableHlo.after nsR0 V))))))
  have i6 : ((StableHlo.after nsR5 (StableHlo.after nsR4 (StableHlo.after nsR3 (StableHlo.after nsR2 (StableHlo.after nsR1 (StableHlo.after nsR0 V)))))) (Proc.devRef .tc main_v28) : FVec F Cert.Spec.M64 .f32) = V (Proc.devRef .tc main_v28) :=
    (nsR5_keeps (StableHlo.after nsR4 (StableHlo.after nsR3 (StableHlo.after nsR2 (StableHlo.after nsR1 (StableHlo.after nsR0 V))))) main_v28 (by decide)).trans i5
  have p7 := ns_chain i6 p6 (nsR6_run (StableHlo.after nsR5 (StableHlo.after nsR4 (StableHlo.after nsR3 (StableHlo.after nsR2 (StableHlo.after nsR1 (StableHlo.after nsR0 V)))))))
  have i7 : ((StableHlo.after nsR6 (StableHlo.after nsR5 (StableHlo.after nsR4 (StableHlo.after nsR3 (StableHlo.after nsR2 (StableHlo.after nsR1 (StableHlo.after nsR0 V))))))) (Proc.devRef .tc main_v28) : FVec F Cert.Spec.M64 .f32) = V (Proc.devRef .tc main_v28) :=
    (nsR6_keeps (StableHlo.after nsR5 (StableHlo.after nsR4 (StableHlo.after nsR3 (StableHlo.after nsR2 (StableHlo.after nsR1 (StableHlo.after nsR0 V)))))) main_v28 (by decide)).trans i6
  have p8 := ns_chain i7 p7 (nsR7_run (StableHlo.after nsR6 (StableHlo.after nsR5 (StableHlo.after nsR4 (StableHlo.after nsR3 (StableHlo.after nsR2 (StableHlo.after nsR1 (StableHlo.after nsR0 V))))))))
  have i8 : ((StableHlo.after nsR7 (StableHlo.after nsR6 (StableHlo.after nsR5 (StableHlo.after nsR4 (StableHlo.after nsR3 (StableHlo.after nsR2 (StableHlo.after nsR1 (StableHlo.after nsR0 V)))))))) (Proc.devRef .tc main_v28) : FVec F Cert.Spec.M64 .f32) = V (Proc.devRef .tc main_v28) :=
    (nsR7_keeps (StableHlo.after nsR6 (StableHlo.after nsR5 (StableHlo.after nsR4 (StableHlo.after nsR3 (StableHlo.after nsR2 (StableHlo.after nsR1 (StableHlo.after nsR0 V))))))) main_v28 (by decide)).trans i7
  have p9 := ns_chain i8 p8 (nsR8_run (StableHlo.after nsR7 (StableHlo.after nsR6 (StableHlo.after nsR5 (StableHlo.after nsR4 (StableHlo.after nsR3 (StableHlo.after nsR2 (StableHlo.after nsR1 (StableHlo.after nsR0 V)))))))))
  have i9 : ((StableHlo.after nsR8 (StableHlo.after nsR7 (StableHlo.after nsR6 (StableHlo.after nsR5 (StableHlo.after nsR4 (StableHlo.after nsR3 (StableHlo.after nsR2 (StableHlo.after nsR1 (StableHlo.after nsR0 V))))))))) (Proc.devRef .tc main_v28) : FVec F Cert.Spec.M64 .f32) = V (Proc.devRef .tc main_v28) :=
    (nsR8_keeps (StableHlo.after nsR7 (StableHlo.after nsR6 (StableHlo.after nsR5 (StableHlo.after nsR4 (StableHlo.after nsR3 (StableHlo.after nsR2 (StableHlo.after nsR1 (StableHlo.after nsR0 V)))))))) main_v28 (by decide)).trans i8
  have p10 := ns_chain i9 p9 (nsR9_run (StableHlo.after nsR8 (StableHlo.after nsR7 (StableHlo.after nsR6 (StableHlo.after nsR5 (StableHlo.after nsR4 (StableHlo.after nsR3 (StableHlo.after nsR2 (StableHlo.after nsR1 (StableHlo.after nsR0 V))))))))))
  exact p10

/-! ## The end -/

/-- The references `nsPost` writes. -/
abbrev nsPost_W : List (Ref sig .tc) := [main_v109, main_v110, main_v111, main_v112, main_v113, main_v114]
theorem nsPost_writes : (nsPost : List (HloOp τ sig (Elt F))).Forall fun op => op.writes ⊆ (nsPost_W.map (Proc.devRef (τ := τ) .tc)).toFinset := by
  simp only [nsPost, List.Forall, StableHlo.nullary_writes, StableHlo.unary_writes, StableHlo.binary_writes, Finset.singleton_subset_iff, List.mem_toFinset]
  repeat' apply And.intro
  all_goals exact List.mem_map_of_mem (by decide)
/-- It leaves every other buffer as it was. -/
theorem nsPost_keep (V : Valuation τ sig (Elt F)) (r : Ref sig .tc) (h : r ∉ (nsPost_W : List (Ref sig .tc))) :
    StableHlo.after nsPost V (Proc.devRef .tc r) = V (Proc.devRef .tc r) :=
  StableHlo.after_of_writes_sub nsPost V nsPost_writes h
theorem nsPost_keeps (V : Valuation τ sig (Elt F)) (r : Ref sig .tc) (hr : r ∈ (nsKeepE : List (Ref sig .tc))) :
    StableHlo.after nsPost V (Proc.devRef .tc r) = V (Proc.devRef .tc r) :=
  nsPost_keep V r ((by decide : ∀ r ∈ (nsKeepE : List (Ref sig .tc)), r ∉ (nsPost_W : List (Ref sig .tc))) r hr)
theorem nsPost_v111 (V : Valuation τ sig (Elt F)) :
    (StableHlo.after nsPost V (Proc.devRef .tc main_v111) : FVec F Cert.Spec.M64 .f32)
      = Host.divf (V (Proc.devRef .tc main_v108) : FVec F Cert.Spec.M64 .f32) (Cert.Spec.bcM (Host.sqrt (V (Proc.devRef .tc main_v20)))) := by
  unfold nsPost
  after_results
  rfl
theorem nsPost_v112 (V : Valuation τ sig (Elt F)) :
    (StableHlo.after nsPost V (Proc.devRef .tc main_v112) : FVec F Cert.Spec.M64 .f32)
      = Cert.Spec.mm (V (Proc.devRef .tc main_arg1))
          (Host.divf (V (Proc.devRef .tc main_v108) : FVec F Cert.Spec.M64 .f32) (Cert.Spec.bcM (Host.sqrt (V (Proc.devRef .tc main_v20))))) := by
  unfold nsPost
  after_results
  rfl
theorem nsPost_v114 (V : Valuation τ sig (Elt F)) :
    (StableHlo.after nsPost V (Proc.devRef .tc main_v114) : FVec F Cert.Spec.C64 .f32)
      = subf (V (Proc.devRef .tc main_arg2) : FVec F Cert.Spec.C64 .f32)
          (Host.dotGeneral Cert.Spec.dotMC none
            (Cert.Spec.mm (V (Proc.devRef .tc main_arg1))
              (Host.divf (V (Proc.devRef .tc main_v108) : FVec F Cert.Spec.M64 .f32) (Cert.Spec.bcM (Host.sqrt (V (Proc.devRef .tc main_v20))))))
            (V (Proc.devRef .tc main_v5))) := by
  unfold nsPost
  after_results
  rfl

/-! ## The whole stretch -/

/-- The contents before the end: the norm, the start, the ten rounds. -/
def nsBefore (V : Valuation τ sig (Elt F)) : Valuation τ sig (Elt F) :=
  nsAfterRounds (StableHlo.after nsPre (StableHlo.after hostOps1_1 V))

theorem hostNS_cut (V : Valuation τ sig (Elt F)) :
    StableHlo.after hostOps1_2 (StableHlo.after hostOps1_1 V) = StableHlo.after nsPost (nsBefore V) := by
  rw [hostOps1_2_cut]
  simp only [after_append]
  rfl

/-- A buffer none of the three parts writes is as it was. -/
theorem nsBefore_keeps (V : Valuation τ sig (Elt F)) (r : Ref sig .tc) (hr : r ∈ ([main_v5, main_arg0, main_arg1, main_arg2, main_v0] : List (Ref sig .tc))) :
    nsBefore V (Proc.devRef .tc r) = V (Proc.devRef .tc r) := by
  unfold nsBefore
  rw [nsAfterRounds_keeps _ r ((by decide : ∀ r ∈ ([main_v5, main_arg0, main_arg1, main_arg2, main_v0] : List (Ref sig .tc)), r ∈ (nsKeep : List (Ref sig .tc))) r hr),
    nsPre_keeps _ r ((by decide : ∀ r ∈ ([main_v5, main_arg0, main_arg1, main_arg2, main_v0] : List (Ref sig .tc)), r ∈ (nsKeepP : List (Ref sig .tc))) r hr),
    hostOps1_1_keeps _ r ((by decide : ∀ r ∈ ([main_v5, main_arg0, main_arg1, main_arg2, main_v0] : List (Ref sig .tc)), r ∈ (nsKeepN : List (Ref sig .tc))) r hr)]

/-- The norm is still in its buffer. -/
theorem nsBefore_v20 (V : Valuation τ sig (Elt F)) :
    (nsBefore V (Proc.devRef .tc main_v20) : FVec F Cert.Spec.S0 .f32) = Cert.Spec.nrm (V (Proc.devRef .tc main_v19)) := by
  unfold nsBefore
  rw [nsAfterRounds_keeps _ main_v20 (by decide), nsPre_keeps _ main_v20 (by decide)]
  exact hostOps1_1_v20 V

/-- The second matrix of the tenth iterate is in its buffer. -/
theorem nsBefore_v108 (V : Valuation τ sig (Elt F)) :
    (nsBefore V (Proc.devRef .tc main_v108) : FVec F Cert.Spec.M64 .f32)
      = ((Cert.Spec.nsStep Cert.Spec.eye)^[10]
          (Host.divf (V (Proc.devRef .tc main_v19) : FVec F Cert.Spec.M64 .f32) (Cert.Spec.bcM (Cert.Spec.nrm (V (Proc.devRef .tc main_v19)))), Cert.Spec.eye)).2 := by
  have h := congrArg Prod.snd (nsAfterRounds_run (StableHlo.after nsPre (StableHlo.after hostOps1_1 V)))
  rw [nsPre_v28, nsPre_v22, hostOps1_1_keeps V main_v19 (by decide), hostOps1_1_v20] at h
  exact h

theorem hostNS_v111 (V : Valuation τ sig (Elt F)) :
    (StableHlo.after hostOps1_2 (StableHlo.after hostOps1_1 V) (Proc.devRef .tc main_v111) : FVec F S64x64 .f32)
      = Cert.Spec.decorr (V (Proc.devRef .tc main_v19)) := by
  rw [hostNS_cut, nsPost_v111, nsBefore_v108, nsBefore_v20]
  rfl

theorem hostNS_v112 (V : Valuation τ sig (Elt F)) :
    (StableHlo.after hostOps1_2 (StableHlo.after hostOps1_1 V) (Proc.devRef .tc main_v112) : FVec F S64x64 .f32)
      = Cert.Spec.mm (V (Proc.devRef .tc main_arg1)) (Cert.Spec.decorr (V (Proc.devRef .tc main_v19))) := by
  rw [hostNS_cut, nsPost_v112, nsBefore_v108, nsBefore_v20, nsBefore_keeps V main_arg1 (by decide)]
  rfl

theorem hostNS_v114 (V : Valuation τ sig (Elt F)) :
    (StableHlo.after hostOps1_2 (StableHlo.after hostOps1_1 V) (Proc.devRef .tc main_v114) : FVec F S64x1 .f32)
      = subf (V (Proc.devRef .tc main_arg2) : FVec F S64x1 .f32)
          (Host.dotGeneral Cert.Spec.dotMC none
            (Cert.Spec.mm (V (Proc.devRef .tc main_arg1)) (Cert.Spec.decorr (V (Proc.devRef .tc main_v19))))
            (V (Proc.devRef .tc main_v5))) := by
  rw [hostNS_cut, nsPost_v114, nsBefore_v108, nsBefore_v20, nsBefore_keeps V main_arg1 (by decide),
    nsBefore_keeps V main_arg2 (by decide), nsBefore_keeps V main_v5 (by decide)]
  rfl

theorem hostNS_keep (V : Valuation τ sig (Elt F)) (b : Ref sig .tc) (hb : b ∈ ([main_arg0, main_arg1, main_arg2, main_v0] : List (Ref sig .tc))) :
    StableHlo.after hostOps1_2 (StableHlo.after hostOps1_1 V) (Proc.devRef .tc b) = V (Proc.devRef .tc b) := by
  rw [hostNS_cut, nsPost_keeps _ b hb]
  exact nsBefore_keeps V b ((by decide : ∀ r ∈ ([main_arg0, main_arg1, main_arg2, main_v0] : List (Ref sig .tc)), r ∈ ([main_v5, main_arg0, main_arg1, main_arg2, main_v0] : List (Ref sig .tc))) b hb)

end Cert.KernelIdeal.Fr

end
-- ==== Proof.KI.Value.lean ====
/-
  The kernel program's result, over extended reals, as the specification's output with the mean folded into the bias.

  The last operation reshapes the affine launch's output array [256, 64, 3136] into [64, 256, 56, 56]: position
  (n, ch, h, w) reads sample row b = n·4 + ch / 64, feature g = ch mod 64 and sample column t = h·56 + w, because both
  arrays list their elements in the same row-major order.  The affine launch writes, at (b, g, t),
  Σ_k A (g, k) · x (b, k, t) + β (g, 0), where on entry A is the product of the weight matrix with the whitening matrix
  of the covariance, x is the reshaped input and β is the bias minus A times the column of means.  The entry of a
  64×64 matrix times a 64×1 column at (g, 0) is Σ_k A (g, k) · μ (k, 0).  Reading the input, the means and the covariance
  as the specification's data, mean and uncentred covariance gives the claim.
-/
import proofs.«421103_j37855841747396_3_alg».proof.Proof.KI.Frame
import proofs.«421103_j37855841747396_3_alg».proof.Proof.KI.ValStats
import proofs.«421103_j37855841747396_3_alg».proof.Proof.KI.Val1
import proofs.«421103_j37855841747396_3_alg».proof.Proof.KI.HostNS
import proofs.«421103_j37855841747396_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## A 64×64 matrix times a 64×1 column, entry by entry -/

theorem dotMC_lhs_0 (i : Cert.Spec.C64.Idx) (q : Cert.Spec.dotMC.contr.Idx) :
    (Cert.Spec.dotMC.lhsIdx i q 0).val = (i 0).val := by
  unfold DotDims.lhsIdx
  rw [dif_neg (show ¬(0 : Fin Cert.Spec.M64.rank) ∈ Cert.Spec.dotMC.lhsBatch by decide),
    dif_pos (show (0 : Fin Cert.Spec.M64.rank) ∈ Cert.Spec.dotMC.lhsNonContracting by decide)]
  rfl
theorem dotMC_lhs_1 (i : Cert.Spec.C64.Idx) (q : Cert.Spec.dotMC.contr.Idx) :
    (Cert.Spec.dotMC.lhsIdx i q 1).val = (q ⟨0, by decide⟩).val :=
  Cert.Spec.dotMC.lhsIdx_val_of_single rfl i q
theorem dotMC_rhs_0 (i : Cert.Spec.C64.Idx) (q : Cert.Spec.dotMC.contr.Idx) :
    (Cert.Spec.dotMC.rhsIdx i q 0).val = (q ⟨0, by decide⟩).val :=
  Cert.Spec.dotMC.rhsIdx_val_of_single rfl i q
theorem dotMC_rhs_1 (i : Cert.Spec.C64.Idx) (q : Cert.Spec.dotMC.contr.Idx) :
    (Cert.Spec.dotMC.rhsIdx i q 1).val = (i 1).val := by
  unfold DotDims.rhsIdx
  rw [dif_neg (show ¬(1 : Fin Cert.Spec.C64.rank) ∈ Cert.Spec.dotMC.rhsBatch by decide),
    dif_pos (show (1 : Fin Cert.Spec.C64.rank) ∈ Cert.Spec.dotMC.rhsNonContracting by decide)]
  rfl

/-- Row g of the product of a matrix with a column: the sum over the shared index of the products. -/
theorem dotMC_apply (A : FVec Ideal Cert.Spec.M64 .f32) (v : FVec Ideal Cert.Spec.C64 .f32) (g : Fin 64) :
    (Host.dotGeneral Cert.Spec.dotMC none A v : FVec Ideal Cert.Spec.C64 .f32) (ix2 g (0 : Fin 1))
      = ∑ k : Fin 64, A (ix2 g k) * v (ix2 k (0 : Fin 1)) := by
  simp only [Host.dotGeneral]
  rw [Ideal.dotGeneral_apply, ← Equiv.sum_comp (ValueIdx.contrEquiv1 Cert.Spec.dotMC 64 rfl rfl).symm]
  refine Finset.sum_congr rfl fun k _ => ?_
  have hk := ValueIdx.contrEquiv1_symm_val Cert.Spec.dotMC 64 rfl rfl k
  have el : Cert.Spec.dotMC.lhsIdx (ix2 g (0 : Fin 1)) ((ValueIdx.contrEquiv1 Cert.Spec.dotMC 64 rfl rfl).symm k) = ix2 g k :=
    funext fun a => Fin.ext (by
      match a with
      | ⟨0, _⟩ => exact dotMC_lhs_0 _ _
      | ⟨1, _⟩ => exact (dotMC_lhs_1 _ _).trans hk)
  have er : Cert.Spec.dotMC.rhsIdx (ix2 g (0 : Fin 1)) ((ValueIdx.contrEquiv1 Cert.Spec.dotMC 64 rfl rfl).symm k) = ix2 k (0 : Fin 1) :=
    funext fun a => Fin.ext (by
      match a with
      | ⟨0, _⟩ => exact (dotMC_rhs_0 _ _).trans hk
      | ⟨1, _⟩ => exact dotMC_rhs_1 _ _)
  rw [el, er]

/-! ## The program's result -/

variable (m : (ℓ : Loc nD τ sig) → Buf (Elt Ideal) ℓ) (ρ : Dev nD → PrngReg) (c : Dev nD)

/-- The last reshape reads the affine launch's output at the sample row, feature and sample column of the position. -/
theorem W7_v116_apply (i : S64x256x56x56.Idx) :
    (W7 m ρ c (Proc.devRef .tc main_v116) : S64x256x56x56.Idx → EReal) i
      = (W6 m ρ c (Proc.devRef .tc main_v115) : S256x64x3136.Idx → EReal) (ix3 (Cert.Spec.bOf i) (Cert.Spec.gOf i) (Cert.Spec.tOf i)) := by
  have e7 : (W7 m ρ c (Proc.devRef .tc main_v116) : S64x256x56x56.Idx → EReal)
      = shapeCast S64x256x56x56 (W6 m ρ c (Proc.devRef .tc main_v115) : S256x64x3136.Idx → EReal) shapeCasts_S256x64x3136_S64x256x56x56 := by
    show StableHlo.after hostOps2 (W6 m ρ c) (Proc.devRef .tc main_v116) = _
    after_results
    rfl
  rw [e7]
  exact shapeCast_apply (s := S256x64x3136) (t := S64x256x56x56) _ shapeCasts_S256x64x3136_S64x256x56x56 i
    (ix3 (Cert.Spec.bOf i) (Cert.Spec.gOf i) (Cert.Spec.tOf i))
    (by
      rewrite [Shape.rowMajor_val_three, Shape.rowMajor_val_four]
      have h0 : (i 0).val < 64 := (i 0).isLt
      have h1 : (i 1).val < 256 := (i 1).isLt
      have h2 : (i 2).val < 56 := (i 2).isLt
      have h3 : (i 3).val < 56 := (i 3).isLt
      show (((i 0).val * 4 + (i 1).val / 64) * 64 + (i 1).val % 64) * 3136 + ((i 2).val * 56 + (i 3).val)
        = (((i 0).val * 256 + (i 1).val) * 56 + (i 2).val) * 56 + (i 3).val
      omega)

/-- THE KERNEL PROGRAM'S RESULT: at every position, the output with the mean folded into the bias. -/
theorem kernelVal (i : S64x256x56x56.Idx) :
    (W7 m ρ c (Proc.devRef .tc main_v116) : S64x256x56x56.Idx → EReal) i
      = Cert.Spec.outK (Cert.Spec.Xof (m ((c : Thread nD τ).loc main_arg0) : S64x256x56x56.Idx → EReal))
          (m ((c : Thread nD τ).loc main_arg1)) (m ((c : Thread nD τ).loc main_arg2))
          (Cert.Spec.gOf i) (Cert.Spec.bOf i) (Cert.Spec.tOf i) := by
  rw [W7_v116_apply]
  generalize Cert.Spec.gOf i = g
  generalize Cert.Spec.bOf i = b
  generalize Cert.Spec.tOf i = t
  have e6 : W6 m ρ c (Proc.devRef .tc main_v115) = (dat1 (V5 m ρ) c).arrAt 3 cfg1.N := W6_arr m ρ c 3
  have e112 : V5 m ρ c main_v112
      = Cert.Spec.Amat (m ((c : Thread nD τ).loc main_arg1))
          (Cert.Spec.covK (Cert.Spec.Xof (m ((c : Thread nD τ).loc main_arg0) : S64x256x56x56.Idx → EReal))) := by
    show (StableHlo.after hostOps1_2 (StableHlo.after hostOps1_1 (W3 m ρ c)) (Proc.devRef .tc main_v112) : FVec Ideal S64x64 .f32) = _
    rw [hostNS_v112, W3_arg1, W3_v19_eq]
    rfl
  have e0 : V5 m ρ c main_v0 = (W1 m ρ c (Proc.devRef .tc main_v0) : S256x64x3136.Idx → EReal) := by
    show StableHlo.after hostOps1_2 (StableHlo.after hostOps1_1 (W3 m ρ c)) (Proc.devRef .tc main_v0) = _
    rw [hostNS_keep _ main_v0 (by decide), W3_v0]
  have e114 : V5 m ρ c main_v114
      = subf (m ((c : Thread nD τ).loc main_arg2) : FVec Ideal S64x1 .f32)
          (Host.dotGeneral (φ₁ := .f32) (φ₂ := .f32) Cert.Spec.dotMC none
            (Cert.Spec.Amat (m ((c : Thread nD τ).loc main_arg1))
              (Cert.Spec.covK (Cert.Spec.Xof (m ((c : Thread nD τ).loc main_arg0) : S64x256x56x56.Idx → EReal))))
            (W3 m ρ c (Proc.devRef .tc main_v5) : FVec Ideal S64x1 .f32)) := by
    show (StableHlo.after hostOps1_2 (StableHlo.after hostOps1_1 (W3 m ρ c)) (Proc.devRef .tc main_v114) : FVec Ideal S64x1 .f32) = _
    rw [hostNS_v114, W3_arg1, W3_arg2, W3_v19_eq]
    rfl
  rw [e6, arrAt1_3_apply (V5 m ρ) c _ _ _ e112 e0 e114 b g t, subf_apply, dotMC_apply]
  unfold Cert.Spec.outK
  congr 1
  · refine Finset.sum_congr rfl fun k _ => ?_
    rw [W1_v0_apply]
  · refine congrArg _ (Finset.sum_congr rfl fun k _ => ?_)
    rw [W3_v5_apply]

end Cert.KernelIdeal.Fr

end
-- ==== Proof.Ref.HostNS.lean ====
/-
  The reference program's host stretch that computes the whitening matrix, as one function of what it reads.

  The stretch is 116 operations: the Frobenius norm of the covariance `a` (four operations), the start `a / ‖a‖`
  and the identity (nine), ten Newton–Schulz rounds of ten operations each, and the rescaling by `√‖a‖` (three).
  From ANY contents `V` of the buffers it leaves, at its last buffer, `Cert.Spec.decorr` of what `V` holds at the
  covariance's buffer, and it writes none of the buffers the rest of the program reads besides that one.

  Each round is read off on its own over an arbitrary valuation — its two results are `Cert.Spec.nsStep` of the
  identity's buffer and of the two buffers it reads — and the rounds are then chained through the iterate, so that
  no term ever holds more than one round.
-/
import proofs.«421103_j37855841747396_3_alg».proof.Proof.Gen.ReferenceIdeal
import proofs.«421103_j37855841747396_3_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lines in a row: the second line run from what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, after_cons, after_cons, ih]

/-! ## The operations, in the program's order -/

/-- The Frobenius norm of the covariance: square, sum, root. -/
def normOps : List (HloOp τ sig (Elt F)) :=
  [ TRef.binary (TRef.of (T := ⟨S64x64, .f32⟩) main_v21) (TRef.of (T := ⟨S64x64, .f32⟩) main_v21) (TRef.of (T := ⟨S64x64, .f32⟩) main_call0_v0) mulf,
    TRef.nullary (TRef.of (T := ⟨S_, .f32⟩) main_call0_cst) (constant S_ .f32 0x00000000#32),
    TRef.binary (TRef.of (T := ⟨S64x64, .f32⟩) main_call0_v0) (TRef.of (T := ⟨S_, .f32⟩) main_call0_cst) (TRef.of (T := ⟨S_, .f32⟩) main_call0_v1) (fun x v => Host.reduceAdd x v reducesTo_S64x64_S_d0_1 h_S_),
    TRef.unary (TRef.of (T := ⟨S_, .f32⟩) main_call0_v1) (TRef.of (T := ⟨S_, .f32⟩) main_v22) Host.sqrt ]

/-- The norm spread over the matrix, the start `a / ‖a‖`, and the identity (row index = column index). -/
def preOps : List (HloOp τ sig (Elt F)) :=
  [ unary main_v22 main_v23 (broadcastInDim S64x64 ![] bcast_S_S64x64 : (⟨S_, .f32⟩ : BufTy).Contents (Elt F) → (⟨S64x64, .f32⟩ : BufTy).Contents (Elt F)),
    binary main_v21 main_v23 main_v24 (Host.divf : (⟨S64x64, .f32⟩ : BufTy).Contents (Elt F) → (⟨S64x64, .f32⟩ : BufTy).Contents (Elt F) → (⟨S64x64, .f32⟩ : BufTy).Contents (Elt F)),
    nullary main_v25 (iotaInDim S64x64 32 0),
    nullary main_v26 (iotaInDim S64x64 32 1),
    nullary main_c_3 (constantI S_ 32 0#32),
    unary main_c_3 main_v27 (broadcastInDim S64x64 ![] bcast_S_S64x64 : (⟨S_, .i32⟩ : BufTy).Contents (Elt F) → (⟨S64x64, .i32⟩ : BufTy).Contents (Elt F)),
    binary main_v25 main_v27 main_v28 (addi : (⟨S64x64, .i32⟩ : BufTy).Contents (Elt F) → (⟨S64x64, .i32⟩ : BufTy).Contents (Elt F) → (⟨S64x64, .i32⟩ : BufTy).Contents (Elt F)),
    binary main_v28 main_v26 main_v29 (cmpi .eq : (⟨S64x64, .i32⟩ : BufTy).Contents (Elt F) → (⟨S64x64, .i32⟩ : BufTy).Contents (Elt F) → (⟨S64x64, .i1⟩ : BufTy).Contents (Elt F)),
    unary main_v29 main_v30 (uitofp .f32 : (⟨S64x64, .i1⟩ : BufTy).Contents (Elt F) → (⟨S64x64, .f32⟩ : BufTy).Contents (Elt F)) ]

/-- Newton–Schulz round 1: `T = ½ (3 I − Z Y)`, then `Y T` and `T Z`. -/
def r0 : List (HloOp τ sig (Elt F)) :=
  [ nullary main_cst_4 (constant S_ .f32 0x40400000#32),
    unary main_cst_4 main_v31 (broadcastInDim S64x64 ![] bcast_S_S64x64 : (⟨S_, .f32⟩ : BufTy).Contents (Elt F) → (⟨S64x64, .f32⟩ : BufTy).Contents (Elt F)),
    binary main_v31 main_v30 main_v32 (mulf : (⟨S64x64, .f32⟩ : BufTy).Contents (Elt F) → (⟨S64x64, .f32⟩ : BufTy).Contents (Elt F) → (⟨S64x64, .f32⟩ : BufTy).Contents (Elt F)),
    binary main_v30 main_v24 main_v33 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v32 main_v33 main_v34 (subf : (⟨S64x64, .f32⟩ : BufTy).Contents (Elt F) → (⟨S64x64, .f32⟩ : BufTy).Contents (Elt F) → (⟨S64x64, .f32⟩ : BufTy).Contents (Elt F)),
    nullary main_cst_5 (constant S_ .f32 0x3F000000#32),
    unary main_cst_5 main_v35 (broadcastInDim S64x64 ![] bcast_S_S64x64 : (⟨S_, .f32⟩ : BufTy).Contents (Elt F) → (⟨S64x64, .f32⟩ : BufTy).Contents (Elt F)),
    binary main_v35 main_v34 main_v36 (mulf : (⟨S64x64, .f32⟩ : BufTy).Contents (Elt F) → (⟨S64x64, .f32⟩ : BufTy).Contents (Elt F) → (⟨S64x64, .f32⟩ : BufTy).Contents (Elt F)),
    binary main_v24 main_v36 main_v37 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v36 main_v30 main_v38 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 2: `T = ½ (3 I − Z Y)`, then `Y T` and `T Z`. -/
def r1 : List (HloOp τ sig (Elt F)) :=
  [ nullary main_cst_6 (constant S_ .f32 0x40400000#32),
    unary main_cst_6 main_v39 (broadcastInDim S64x64 ![] bcast_S_S64x64 : (⟨S_, .f32⟩ : BufTy).Contents (Elt F) → (⟨S64x64, .f32⟩ : BufTy).Contents (Elt F)),
    binary main_v39 main_v30 main_v40 (mulf : (⟨S64x64, .f32⟩ : BufTy).Contents (Elt F) → (⟨S64x64, .f32⟩ : BufTy).Contents (Elt F) → (⟨S64x64, .f32⟩ : BufTy).Contents (Elt F)),
    binary main_v38 main_v37 main_v41 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v40 main_v41 main_v42 (subf : (⟨S64x64, .f32⟩ : BufTy).Contents (Elt F) → (⟨S64x64, .f32⟩ : BufTy).Contents (Elt F) → (⟨S64x64, .f32⟩ : BufTy).Contents (Elt F)),
    nullary main_cst_7 (constant S_ .f32 0x3F000000#32),
    unary main_cst_7 main_v43 (broadcastInDim S64x64 ![] bcast_S_S64x64 : (⟨S_, .f32⟩ : BufTy).Contents (Elt F) → (⟨S64x64, .f32⟩ : BufTy).Contents (Elt F)),
    binary main_v43 main_v42 main_v44 (mulf : (⟨S64x64, .f32⟩ : BufTy).Contents (Elt F) → (⟨S64x64, .f32⟩ : BufTy).Contents (Elt F) → (⟨S64x64, .f32⟩ : BufTy).Contents (Elt F)),
    binary main_v37 main_v44 main_v45 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v44 main_v38 main_v46 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 3: `T = ½ (3 I − Z Y)`, then `Y T` and `T Z`. -/
def r2 : List (HloOp τ sig (Elt F)) :=
  [ nullary main_cst_8 (constant S_ .f32 0x40400000#32),
    unary main_cst_8 main_v47 (broadcastInDim S64x64 ![] bcast_S_S64x64 : (⟨S_, .f32⟩ : BufTy).Contents (Elt F) → (⟨S64x64, .f32⟩ : BufTy).Contents (Elt F)),
    binary main_v47 main_v30 main_v48 (mulf : (⟨S64x64, .f32⟩ : BufTy).Contents (Elt F) → (⟨S64x64, .f32⟩ : BufTy).Contents (Elt F) → (⟨S64x64, .f32⟩ : BufTy).Contents (Elt F)),
    binary main_v46 main_v45 main_v49 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v48 main_v49 main_v50 (subf : (⟨S64x64, .f32⟩ : BufTy).Contents (Elt F) → (⟨S64x64, .f32⟩ : BufTy).Contents (Elt F) → (⟨S64x64, .f32⟩ : BufTy).Contents (Elt F)),
    nullary main_cst_9 (constant S_ .f32 0x3F000000#32),
    unary main_cst_9 main_v51 (broadcastInDim S64x64 ![] bcast_S_S64x64 : (⟨S_, .f32⟩ : BufTy).Contents (Elt F) → (⟨S64x64, .f32⟩ : BufTy).Contents (Elt F)),
    binary main_v51 main_v50 main_v52 (mulf : (⟨S64x64, .f32⟩ : BufTy).Contents (Elt F) → (⟨S64x64, .f32⟩ : BufTy).Contents (Elt F) → (⟨S64x64, .f32⟩ : BufTy).Contents (Elt F)),
    binary main_v45 main_v52 main_v53 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v52 main_v46 main_v54 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 4: `T = ½ (3 I − Z Y)`, then `Y T` and `T Z`. -/
def r3 : List (HloOp τ sig (Elt F)) :=
  [ nullary main_cst_10 (constant S_ .f32 0x40400000#32),
    unary main_cst_10 main_v55 (broadcastInDim S64x64 ![] bcast_S_S64x64 : (⟨S_, .f32⟩ : BufTy).Contents (Elt F) → (⟨S64x64, .f32⟩ : BufTy).Contents (Elt F)),
    binary main_v55 main_v30 main_v56 (mulf : (⟨S64x64, .f32⟩ : BufTy).Contents (Elt F) → (⟨S64x64, .f32⟩ : BufTy).Contents (Elt F) → (⟨S64x64, .f32⟩ : BufTy).Contents (Elt F)),
    binary main_v54 main_v53 main_v57 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v56 main_v57 main_v58 (subf : (⟨S64x64, .f32⟩ : BufTy).Contents (Elt F) → (⟨S64x64, .f32⟩ : BufTy).Contents (Elt F) → (⟨S64x64, .f32⟩ : BufTy).Contents (Elt F)),
    nullary main_cst_11 (constant S_ .f32 0x3F000000#32),
    unary main_cst_11 main_v59 (broadcastInDim S64x64 ![] bcast_S_S64x64 : (⟨S_, .f32⟩ : BufTy).Contents (Elt F) → (⟨S64x64, .f32⟩ : BufTy).Contents (Elt F)),
    binary main_v59 main_v58 main_v60 (mulf : (⟨S64x64, .f32⟩ : BufTy).Contents (Elt F) → (⟨S64x64, .f32⟩ : BufTy).Contents (Elt F) → (⟨S64x64, .f32⟩ : BufTy).Contents (Elt F)),
    binary main_v53 main_v60 main_v61 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v60 main_v54 main_v62 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 5: `T = ½ (3 I − Z Y)`, then `Y T` and `T Z`. -/
def r4 : List (HloOp τ sig (Elt F)) :=
  [ nullary main_cst_12 (constant S_ .f32 0x40400000#32),
    unary main_cst_12 main_v63 (broadcastInDim S64x64 ![] bcast_S_S64x64 : (⟨S_, .f32⟩ : BufTy).Contents (Elt F) → (⟨S64x64, .f32⟩ : BufTy).Contents (Elt F)),
    binary main_v63 main_v30 main_v64 (mulf : (⟨S64x64, .f32⟩ : BufTy).Contents (Elt F) → (⟨S64x64, .f32⟩ : BufTy).Contents (Elt F) → (⟨S64x64, .f32⟩ : BufTy).Contents (Elt F)),
    binary main_v62 main_v61 main_v65 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v64 main_v65 main_v66 (subf : (⟨S64x64, .f32⟩ : BufTy).Contents (Elt F) → (⟨S64x64, .f32⟩ : BufTy).Contents (Elt F) → (⟨S64x64, .f32⟩ : BufTy).Contents (Elt F)),
    nullary main_cst_13 (constant S_ .f32 0x3F000000#32),
    unary main_cst_13 main_v67 (broadcastInDim S64x64 ![] bcast_S_S64x64 : (⟨S_, .f32⟩ : BufTy).Contents (Elt F) → (⟨S64x64, .f32⟩ : BufTy).Contents (Elt F)),
    binary main_v67 main_v66 main_v68 (mulf : (⟨S64x64, .f32⟩ : BufTy).Contents (Elt F) → (⟨S64x64, .f32⟩ : BufTy).Contents (Elt F) → (⟨S64x64, .f32⟩ : BufTy).Contents (Elt F)),
    binary main_v61 main_v68 main_v69 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v68 main_v62 main_v70 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 6: `T = ½ (3 I − Z Y)`, then `Y T` and `T Z`. -/
def r5 : List (HloOp τ sig (Elt F)) :=
  [ nullary main_cst_14 (constant S_ .f32 0x40400000#32),
    unary main_cst_14 main_v71 (broadcastInDim S64x64 ![] bcast_S_S64x64 : (⟨S_, .f32⟩ : BufTy).Contents (Elt F) → (⟨S64x64, .f32⟩ : BufTy).Contents (Elt F)),
    binary main_v71 main_v30 main_v72 (mulf : (⟨S64x64, .f32⟩ : BufTy).Contents (Elt F) → (⟨S64x64, .f32⟩ : BufTy).Contents (Elt F) → (⟨S64x64, .f32⟩ : BufTy).Contents (Elt F)),
    binary main_v70 main_v69 main_v73 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v72 main_v73 main_v74 (subf : (⟨S64x64, .f32⟩ : BufTy).Contents (Elt F) → (⟨S64x64, .f32⟩ : BufTy).Contents (Elt F) → (⟨S64x64, .f32⟩ : BufTy).Contents (Elt F)),
    nullary main_cst_15 (constant S_ .f32 0x3F000000#32),
    unary main_cst_15 main_v75 (broadcastInDim S64x64 ![] bcast_S_S64x64 : (⟨S_, .f32⟩ : BufTy).Contents (Elt F) → (⟨S64x64, .f32⟩ : BufTy).Contents (Elt F)),
    binary main_v75 main_v74 main_v76 (mulf : (⟨S64x64, .f32⟩ : BufTy).Contents (Elt F) → (⟨S64x64, .f32⟩ : BufTy).Contents (Elt F) → (⟨S64x64, .f32⟩ : BufTy).Contents (Elt F)),
    binary main_v69 main_v76 main_v77 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v76 main_v70 main_v78 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 7: `T = ½ (3 I − Z Y)`, then `Y T` and `T Z`. -/
def r6 : List (HloOp τ sig (Elt F)) :=
  [ nullary main_cst_16 (constant S_ .f32 0x40400000#32),
    unary main_cst_16 main_v79 (broadcastInDim S64x64 ![] bcast_S_S64x64 : (⟨S_, .f32⟩ : BufTy).Contents (Elt F) → (⟨S64x64, .f32⟩ : BufTy).Contents (Elt F)),
    binary main_v79 main_v30 main_v80 (mulf : (⟨S64x64, .f32⟩ : BufTy).Contents (Elt F) → (⟨S64x64, .f32⟩ : BufTy).Contents (Elt F) → (⟨S64x64, .f32⟩ : BufTy).Contents (Elt F)),
    binary main_v78 main_v77 main_v81 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v80 main_v81 main_v82 (subf : (⟨S64x64, .f32⟩ : BufTy).Contents (Elt F) → (⟨S64x64, .f32⟩ : BufTy).Contents (Elt F) → (⟨S64x64, .f32⟩ : BufTy).Contents (Elt F)),
    nullary main_cst_17 (constant S_ .f32 0x3F000000#32),
    unary main_cst_17 main_v83 (broadcastInDim S64x64 ![] bcast_S_S64x64 : (⟨S_, .f32⟩ : BufTy).Contents (Elt F) → (⟨S64x64, .f32⟩ : BufTy).Contents (Elt F)),
    binary main_v83 main_v82 main_v84 (mulf : (⟨S64x64, .f32⟩ : BufTy).Contents (Elt F) → (⟨S64x64, .f32⟩ : BufTy).Contents (Elt F) → (⟨S64x64, .f32⟩ : BufTy).Contents (Elt F)),
    binary main_v77 main_v84 main_v85 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v84 main_v78 main_v86 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 8: `T = ½ (3 I − Z Y)`, then `Y T` and `T Z`. -/
def r7 : List (HloOp τ sig (Elt F)) :=
  [ nullary main_cst_18 (constant S_ .f32 0x40400000#32),
    unary main_cst_18 main_v87 (broadcastInDim S64x64 ![] bcast_S_S64x64 : (⟨S_, .f32⟩ : BufTy).Contents (Elt F) → (⟨S64x64, .f32⟩ : BufTy).Contents (Elt F)),
    binary main_v87 main_v30 main_v88 (mulf : (⟨S64x64, .f32⟩ : BufTy).Contents (Elt F) → (⟨S64x64, .f32⟩ : BufTy).Contents (Elt F) → (⟨S64x64, .f32⟩ : BufTy).Contents (Elt F)),
    binary main_v86 main_v85 main_v89 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v88 main_v89 main_v90 (subf : (⟨S64x64, .f32⟩ : BufTy).Contents (Elt F) → (⟨S64x64, .f32⟩ : BufTy).Contents (Elt F) → (⟨S64x64, .f32⟩ : BufTy).Contents (Elt F)),
    nullary main_cst_19 (constant S_ .f32 0x3F000000#32),
    unary main_cst_19 main_v91 (broadcastInDim S64x64 ![] bcast_S_S64x64 : (⟨S_, .f32⟩ : BufTy).Contents (Elt F) → (⟨S64x64, .f32⟩ : BufTy).Contents (Elt F)),
    binary main_v91 main_v90 main_v92 (mulf : (⟨S64x64, .f32⟩ : BufTy).Contents (Elt F) → (⟨S64x64, .f32⟩ : BufTy).Contents (Elt F) → (⟨S64x64, .f32⟩ : BufTy).Contents (Elt F)),
    binary main_v85 main_v92 main_v93 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v92 main_v86 main_v94 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 9: `T = ½ (3 I − Z Y)`, then `Y T` and `T Z`. -/
def r8 : List (HloOp τ sig (Elt F)) :=
  [ nullary main_cst_20 (constant S_ .f32 0x40400000#32),
    unary main_cst_20 main_v95 (broadcastInDim S64x64 ![] bcast_S_S64x64 : (⟨S_, .f32⟩ : BufTy).Contents (Elt F) → (⟨S64x64, .f32⟩ : BufTy).Contents (Elt F)),
    binary main_v95 main_v30 main_v96 (mulf : (⟨S64x64, .f32⟩ : BufTy).Contents (Elt F) → (⟨S64x64, .f32⟩ : BufTy).Contents (Elt F) → (⟨S64x64, .f32⟩ : BufTy).Contents (Elt F)),
    binary main_v94 main_v93 main_v97 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v96 main_v97 main_v98 (subf : (⟨S64x64, .f32⟩ : BufTy).Contents (Elt F) → (⟨S64x64, .f32⟩ : BufTy).Contents (Elt F) → (⟨S64x64, .f32⟩ : BufTy).Contents (Elt F)),
    nullary main_cst_21 (constant S_ .f32 0x3F000000#32),
    unary main_cst_21 main_v99 (broadcastInDim S64x64 ![] bcast_S_S64x64 : (⟨S_, .f32⟩ : BufTy).Contents (Elt F) → (⟨S64x64, .f32⟩ : BufTy).Contents (Elt F)),
    binary main_v99 main_v98 main_v100 (mulf : (⟨S64x64, .f32⟩ : BufTy).Contents (Elt F) → (⟨S64x64, .f32⟩ : BufTy).Contents (Elt F) → (⟨S64x64, .f32⟩ : BufTy).Contents (Elt F)),
    binary main_v93 main_v100 main_v101 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v100 main_v94 main_v102 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- Newton–Schulz round 10: `T = ½ (3 I − Z Y)`, then `Y T` and `T Z`. -/
def r9 : List (HloOp τ sig (Elt F)) :=
  [ nullary main_cst_22 (constant S_ .f32 0x40400000#32),
    unary main_cst_22 main_v103 (broadcastInDim S64x64 ![] bcast_S_S64x64 : (⟨S_, .f32⟩ : BufTy).Contents (Elt F) → (⟨S64x64, .f32⟩ : BufTy).Contents (Elt F)),
    binary main_v103 main_v30 main_v104 (mulf : (⟨S64x64, .f32⟩ : BufTy).Contents (Elt F) → (⟨S64x64, .f32⟩ : BufTy).Contents (Elt F) → (⟨S64x64, .f32⟩ : BufTy).Contents (Elt F)),
    binary main_v102 main_v101 main_v105 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v104 main_v105 main_v106 (subf : (⟨S64x64, .f32⟩ : BufTy).Contents (Elt F) → (⟨S64x64, .f32⟩ : BufTy).Contents (Elt F) → (⟨S64x64, .f32⟩ : BufTy).Contents (Elt F)),
    nullary main_cst_23 (constant S_ .f32 0x3F000000#32),
    unary main_cst_23 main_v107 (broadcastInDim S64x64 ![] bcast_S_S64x64 : (⟨S_, .f32⟩ : BufTy).Contents (Elt F) → (⟨S64x64, .f32⟩ : BufTy).Contents (Elt F)),
    binary main_v107 main_v106 main_v108 (mulf : (⟨S64x64, .f32⟩ : BufTy).Contents (Elt F) → (⟨S64x64, .f32⟩ : BufTy).Contents (Elt F) → (⟨S64x64, .f32⟩ : BufTy).Contents (Elt F)),
    binary main_v101 main_v108 main_v109 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v108 main_v102 main_v110 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- The root of the norm, spread, and the last `Z` divided by it. -/
def postOps : List (HloOp τ sig (Elt F)) :=
  [ unary main_v22 main_v111 (Host.sqrt : (⟨S_, .f32⟩ : BufTy).Contents (Elt F) → (⟨S_, .f32⟩ : BufTy).Contents (Elt F)),
    unary main_v111 main_v112 (broadcastInDim S64x64 ![] bcast_S_S64x64 : (⟨S_, .f32⟩ : BufTy).Contents (Elt F) → (⟨S64x64, .f32⟩ : BufTy).Contents (Elt F)),
    binary main_v110 main_v112 main_v113 (Host.divf : (⟨S64x64, .f32⟩ : BufTy).Contents (Elt F) → (⟨S64x64, .f32⟩ : BufTy).Contents (Elt F) → (⟨S64x64, .f32⟩ : BufTy).Contents (Elt F)) ]

/-- The whole stretch. -/
def nsOps : List (HloOp τ sig (Elt F)) :=
  normOps ++ preOps ++ r0 ++ r1 ++ r2 ++ r3 ++ r4 ++ r5 ++ r6 ++ r7 ++ r8 ++ r9 ++ postOps

/-! ## One round at a time, over arbitrary contents

Round `k` reads the identity's buffer and the two buffers of the pair before it, and its last two operations
write the pair after it: `Cert.Spec.nsStep` of what it found. It writes neither the identity's buffer nor the
norm's, nor any buffer the rest of the program reads. -/

/-- The buffers the stretch reads or the rest of the program reads, none of which a round writes. -/
abbrev roundKeeps : List (Ref sig .tc) := [main_v30, main_v22, main_arg0, main_arg1, main_arg2, main_v8, main_v6]

theorem r0_Y (V : Valuation τ sig (Elt F)) :
    (after r0 V (Proc.devRef .tc main_v37) : FVec F S64x64 .f32) = (Cert.Spec.nsStep (V (Proc.devRef .tc main_v30)) (V (Proc.devRef .tc main_v24), V (Proc.devRef .tc main_v30))).1 := by
  unfold r0
  after_results
  rfl
theorem r0_Z (V : Valuation τ sig (Elt F)) :
    (after r0 V (Proc.devRef .tc main_v38) : FVec F S64x64 .f32) = (Cert.Spec.nsStep (V (Proc.devRef .tc main_v30)) (V (Proc.devRef .tc main_v24), V (Proc.devRef .tc main_v30))).2 := by
  unfold r0
  after_results
  rfl
theorem r0_keep (V : Valuation τ sig (Elt F)) (b : Ref sig .tc) (hb : b ∈ roundKeeps) :
    after r0 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r0, List.Forall, nullary_writes, unary_writes, binary_writes, Finset.mem_singleton]
     repeat' apply And.intro
     all_goals exact devRef_ne_of_ne (by decide))

theorem r1_Y (V : Valuation τ sig (Elt F)) :
    (after r1 V (Proc.devRef .tc main_v45) : FVec F S64x64 .f32) = (Cert.Spec.nsStep (V (Proc.devRef .tc main_v30)) (V (Proc.devRef .tc main_v37), V (Proc.devRef .tc main_v38))).1 := by
  unfold r1
  after_results
  rfl
theorem r1_Z (V : Valuation τ sig (Elt F)) :
    (after r1 V (Proc.devRef .tc main_v46) : FVec F S64x64 .f32) = (Cert.Spec.nsStep (V (Proc.devRef .tc main_v30)) (V (Proc.devRef .tc main_v37), V (Proc.devRef .tc main_v38))).2 := by
  unfold r1
  after_results
  rfl
theorem r1_keep (V : Valuation τ sig (Elt F)) (b : Ref sig .tc) (hb : b ∈ roundKeeps) :
    after r1 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r1, List.Forall, nullary_writes, unary_writes, binary_writes, Finset.mem_singleton]
     repeat' apply And.intro
     all_goals exact devRef_ne_of_ne (by decide))

theorem r2_Y (V : Valuation τ sig (Elt F)) :
    (after r2 V (Proc.devRef .tc main_v53) : FVec F S64x64 .f32) = (Cert.Spec.nsStep (V (Proc.devRef .tc main_v30)) (V (Proc.devRef .tc main_v45), V (Proc.devRef .tc main_v46))).1 := by
  unfold r2
  after_results
  rfl
theorem r2_Z (V : Valuation τ sig (Elt F)) :
    (after r2 V (Proc.devRef .tc main_v54) : FVec F S64x64 .f32) = (Cert.Spec.nsStep (V (Proc.devRef .tc main_v30)) (V (Proc.devRef .tc main_v45), V (Proc.devRef .tc main_v46))).2 := by
  unfold r2
  after_results
  rfl
theorem r2_keep (V : Valuation τ sig (Elt F)) (b : Ref sig .tc) (hb : b ∈ roundKeeps) :
    after r2 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r2, List.Forall, nullary_writes, unary_writes, binary_writes, Finset.mem_singleton]
     repeat' apply And.intro
     all_goals exact devRef_ne_of_ne (by decide))

theorem r3_Y (V : Valuation τ sig (Elt F)) :
    (after r3 V (Proc.devRef .tc main_v61) : FVec F S64x64 .f32) = (Cert.Spec.nsStep (V (Proc.devRef .tc main_v30)) (V (Proc.devRef .tc main_v53), V (Proc.devRef .tc main_v54))).1 := by
  unfold r3
  after_results
  rfl
theorem r3_Z (V : Valuation τ sig (Elt F)) :
    (after r3 V (Proc.devRef .tc main_v62) : FVec F S64x64 .f32) = (Cert.Spec.nsStep (V (Proc.devRef .tc main_v30)) (V (Proc.devRef .tc main_v53), V (Proc.devRef .tc main_v54))).2 := by
  unfold r3
  after_results
  rfl
theorem r3_keep (V : Valuation τ sig (Elt F)) (b : Ref sig .tc) (hb : b ∈ roundKeeps) :
    after r3 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r3, List.Forall, nullary_writes, unary_writes, binary_writes, Finset.mem_singleton]
     repeat' apply And.intro
     all_goals exact devRef_ne_of_ne (by decide))

theorem r4_Y (V : Valuation τ sig (Elt F)) :
    (after r4 V (Proc.devRef .tc main_v69) : FVec F S64x64 .f32) = (Cert.Spec.nsStep (V (Proc.devRef .tc main_v30)) (V (Proc.devRef .tc main_v61), V (Proc.devRef .tc main_v62))).1 := by
  unfold r4
  after_results
  rfl
theorem r4_Z (V : Valuation τ sig (Elt F)) :
    (after r4 V (Proc.devRef .tc main_v70) : FVec F S64x64 .f32) = (Cert.Spec.nsStep (V (Proc.devRef .tc main_v30)) (V (Proc.devRef .tc main_v61), V (Proc.devRef .tc main_v62))).2 := by
  unfold r4
  after_results
  rfl
theorem r4_keep (V : Valuation τ sig (Elt F)) (b : Ref sig .tc) (hb : b ∈ roundKeeps) :
    after r4 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r4, List.Forall, nullary_writes, unary_writes, binary_writes, Finset.mem_singleton]
     repeat' apply And.intro
     all_goals exact devRef_ne_of_ne (by decide))

theorem r5_Y (V : Valuation τ sig (Elt F)) :
    (after r5 V (Proc.devRef .tc main_v77) : FVec F S64x64 .f32) = (Cert.Spec.nsStep (V (Proc.devRef .tc main_v30)) (V (Proc.devRef .tc main_v69), V (Proc.devRef .tc main_v70))).1 := by
  unfold r5
  after_results
  rfl
theorem r5_Z (V : Valuation τ sig (Elt F)) :
    (after r5 V (Proc.devRef .tc main_v78) : FVec F S64x64 .f32) = (Cert.Spec.nsStep (V (Proc.devRef .tc main_v30)) (V (Proc.devRef .tc main_v69), V (Proc.devRef .tc main_v70))).2 := by
  unfold r5
  after_results
  rfl
theorem r5_keep (V : Valuation τ sig (Elt F)) (b : Ref sig .tc) (hb : b ∈ roundKeeps) :
    after r5 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r5, List.Forall, nullary_writes, unary_writes, binary_writes, Finset.mem_singleton]
     repeat' apply And.intro
     all_goals exact devRef_ne_of_ne (by decide))

theorem r6_Y (V : Valuation τ sig (Elt F)) :
    (after r6 V (Proc.devRef .tc main_v85) : FVec F S64x64 .f32) = (Cert.Spec.nsStep (V (Proc.devRef .tc main_v30)) (V (Proc.devRef .tc main_v77), V (Proc.devRef .tc main_v78))).1 := by
  unfold r6
  after_results
  rfl
theorem r6_Z (V : Valuation τ sig (Elt F)) :
    (after r6 V (Proc.devRef .tc main_v86) : FVec F S64x64 .f32) = (Cert.Spec.nsStep (V (Proc.devRef .tc main_v30)) (V (Proc.devRef .tc main_v77), V (Proc.devRef .tc main_v78))).2 := by
  unfold r6
  after_results
  rfl
theorem r6_keep (V : Valuation τ sig (Elt F)) (b : Ref sig .tc) (hb : b ∈ roundKeeps) :
    after r6 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r6, List.Forall, nullary_writes, unary_writes, binary_writes, Finset.mem_singleton]
     repeat' apply And.intro
     all_goals exact devRef_ne_of_ne (by decide))

theorem r7_Y (V : Valuation τ sig (Elt F)) :
    (after r7 V (Proc.devRef .tc main_v93) : FVec F S64x64 .f32) = (Cert.Spec.nsStep (V (Proc.devRef .tc main_v30)) (V (Proc.devRef .tc main_v85), V (Proc.devRef .tc main_v86))).1 := by
  unfold r7
  after_results
  rfl
theorem r7_Z (V : Valuation τ sig (Elt F)) :
    (after r7 V (Proc.devRef .tc main_v94) : FVec F S64x64 .f32) = (Cert.Spec.nsStep (V (Proc.devRef .tc main_v30)) (V (Proc.devRef .tc main_v85), V (Proc.devRef .tc main_v86))).2 := by
  unfold r7
  after_results
  rfl
theorem r7_keep (V : Valuation τ sig (Elt F)) (b : Ref sig .tc) (hb : b ∈ roundKeeps) :
    after r7 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r7, List.Forall, nullary_writes, unary_writes, binary_writes, Finset.mem_singleton]
     repeat' apply And.intro
     all_goals exact devRef_ne_of_ne (by decide))

theorem r8_Y (V : Valuation τ sig (Elt F)) :
    (after r8 V (Proc.devRef .tc main_v101) : FVec F S64x64 .f32) = (Cert.Spec.nsStep (V (Proc.devRef .tc main_v30)) (V (Proc.devRef .tc main_v93), V (Proc.devRef .tc main_v94))).1 := by
  unfold r8
  after_results
  rfl
theorem r8_Z (V : Valuation τ sig (Elt F)) :
    (after r8 V (Proc.devRef .tc main_v102) : FVec F S64x64 .f32) = (Cert.Spec.nsStep (V (Proc.devRef .tc main_v30)) (V (Proc.devRef .tc main_v93), V (Proc.devRef .tc main_v94))).2 := by
  unfold r8
  after_results
  rfl
theorem r8_keep (V : Valuation τ sig (Elt F)) (b : Ref sig .tc) (hb : b ∈ roundKeeps) :
    after r8 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r8, List.Forall, nullary_writes, unary_writes, binary_writes, Finset.mem_singleton]
     repeat' apply And.intro
     all_goals exact devRef_ne_of_ne (by decide))

theorem r9_Y (V : Valuation τ sig (Elt F)) :
    (after r9 V (Proc.devRef .tc main_v109) : FVec F S64x64 .f32) = (Cert.Spec.nsStep (V (Proc.devRef .tc main_v30)) (V (Proc.devRef .tc main_v101), V (Proc.devRef .tc main_v102))).1 := by
  unfold r9
  after_results
  rfl
theorem r9_Z (V : Valuation τ sig (Elt F)) :
    (after r9 V (Proc.devRef .tc main_v110) : FVec F S64x64 .f32) = (Cert.Spec.nsStep (V (Proc.devRef .tc main_v30)) (V (Proc.devRef .tc main_v101), V (Proc.devRef .tc main_v102))).2 := by
  unfold r9
  after_results
  rfl
theorem r9_keep (V : Valuation τ sig (Elt F)) (b : Ref sig .tc) (hb : b ∈ roundKeeps) :
    after r9 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl | rfl | rfl <;>
    (simp only [r9, List.Forall, nullary_writes, unary_writes, binary_writes, Finset.mem_singleton]
     repeat' apply And.intro
     all_goals exact devRef_ne_of_ne (by decide))

/-! ## The stretch up to each round

`upTo k` is the stretch up to round `k`'s start. After it the identity's buffer holds `Cert.Spec.eye`, the norm's
buffer `Cert.Spec.nrm a`, and the pair's buffers the `k`-th iterate of the round from `(a / ‖a‖, I)`, where `a` is
what the covariance's buffer held at the start. -/

/-- The stretch before the first round. -/
def upTo0 : List (HloOp τ sig (Elt F)) := normOps ++ preOps
/-- The stretch through round 1. -/
def upTo1 : List (HloOp τ sig (Elt F)) := upTo0 ++ r0
/-- The stretch through round 2. -/
def upTo2 : List (HloOp τ sig (Elt F)) := upTo1 ++ r1
/-- The stretch through round 3. -/
def upTo3 : List (HloOp τ sig (Elt F)) := upTo2 ++ r2
/-- The stretch through round 4. -/
def upTo4 : List (HloOp τ sig (Elt F)) := upTo3 ++ r3
/-- The stretch through round 5. -/
def upTo5 : List (HloOp τ sig (Elt F)) := upTo4 ++ r4
/-- The stretch through round 6. -/
def upTo6 : List (HloOp τ sig (Elt F)) := upTo5 ++ r5
/-- The stretch through round 7. -/
def upTo7 : List (HloOp τ sig (Elt F)) := upTo6 ++ r6
/-- The stretch through round 8. -/
def upTo8 : List (HloOp τ sig (Elt F)) := upTo7 ++ r7
/-- The stretch through round 9. -/
def upTo9 : List (HloOp τ sig (Elt F)) := upTo8 ++ r8
/-- The stretch through round 10. -/
def upTo10 : List (HloOp τ sig (Elt F)) := upTo9 ++ r9

theorem nsOps_eq : (nsOps : List (HloOp τ sig (Elt F))) = upTo10 ++ postOps := rfl

/-- The covariance the stretch starts from. -/
abbrev cov (V : Valuation τ sig (Elt F)) : FVec F S64x64 .f32 := V (Proc.devRef .tc main_v21)
/-- The pair the rounds start from: `(a / ‖a‖, I)`. -/
abbrev start (V : Valuation τ sig (Elt F)) : FVec F S64x64 .f32 × FVec F S64x64 .f32 :=
  (Host.divf (cov V) (Cert.Spec.bcM (Cert.Spec.nrm (cov V))), Cert.Spec.eye)

theorem upTo0_I (V : Valuation τ sig (Elt F)) :
    (after upTo0 V (Proc.devRef .tc main_v30) : FVec F S64x64 .f32) = Cert.Spec.eye := by
  unfold upTo0 normOps preOps
  simp only [List.cons_append, List.nil_append]
  after_results
  rfl
theorem upTo0_n (V : Valuation τ sig (Elt F)) :
    (after upTo0 V (Proc.devRef .tc main_v22) : FVec F S_ .f32) = Cert.Spec.nrm (cov V) := by
  unfold upTo0 normOps preOps
  simp only [List.cons_append, List.nil_append]
  after_results
  try simp only [TRef.ofBuf, TRef.toBuf, cast_eq]
  rfl
theorem upTo0_Y (V : Valuation τ sig (Elt F)) :
    (after upTo0 V (Proc.devRef .tc main_v24) : FVec F S64x64 .f32) = (start V).1 := by
  unfold upTo0 normOps preOps
  simp only [List.cons_append, List.nil_append]
  after_results
  try simp only [TRef.ofBuf, TRef.toBuf, cast_eq]
  rfl

theorem upTo0_p (V : Valuation τ sig (Elt F)) :
    ((after upTo0 V (Proc.devRef .tc main_v24), after upTo0 V (Proc.devRef .tc main_v30)) : FVec F S64x64 .f32 × FVec F S64x64 .f32)
      = (Cert.Spec.nsStep Cert.Spec.eye)^[0] (start V) :=
  Prod.ext (upTo0_Y V) (upTo0_I V)
/-- The buffers the rest of the program reads: the arguments, the centred data, the mean. -/
abbrev restKeeps : List (Ref sig .tc) := [main_arg0, main_arg1, main_arg2, main_v8, main_v6]
theorem upTo0_keep (V : Valuation τ sig (Elt F)) (b : Ref sig .tc) (hb : b ∈ restKeeps) :
    after upTo0 V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl <;>
    (simp only [upTo0, normOps, preOps, List.cons_append, List.nil_append, List.Forall, nullary_writes, unary_writes, binary_writes, Finset.mem_singleton]
     repeat' apply And.intro
     all_goals exact devRef_ne_of_ne (by decide))

theorem upTo1_I (V : Valuation τ sig (Elt F)) :
    (after upTo1 V (Proc.devRef .tc main_v30) : FVec F S64x64 .f32) = Cert.Spec.eye := by
  rw [upTo1, after_append, r0_keep _ main_v30 (by decide)]; exact upTo0_I V
theorem upTo1_n (V : Valuation τ sig (Elt F)) :
    (after upTo1 V (Proc.devRef .tc main_v22) : FVec F S_ .f32) = Cert.Spec.nrm (cov V) := by
  rw [upTo1, after_append, r0_keep _ main_v22 (by decide)]; exact upTo0_n V
theorem upTo1_p (V : Valuation τ sig (Elt F)) :
    ((after upTo1 V (Proc.devRef .tc main_v37), after upTo1 V (Proc.devRef .tc main_v38)) : FVec F S64x64 .f32 × FVec F S64x64 .f32)
      = (Cert.Spec.nsStep Cert.Spec.eye)^[1] (start V) := by
  rw [upTo1, after_append, Function.iterate_succ_apply' (Cert.Spec.nsStep Cert.Spec.eye) 0 (start V), ← upTo0_p V, ← upTo0_I V]
  exact Prod.ext (r0_Y (after upTo0 V)) (r0_Z (after upTo0 V))
theorem upTo1_keep (V : Valuation τ sig (Elt F)) (b : Ref sig .tc) (hb : b ∈ restKeeps) :
    after upTo1 V (Proc.devRef .tc b) = V (Proc.devRef .tc b) := by
  rw [upTo1, after_append, r0_keep _ b (List.mem_cons_of_mem _ (List.mem_cons_of_mem _ hb))]; exact upTo0_keep V b hb

theorem upTo2_I (V : Valuation τ sig (Elt F)) :
    (after upTo2 V (Proc.devRef .tc main_v30) : FVec F S64x64 .f32) = Cert.Spec.eye := by
  rw [upTo2, after_append, r1_keep _ main_v30 (by decide)]; exact upTo1_I V
theorem upTo2_n (V : Valuation τ sig (Elt F)) :
    (after upTo2 V (Proc.devRef .tc main_v22) : FVec F S_ .f32) = Cert.Spec.nrm (cov V) := by
  rw [upTo2, after_append, r1_keep _ main_v22 (by decide)]; exact upTo1_n V
theorem upTo2_p (V : Valuation τ sig (Elt F)) :
    ((after upTo2 V (Proc.devRef .tc main_v45), after upTo2 V (Proc.devRef .tc main_v46)) : FVec F S64x64 .f32 × FVec F S64x64 .f32)
      = (Cert.Spec.nsStep Cert.Spec.eye)^[2] (start V) := by
  rw [upTo2, after_append, Function.iterate_succ_apply' (Cert.Spec.nsStep Cert.Spec.eye) 1 (start V), ← upTo1_p V, ← upTo1_I V]
  exact Prod.ext (r1_Y (after upTo1 V)) (r1_Z (after upTo1 V))
theorem upTo2_keep (V : Valuation τ sig (Elt F)) (b : Ref sig .tc) (hb : b ∈ restKeeps) :
    after upTo2 V (Proc.devRef .tc b) = V (Proc.devRef .tc b) := by
  rw [upTo2, after_append, r1_keep _ b (List.mem_cons_of_mem _ (List.mem_cons_of_mem _ hb))]; exact upTo1_keep V b hb

theorem upTo3_I (V : Valuation τ sig (Elt F)) :
    (after upTo3 V (Proc.devRef .tc main_v30) : FVec F S64x64 .f32) = Cert.Spec.eye := by
  rw [upTo3, after_append, r2_keep _ main_v30 (by decide)]; exact upTo2_I V
theorem upTo3_n (V : Valuation τ sig (Elt F)) :
    (after upTo3 V (Proc.devRef .tc main_v22) : FVec F S_ .f32) = Cert.Spec.nrm (cov V) := by
  rw [upTo3, after_append, r2_keep _ main_v22 (by decide)]; exact upTo2_n V
theorem upTo3_p (V : Valuation τ sig (Elt F)) :
    ((after upTo3 V (Proc.devRef .tc main_v53), after upTo3 V (Proc.devRef .tc main_v54)) : FVec F S64x64 .f32 × FVec F S64x64 .f32)
      = (Cert.Spec.nsStep Cert.Spec.eye)^[3] (start V) := by
  rw [upTo3, after_append, Function.iterate_succ_apply' (Cert.Spec.nsStep Cert.Spec.eye) 2 (start V), ← upTo2_p V, ← upTo2_I V]
  exact Prod.ext (r2_Y (after upTo2 V)) (r2_Z (after upTo2 V))
theorem upTo3_keep (V : Valuation τ sig (Elt F)) (b : Ref sig .tc) (hb : b ∈ restKeeps) :
    after upTo3 V (Proc.devRef .tc b) = V (Proc.devRef .tc b) := by
  rw [upTo3, after_append, r2_keep _ b (List.mem_cons_of_mem _ (List.mem_cons_of_mem _ hb))]; exact upTo2_keep V b hb

theorem upTo4_I (V : Valuation τ sig (Elt F)) :
    (after upTo4 V (Proc.devRef .tc main_v30) : FVec F S64x64 .f32) = Cert.Spec.eye := by
  rw [upTo4, after_append, r3_keep _ main_v30 (by decide)]; exact upTo3_I V
theorem upTo4_n (V : Valuation τ sig (Elt F)) :
    (after upTo4 V (Proc.devRef .tc main_v22) : FVec F S_ .f32) = Cert.Spec.nrm (cov V) := by
  rw [upTo4, after_append, r3_keep _ main_v22 (by decide)]; exact upTo3_n V
theorem upTo4_p (V : Valuation τ sig (Elt F)) :
    ((after upTo4 V (Proc.devRef .tc main_v61), after upTo4 V (Proc.devRef .tc main_v62)) : FVec F S64x64 .f32 × FVec F S64x64 .f32)
      = (Cert.Spec.nsStep Cert.Spec.eye)^[4] (start V) := by
  rw [upTo4, after_append, Function.iterate_succ_apply' (Cert.Spec.nsStep Cert.Spec.eye) 3 (start V), ← upTo3_p V, ← upTo3_I V]
  exact Prod.ext (r3_Y (after upTo3 V)) (r3_Z (after upTo3 V))
theorem upTo4_keep (V : Valuation τ sig (Elt F)) (b : Ref sig .tc) (hb : b ∈ restKeeps) :
    after upTo4 V (Proc.devRef .tc b) = V (Proc.devRef .tc b) := by
  rw [upTo4, after_append, r3_keep _ b (List.mem_cons_of_mem _ (List.mem_cons_of_mem _ hb))]; exact upTo3_keep V b hb

theorem upTo5_I (V : Valuation τ sig (Elt F)) :
    (after upTo5 V (Proc.devRef .tc main_v30) : FVec F S64x64 .f32) = Cert.Spec.eye := by
  rw [upTo5, after_append, r4_keep _ main_v30 (by decide)]; exact upTo4_I V
theorem upTo5_n (V : Valuation τ sig (Elt F)) :
    (after upTo5 V (Proc.devRef .tc main_v22) : FVec F S_ .f32) = Cert.Spec.nrm (cov V) := by
  rw [upTo5, after_append, r4_keep _ main_v22 (by decide)]; exact upTo4_n V
theorem upTo5_p (V : Valuation τ sig (Elt F)) :
    ((after upTo5 V (Proc.devRef .tc main_v69), after upTo5 V (Proc.devRef .tc main_v70)) : FVec F S64x64 .f32 × FVec F S64x64 .f32)
      = (Cert.Spec.nsStep Cert.Spec.eye)^[5] (start V) := by
  rw [upTo5, after_append, Function.iterate_succ_apply' (Cert.Spec.nsStep Cert.Spec.eye) 4 (start V), ← upTo4_p V, ← upTo4_I V]
  exact Prod.ext (r4_Y (after upTo4 V)) (r4_Z (after upTo4 V))
theorem upTo5_keep (V : Valuation τ sig (Elt F)) (b : Ref sig .tc) (hb : b ∈ restKeeps) :
    after upTo5 V (Proc.devRef .tc b) = V (Proc.devRef .tc b) := by
  rw [upTo5, after_append, r4_keep _ b (List.mem_cons_of_mem _ (List.mem_cons_of_mem _ hb))]; exact upTo4_keep V b hb

theorem upTo6_I (V : Valuation τ sig (Elt F)) :
    (after upTo6 V (Proc.devRef .tc main_v30) : FVec F S64x64 .f32) = Cert.Spec.eye := by
  rw [upTo6, after_append, r5_keep _ main_v30 (by decide)]; exact upTo5_I V
theorem upTo6_n (V : Valuation τ sig (Elt F)) :
    (after upTo6 V (Proc.devRef .tc main_v22) : FVec F S_ .f32) = Cert.Spec.nrm (cov V) := by
  rw [upTo6, after_append, r5_keep _ main_v22 (by decide)]; exact upTo5_n V
theorem upTo6_p (V : Valuation τ sig (Elt F)) :
    ((after upTo6 V (Proc.devRef .tc main_v77), after upTo6 V (Proc.devRef .tc main_v78)) : FVec F S64x64 .f32 × FVec F S64x64 .f32)
      = (Cert.Spec.nsStep Cert.Spec.eye)^[6] (start V) := by
  rw [upTo6, after_append, Function.iterate_succ_apply' (Cert.Spec.nsStep Cert.Spec.eye) 5 (start V), ← upTo5_p V, ← upTo5_I V]
  exact Prod.ext (r5_Y (after upTo5 V)) (r5_Z (after upTo5 V))
theorem upTo6_keep (V : Valuation τ sig (Elt F)) (b : Ref sig .tc) (hb : b ∈ restKeeps) :
    after upTo6 V (Proc.devRef .tc b) = V (Proc.devRef .tc b) := by
  rw [upTo6, after_append, r5_keep _ b (List.mem_cons_of_mem _ (List.mem_cons_of_mem _ hb))]; exact upTo5_keep V b hb

theorem upTo7_I (V : Valuation τ sig (Elt F)) :
    (after upTo7 V (Proc.devRef .tc main_v30) : FVec F S64x64 .f32) = Cert.Spec.eye := by
  rw [upTo7, after_append, r6_keep _ main_v30 (by decide)]; exact upTo6_I V
theorem upTo7_n (V : Valuation τ sig (Elt F)) :
    (after upTo7 V (Proc.devRef .tc main_v22) : FVec F S_ .f32) = Cert.Spec.nrm (cov V) := by
  rw [upTo7, after_append, r6_keep _ main_v22 (by decide)]; exact upTo6_n V
theorem upTo7_p (V : Valuation τ sig (Elt F)) :
    ((after upTo7 V (Proc.devRef .tc main_v85), after upTo7 V (Proc.devRef .tc main_v86)) : FVec F S64x64 .f32 × FVec F S64x64 .f32)
      = (Cert.Spec.nsStep Cert.Spec.eye)^[7] (start V) := by
  rw [upTo7, after_append, Function.iterate_succ_apply' (Cert.Spec.nsStep Cert.Spec.eye) 6 (start V), ← upTo6_p V, ← upTo6_I V]
  exact Prod.ext (r6_Y (after upTo6 V)) (r6_Z (after upTo6 V))
theorem upTo7_keep (V : Valuation τ sig (Elt F)) (b : Ref sig .tc) (hb : b ∈ restKeeps) :
    after upTo7 V (Proc.devRef .tc b) = V (Proc.devRef .tc b) := by
  rw [upTo7, after_append, r6_keep _ b (List.mem_cons_of_mem _ (List.mem_cons_of_mem _ hb))]; exact upTo6_keep V b hb

theorem upTo8_I (V : Valuation τ sig (Elt F)) :
    (after upTo8 V (Proc.devRef .tc main_v30) : FVec F S64x64 .f32) = Cert.Spec.eye := by
  rw [upTo8, after_append, r7_keep _ main_v30 (by decide)]; exact upTo7_I V
theorem upTo8_n (V : Valuation τ sig (Elt F)) :
    (after upTo8 V (Proc.devRef .tc main_v22) : FVec F S_ .f32) = Cert.Spec.nrm (cov V) := by
  rw [upTo8, after_append, r7_keep _ main_v22 (by decide)]; exact upTo7_n V
theorem upTo8_p (V : Valuation τ sig (Elt F)) :
    ((after upTo8 V (Proc.devRef .tc main_v93), after upTo8 V (Proc.devRef .tc main_v94)) : FVec F S64x64 .f32 × FVec F S64x64 .f32)
      = (Cert.Spec.nsStep Cert.Spec.eye)^[8] (start V) := by
  rw [upTo8, after_append, Function.iterate_succ_apply' (Cert.Spec.nsStep Cert.Spec.eye) 7 (start V), ← upTo7_p V, ← upTo7_I V]
  exact Prod.ext (r7_Y (after upTo7 V)) (r7_Z (after upTo7 V))
theorem upTo8_keep (V : Valuation τ sig (Elt F)) (b : Ref sig .tc) (hb : b ∈ restKeeps) :
    after upTo8 V (Proc.devRef .tc b) = V (Proc.devRef .tc b) := by
  rw [upTo8, after_append, r7_keep _ b (List.mem_cons_of_mem _ (List.mem_cons_of_mem _ hb))]; exact upTo7_keep V b hb

theorem upTo9_I (V : Valuation τ sig (Elt F)) :
    (after upTo9 V (Proc.devRef .tc main_v30) : FVec F S64x64 .f32) = Cert.Spec.eye := by
  rw [upTo9, after_append, r8_keep _ main_v30 (by decide)]; exact upTo8_I V
theorem upTo9_n (V : Valuation τ sig (Elt F)) :
    (after upTo9 V (Proc.devRef .tc main_v22) : FVec F S_ .f32) = Cert.Spec.nrm (cov V) := by
  rw [upTo9, after_append, r8_keep _ main_v22 (by decide)]; exact upTo8_n V
theorem upTo9_p (V : Valuation τ sig (Elt F)) :
    ((after upTo9 V (Proc.devRef .tc main_v101), after upTo9 V (Proc.devRef .tc main_v102)) : FVec F S64x64 .f32 × FVec F S64x64 .f32)
      = (Cert.Spec.nsStep Cert.Spec.eye)^[9] (start V) := by
  rw [upTo9, after_append, Function.iterate_succ_apply' (Cert.Spec.nsStep Cert.Spec.eye) 8 (start V), ← upTo8_p V, ← upTo8_I V]
  exact Prod.ext (r8_Y (after upTo8 V)) (r8_Z (after upTo8 V))
theorem upTo9_keep (V : Valuation τ sig (Elt F)) (b : Ref sig .tc) (hb : b ∈ restKeeps) :
    after upTo9 V (Proc.devRef .tc b) = V (Proc.devRef .tc b) := by
  rw [upTo9, after_append, r8_keep _ b (List.mem_cons_of_mem _ (List.mem_cons_of_mem _ hb))]; exact upTo8_keep V b hb

theorem upTo10_I (V : Valuation τ sig (Elt F)) :
    (after upTo10 V (Proc.devRef .tc main_v30) : FVec F S64x64 .f32) = Cert.Spec.eye := by
  rw [upTo10, after_append, r9_keep _ main_v30 (by decide)]; exact upTo9_I V
theorem upTo10_n (V : Valuation τ sig (Elt F)) :
    (after upTo10 V (Proc.devRef .tc main_v22) : FVec F S_ .f32) = Cert.Spec.nrm (cov V) := by
  rw [upTo10, after_append, r9_keep _ main_v22 (by decide)]; exact upTo9_n V
theorem upTo10_p (V : Valuation τ sig (Elt F)) :
    ((after upTo10 V (Proc.devRef .tc main_v109), after upTo10 V (Proc.devRef .tc main_v110)) : FVec F S64x64 .f32 × FVec F S64x64 .f32)
      = (Cert.Spec.nsStep Cert.Spec.eye)^[10] (start V) := by
  rw [upTo10, after_append, Function.iterate_succ_apply' (Cert.Spec.nsStep Cert.Spec.eye) 9 (start V), ← upTo9_p V, ← upTo9_I V]
  exact Prod.ext (r9_Y (after upTo9 V)) (r9_Z (after upTo9 V))
theorem upTo10_keep (V : Valuation τ sig (Elt F)) (b : Ref sig .tc) (hb : b ∈ restKeeps) :
    after upTo10 V (Proc.devRef .tc b) = V (Proc.devRef .tc b) := by
  rw [upTo10, after_append, r9_keep _ b (List.mem_cons_of_mem _ (List.mem_cons_of_mem _ hb))]; exact upTo9_keep V b hb

/-! ## The whole stretch -/

/-- The closing three operations divide the last round's second buffer by the spread root of the norm's buffer. -/
theorem postOps_v113 (V : Valuation τ sig (Elt F)) :
    (after postOps V (Proc.devRef .tc main_v113) : FVec F S64x64 .f32)
      = Host.divf (V (Proc.devRef .tc main_v110)) (Cert.Spec.bcM (Host.sqrt (V (Proc.devRef .tc main_v22)))) := by
  unfold postOps
  after_results
  rfl
theorem postOps_keep (V : Valuation τ sig (Elt F)) (b : Ref sig .tc) (hb : b ∈ restKeeps) :
    after postOps V (Proc.devRef .tc b) = V (Proc.devRef .tc b) := by
  refine after_of_forall_not_mem (b := (Proc.devRef .tc b)) _ _ (List.forall_iff_forall_mem.mp ?_)
  simp only [List.mem_cons, List.not_mem_nil, or_false] at hb
  rcases hb with rfl | rfl | rfl | rfl | rfl <;>
    (simp only [postOps, List.Forall, nullary_writes, unary_writes, binary_writes, Finset.mem_singleton]
     repeat' apply And.intro
     all_goals exact devRef_ne_of_ne (by decide))

/-- The stretch leaves the inverse square root of the covariance it found. -/
theorem nsOps_v113 (V : Valuation τ sig (Elt F)) :
    (StableHlo.after nsOps V (Proc.devRef .tc main_v113) : FVec F S64x64 .f32) = Cert.Spec.decorr (V (Proc.devRef .tc main_v21)) := by
  rw [nsOps_eq, after_append, postOps_v113, upTo10_n V]
  have hZ : (after upTo10 V (Proc.devRef .tc main_v110) : FVec F S64x64 .f32)
      = ((Cert.Spec.nsStep Cert.Spec.eye)^[10] (start V)).2 := congrArg Prod.snd (upTo10_p V)
  rw [hZ]
  rfl

/-- The stretch writes none of the program's arguments, nor the centred data, nor the mean. -/
theorem nsOps_keep (V : Valuation τ sig (Elt F)) (b : Ref sig .tc) (hb : b ∈ [main_arg0, main_arg1, main_arg2, main_v8, main_v6]) :
    StableHlo.after nsOps V (Proc.devRef .tc b) = V (Proc.devRef .tc b) := by
  rw [nsOps_eq, after_append, postOps_keep _ b hb]; exact upTo10_keep V b hb

end Cert.ReferenceIdeal.Hand

end
-- ==== Proof.Ref.Head.lean ====
/-
  The reference program's first 27 host operations, read at an index for any starting contents: the input reshaped to
  the 64 × 802816 matrix of features by samples, the per-feature mean, the centred matrix, and the covariance of the
  centred data plus a small multiple of the identity. Entry (g, b·3136 + t) of the matrix is the data matrix's entry
  (g, b, t); a sum over the 802816 samples is the double sum over the 256 × 3136 blocks.
-/
import proofs.«421103_j37855841747396_3_alg».proof.Proof.Gen.ReferenceIdeal
import proofs.«421103_j37855841747396_3_alg».proof.Proof.Spec
import Idealize.ShloMosaic.Lib.StableHlo.Run
import Idealize.ShloMosaic.Lib.Pipeline.Value
import Idealize.ShloMosaic.Lib.ValueIdx
import Idealize.ShloMosaic.PureOps.Ideal.Laws
import Mathlib.Logic.Equiv.Fin.Basic
import Mathlib.Data.Fintype.BigOperators

noncomputable section

namespace Cert.ReferenceIdeal.Hand

open Cert.ReferenceIdeal Cert.ReferenceIdeal.Gen Idealize.ShloMosaic Idealize.ShloMosaic.StableHlo Idealize.ShloMosaic.ValueIdx

/-- The reference's first 27 host operations: from the input to the regularised covariance. -/
abbrev headOps' {F : FTy → Type} [FloatOps F] : List (HloOp τ sig (Elt F)) :=
  [ reshape main_arg0 main_v0 rfl shapeCasts_S64x256x56x56_S64x4x64x56x56,
    unary main_v0 main_v1 ((transpose S64x64x4x56x56 [2, 0, 1, 3, 4] · transposes_S64x4x64x56x56_S64x64x4x56x56_2_0_1_3_4) : (⟨S64x4x64x56x56, .f32⟩ : BufTy).Contents (Elt F) → (⟨S64x64x4x56x56, .f32⟩ : BufTy).Contents (Elt F)),
    reshape main_v1 main_v2 rfl shapeCasts_S64x64x4x56x56_S64x802816,
    nullary main_cst (constant S_ .f32 0x00000000#32),
    binary main_v2 main_cst main_v3 ((fun x v => Host.reduceAdd x v reducesTo_S64x802816_S64_d1 h_S_) : (⟨S64x802816, .f32⟩ : BufTy).Contents (Elt F) → (⟨S_, .f32⟩ : BufTy).Contents (Elt F) → (⟨S64, .f32⟩ : BufTy).Contents (Elt F)),
    unary main_v3 main_v4 (broadcastInDim S64x1 ![0] bcast_S64_S64x1_0 : (⟨S64, .f32⟩ : BufTy).Contents (Elt F) → (⟨S64x1, .f32⟩ : BufTy).Contents (Elt F)),
    nullary main_cst_0 (constant S_ .f32 0x49440000#32),
    unary main_cst_0 main_v5 (broadcastInDim S64x1 ![] bcast_S_S64x1 : (⟨S_, .f32⟩ : BufTy).Contents (Elt F) → (⟨S64x1, .f32⟩ : BufTy).Contents (Elt F)),
    binary main_v4 main_v5 main_v6 (Host.divf : (⟨S64x1, .f32⟩ : BufTy).Contents (Elt F) → (⟨S64x1, .f32⟩ : BufTy).Contents (Elt F) → (⟨S64x1, .f32⟩ : BufTy).Contents (Elt F)),
    unary main_v6 main_v7 (broadcastInDim S64x802816 ![0, 1] bcast_S64x1_S64x802816_0_1 : (⟨S64x1, .f32⟩ : BufTy).Contents (Elt F) → (⟨S64x802816, .f32⟩ : BufTy).Contents (Elt F)),
    binary main_v2 main_v7 main_v8 (subf : (⟨S64x802816, .f32⟩ : BufTy).Contents (Elt F) → (⟨S64x802816, .f32⟩ : BufTy).Contents (Elt F) → (⟨S64x802816, .f32⟩ : BufTy).Contents (Elt F)),
    unary main_v8 main_v9 ((transpose S802816x64 [1, 0] · transposes_S64x802816_S802816x64_1_0) : (⟨S64x802816, .f32⟩ : BufTy).Contents (Elt F) → (⟨S802816x64, .f32⟩ : BufTy).Contents (Elt F)),
    binary main_v8 main_v9 main_v10 ((fun l r => Host.dotGeneral dot_S64x802816_S802816x64_S64x64_1_0_0_1_n_n none l r) : (⟨S64x802816, .f32⟩ : BufTy).Contents (Elt F) → (⟨S802816x64, .f32⟩ : BufTy).Contents (Elt F) → (⟨S64x64, .f32⟩ : BufTy).Contents (Elt F)),
    nullary main_cst_1 (constant S_ .f32 0x49440000#32),
    unary main_cst_1 main_v11 (broadcastInDim S64x64 ![] bcast_S_S64x64 : (⟨S_, .f32⟩ : BufTy).Contents (Elt F) → (⟨S64x64, .f32⟩ : BufTy).Contents (Elt F)),
    binary main_v10 main_v11 main_v12 (Host.divf : (⟨S64x64, .f32⟩ : BufTy).Contents (Elt F) → (⟨S64x64, .f32⟩ : BufTy).Contents (Elt F) → (⟨S64x64, .f32⟩ : BufTy).Contents (Elt F)),
    nullary main_v13 (iotaInDim S64x64 32 0),
    nullary main_v14 (iotaInDim S64x64 32 1),
    nullary main_c (constantI S_ 32 0#32),
    unary main_c main_v15 (broadcastInDim S64x64 ![] bcast_S_S64x64 : (⟨S_, .i32⟩ : BufTy).Contents (Elt F) → (⟨S64x64, .i32⟩ : BufTy).Contents (Elt F)),
    binary main_v13 main_v15 main_v16 (addi : (⟨S64x64, .i32⟩ : BufTy).Contents (Elt F) → (⟨S64x64, .i32⟩ : BufTy).Contents (Elt F) → (⟨S64x64, .i32⟩ : BufTy).Contents (Elt F)),
    binary main_v16 main_v14 main_v17 (cmpi .eq : (⟨S64x64, .i32⟩ : BufTy).Contents (Elt F) → (⟨S64x64, .i32⟩ : BufTy).Contents (Elt F) → (⟨S64x64, .i1⟩ : BufTy).Contents (Elt F)),
    unary main_v17 main_v18 (uitofp .f32 : (⟨S64x64, .i1⟩ : BufTy).Contents (Elt F) → (⟨S64x64, .f32⟩ : BufTy).Contents (Elt F)),
    nullary main_cst_2 (constant S_ .f32 0x3727C5AC#32),
    unary main_cst_2 main_v19 (broadcastInDim S64x64 ![] bcast_S_S64x64 : (⟨S_, .f32⟩ : BufTy).Contents (Elt F) → (⟨S64x64, .f32⟩ : BufTy).Contents (Elt F)),
    binary main_v19 main_v18 main_v20 (mulf : (⟨S64x64, .f32⟩ : BufTy).Contents (Elt F) → (⟨S64x64, .f32⟩ : BufTy).Contents (Elt F) → (⟨S64x64, .f32⟩ : BufTy).Contents (Elt F)),
    binary main_v12 main_v20 main_v21 (addf : (⟨S64x64, .f32⟩ : BufTy).Contents (Elt F) → (⟨S64x64, .f32⟩ : BufTy).Contents (Elt F) → (⟨S64x64, .f32⟩ : BufTy).Contents (Elt F)) ]

/-! ## The layout: the input as a 64 × 802816 matrix of features by samples -/

section Layout
variable {α : Type}

/-- Splitting the sample axis: position (g, b·3136 + t) of the matrix is position (g, b / 4, b % 4, t / 56, t % 56). -/
theorem cast2_apply (y : S64x64x4x56x56.Idx → α) (g : Fin 64) (b : Fin 256) (t : Fin 3136)
    (hj : b.val * 3136 + t.val < 802816) :
    shapeCast S64x802816 y shapeCasts_S64x64x4x56x56_S64x802816 (ix2 g ⟨b.val * 3136 + t.val, hj⟩)
      = y (ix5 g (⟨b.val / 4, by have := b.isLt; omega⟩ : Fin 64) (⟨b.val % 4, by omega⟩ : Fin 4)
            (⟨t.val / 56, by have := t.isLt; omega⟩ : Fin 56) (⟨t.val % 56, by omega⟩ : Fin 56)) := by
  refine shapeCast_apply y shapeCasts_S64x64x4x56x56_S64x802816 _ _ ?_
  rewrite [Shape.rowMajor_val_five, Shape.rowMajor_val_two]
  have hg := g.isLt; have hb := b.isLt; have ht := t.isLt
  show (((g.val * 64 + b.val / 4) * 4 + b.val % 4) * 56 + t.val / 56) * 56 + t.val % 56
      = g.val * 802816 + (b.val * 3136 + t.val)
  omega

/-- The transposition brings the feature axis to the front. -/
theorem tr1_apply (y : S64x4x64x56x56.Idx → α) (g n : Fin 64) (q : Fin 4) (h w : Fin 56) :
    transpose S64x64x4x56x56 [2, 0, 1, 3, 4] y transposes_S64x4x64x56x56_S64x64x4x56x56_2_0_1_3_4 (ix5 g n q h w)
      = y (ix5 n q g h w) :=
  transpose_apply [2, 0, 1, 3, 4] y transposes_S64x4x64x56x56_S64x64x4x56x56_2_0_1_3_4 (ix5 g n q h w) (ix5 n q g h w)
    (fun a => match a with
      | ⟨0, _⟩ => rfl
      | ⟨1, _⟩ => rfl
      | ⟨2, _⟩ => rfl
      | ⟨3, _⟩ => rfl
      | ⟨4, _⟩ => rfl)

/-- Splitting the channel axis: channel q·64 + g is position (q, g). -/
theorem cast0_apply (x : S64x256x56x56.Idx → α) (n : Fin 64) (q : Fin 4) (g : Fin 64) (h w : Fin 56) :
    shapeCast S64x4x64x56x56 x shapeCasts_S64x256x56x56_S64x4x64x56x56 (ix5 n q g h w)
      = x (ix4 n (⟨q.val * 64 + g.val, by have := q.isLt; have := g.isLt; omega⟩ : Fin 256) h w) := by
  refine shapeCast_apply x shapeCasts_S64x256x56x56_S64x4x64x56x56 _ _ ?_
  rewrite [Shape.rowMajor_val_four, Shape.rowMajor_val_five]
  have hn := n.isLt; have hq := q.isLt; have hg := g.isLt; have hh := h.isLt; have hw := w.isLt
  show ((n.val * 256 + (q.val * 64 + g.val)) * 56 + h.val) * 56 + w.val
      = (((n.val * 4 + q.val) * 64 + g.val) * 56 + h.val) * 56 + w.val
  omega

end Layout

/-- The input as the matrix of features by samples. -/
def v2of (x : FVec Ideal S64x256x56x56 .f32) : FVec Ideal S64x802816 .f32 :=
  shapeCast S64x802816
    (transpose S64x64x4x56x56 [2, 0, 1, 3, 4]
      (shapeCast S64x4x64x56x56 x shapeCasts_S64x256x56x56_S64x4x64x56x56)
      transposes_S64x4x64x56x56_S64x64x4x56x56_2_0_1_3_4)
    shapeCasts_S64x64x4x56x56_S64x802816

/-- Entry (g, b·3136 + t) of that matrix is the data matrix's entry (g, b, t). -/
theorem v2of_apply (x : FVec Ideal S64x256x56x56 .f32) (g : Fin 64) (b : Fin 256) (t : Fin 3136)
    (hj : b.val * 3136 + t.val < 802816) :
    v2of x (ix2 g ⟨b.val * 3136 + t.val, hj⟩) = Cert.Spec.Xof x g b t := by
  unfold v2of
  rw [cast2_apply, tr1_apply, cast0_apply]
  rfl

/-! ## Sums over the sample axis -/

/-- A sum over the 802816 samples is the double sum over the 256 × 3136 blocks. -/
theorem sum_split {M : Type} [AddCommMonoid M] (f : Fin 802816 → M) :
    ∑ k : Fin 802816, f k
      = ∑ b : Fin 256, ∑ t : Fin 3136, f ⟨b.val * 3136 + t.val, by have := b.isLt; have := t.isLt; omega⟩ := by
  rw [← Fintype.sum_prod_type' (fun (b : Fin 256) (t : Fin 3136) =>
    f ⟨b.val * 3136 + t.val, by have := b.isLt; have := t.isLt; omega⟩)]
  rw [← Equiv.sum_comp ((finProdFinEquiv (m := 256) (n := 3136)).trans (finCongr (show 256 * 3136 = 802816 by norm_num))) f]
  refine Finset.sum_congr rfl fun p _ => congrArg f (Fin.ext ?_)
  show p.2.val + 3136 * p.1.val = p.1.val * 3136 + p.2.val
  omega

/-! ## The mean and the centred data -/

/-- The host's row sum from zero, read at a feature: the sum over all samples. -/
theorem rowsum_apply (y : FVec Ideal S64x802816 .f32) (g : Fin 64) :
    Host.reduceAdd (F := Ideal) y (constant (F := Ideal) S_ .f32 0x00000000#32) reducesTo_S64x802816_S64_d1 h_S_ (ix1 g)
      = ∑ k : Fin 802816, y (ix2 g k) := by
  simp only [Host.reduceAdd, Ideal.hostReduceAdd_def]
  rw [Ideal.hostReduceAdd_single reducesTo_S64x802816_S64_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The per-feature mean spread over the samples, as the program computes it from the matrix. -/
def meanOf (y : FVec Ideal S64x802816 .f32) : FVec Ideal S64x802816 .f32 :=
  broadcastInDim S64x802816 ![0, 1] bcast_S64x1_S64x802816_0_1
    (Host.divf (F := Ideal)
      (broadcastInDim S64x1 ![0] bcast_S64_S64x1_0
        (Host.reduceAdd (F := Ideal) y (constant (F := Ideal) S_ .f32 0x00000000#32) reducesTo_S64x802816_S64_d1 h_S_))
      (broadcastInDim S64x1 ![] bcast_S_S64x1 (constant (F := Ideal) S_ .f32 0x49440000#32)))

/-- At every sample of feature g it is the sum over the samples divided by the sample count. -/
theorem meanOf_apply (y : FVec Ideal S64x802816 .f32) (g : Fin 64) (j : Fin 802816) :
    meanOf y (ix2 g j) = Ideal.div (∑ k : Fin 802816, y (ix2 g k)) Cert.Spec.Mc := by
  unfold meanOf
  rw [broadcastInDim_apply _ bcast_S64x1_S64x802816_0_1 _ (ix2 g j) (ix2 g (0 : Fin 1)) (fun a => match a with
    | ⟨0, _⟩ => by show g.val = if (64 : Nat) = 1 then 0 else g.val; rw [if_neg (by decide)]
    | ⟨1, _⟩ => by show 0 = if (1 : Nat) = 1 then 0 else j.val; rw [if_pos rfl])]
  show Ideal.div _ _ = _
  rw [broadcastInDim_apply _ bcast_S64_S64x1_0 _ (ix2 g (0 : Fin 1)) (ix1 g) (fun a => match a with
    | ⟨0, _⟩ => by show g.val = if (64 : Nat) = 1 then 0 else g.val; rw [if_neg (by decide)])]
  rw [rowsum_apply]
  rfl

/-- The centred matrix. -/
def v8of (x : FVec Ideal S64x256x56x56 .f32) : FVec Ideal S64x802816 .f32 :=
  subf (v2of x) (meanOf (v2of x))

/-- The sum of feature g over the matrix's samples is the data matrix's double sum. -/
theorem sum_v2of (x : FVec Ideal S64x256x56x56 .f32) (g : Fin 64) :
    ∑ k : Fin 802816, v2of x (ix2 g k) = ∑ b : Fin 256, ∑ t : Fin 3136, Cert.Spec.Xof x g b t := by
  rw [sum_split]
  exact Finset.sum_congr rfl fun b _ => Finset.sum_congr rfl fun t _ => v2of_apply x g b t _

/-- Entry (g, b·3136 + t) of the centred matrix is the data less its feature's mean. -/
theorem v8of_apply (x : FVec Ideal S64x256x56x56 .f32) (g : Fin 64) (b : Fin 256) (t : Fin 3136)
    (hj : b.val * 3136 + t.val < 802816) :
    v8of x (ix2 g ⟨b.val * 3136 + t.val, hj⟩) = Cert.Spec.Xof x g b t - Cert.Spec.mu (Cert.Spec.Xof x) g := by
  show v2of x _ - meanOf (v2of x) _ = _
  rw [v2of_apply, meanOf_apply, sum_v2of]
  rfl

/-! ## The covariance -/

/-- The transposed matrix read at (sample, feature). -/
theorem tr9_apply {α : Type} (y : S64x802816.Idx → α) (k : Fin 802816) (c : Fin 64) :
    transpose S802816x64 [1, 0] y transposes_S64x802816_S802816x64_1_0 (ix2 k c) = y (ix2 c k) :=
  transpose_apply [1, 0] y transposes_S64x802816_S802816x64_1_0 (ix2 k c) (ix2 c k) (fun a => match a with
    | ⟨0, _⟩ => rfl
    | ⟨1, _⟩ => rfl)

/-! The product's operand indices, axis by axis: the left operand is read at (row, contraction index), the right at
    (contraction index, column). -/
theorem dot_lhs0 (i : S64x64.Idx) (q : dot_S64x802816_S802816x64_S64x64_1_0_0_1_n_n.contr.Idx) :
    (dot_S64x802816_S802816x64_S64x64_1_0_0_1_n_n.lhsIdx i q 0).val = (i 0).val := by
  unfold DotDims.lhsIdx
  rw [dif_neg (show ¬(0 : Fin S64x802816.rank) ∈ dot_S64x802816_S802816x64_S64x64_1_0_0_1_n_n.lhsBatch by decide), dif_pos (show (0 : Fin S64x802816.rank) ∈ dot_S64x802816_S802816x64_S64x64_1_0_0_1_n_n.lhsNonContracting by decide)]
  rfl
theorem dot_lhs1 (i : S64x64.Idx) (q : dot_S64x802816_S802816x64_S64x64_1_0_0_1_n_n.contr.Idx) :
    (dot_S64x802816_S802816x64_S64x64_1_0_0_1_n_n.lhsIdx i q 1).val = (q ⟨0, by decide⟩).val :=
  dot_S64x802816_S802816x64_S64x64_1_0_0_1_n_n.lhsIdx_val_of_single rfl i q
theorem dot_rhs0 (i : S64x64.Idx) (q : dot_S64x802816_S802816x64_S64x64_1_0_0_1_n_n.contr.Idx) :
    (dot_S64x802816_S802816x64_S64x64_1_0_0_1_n_n.rhsIdx i q 0).val = (q ⟨0, by decide⟩).val :=
  dot_S64x802816_S802816x64_S64x64_1_0_0_1_n_n.rhsIdx_val_of_single rfl i q
theorem dot_rhs1 (i : S64x64.Idx) (q : dot_S64x802816_S802816x64_S64x64_1_0_0_1_n_n.contr.Idx) :
    (dot_S64x802816_S802816x64_S64x64_1_0_0_1_n_n.rhsIdx i q 1).val = (i 1).val := by
  unfold DotDims.rhsIdx
  rw [dif_neg (show ¬(1 : Fin S802816x64.rank) ∈ dot_S64x802816_S802816x64_S64x64_1_0_0_1_n_n.rhsBatch by decide), dif_pos (show (1 : Fin S802816x64.rank) ∈ dot_S64x802816_S802816x64_S64x64_1_0_0_1_n_n.rhsNonContracting by decide)]
  rfl

/-- The host's product contracting the sample axis, read at (a, c): the sum over the samples of the products. -/
theorem dot_apply (l : FVec Ideal S64x802816 .f32) (r : FVec Ideal S802816x64 .f32) (a c : Fin 64) :
    Host.dotGeneral (F := Ideal) dot_S64x802816_S802816x64_S64x64_1_0_0_1_n_n none l r (ix2 a c) = ∑ k : Fin 802816, l (ix2 a k) * r (ix2 k c) := by
  simp only [Host.dotGeneral]
  rw [Ideal.dotGeneral_apply, ← Equiv.sum_comp (ValueIdx.contrEquiv1 dot_S64x802816_S802816x64_S64x64_1_0_0_1_n_n 802816 rfl rfl).symm]
  refine Finset.sum_congr rfl fun k _ => ?_
  have hk := ValueIdx.contrEquiv1_symm_val dot_S64x802816_S802816x64_S64x64_1_0_0_1_n_n 802816 rfl rfl k
  have el : dot_S64x802816_S802816x64_S64x64_1_0_0_1_n_n.lhsIdx (ix2 a c) ((ValueIdx.contrEquiv1 dot_S64x802816_S802816x64_S64x64_1_0_0_1_n_n 802816 rfl rfl).symm k) = ix2 a k := funext fun d => Fin.ext (by
    match d with
    | ⟨0, _⟩ => exact dot_lhs0 _ _
    | ⟨1, _⟩ => exact (dot_lhs1 _ _).trans hk)
  have er : dot_S64x802816_S802816x64_S64x64_1_0_0_1_n_n.rhsIdx (ix2 a c) ((ValueIdx.contrEquiv1 dot_S64x802816_S802816x64_S64x64_1_0_0_1_n_n 802816 rfl rfl).symm k) = ix2 k c := funext fun d => Fin.ext (by
    match d with
    | ⟨0, _⟩ => exact (dot_rhs0 _ _).trans hk
    | ⟨1, _⟩ => exact dot_rhs1 _ _)
  rw [el, er]

/-- The regularised covariance as the program computes it from the input. -/
def v21of (x : FVec Ideal S64x256x56x56 .f32) : FVec Ideal S64x64 .f32 :=
  addf
    (Host.divf (F := Ideal)
      (Host.dotGeneral (F := Ideal) dot_S64x802816_S802816x64_S64x64_1_0_0_1_n_n none (v8of x)
        (transpose S802816x64 [1, 0] (v8of x) transposes_S64x802816_S802816x64_1_0))
      (broadcastInDim S64x64 ![] bcast_S_S64x64 (constant (F := Ideal) S_ .f32 0x49440000#32)))
    (Cert.Spec.epsEye (F := Ideal))

/-- The sum of products of two centred features over the samples, block by block. -/
theorem sum_v8of (x : FVec Ideal S64x256x56x56 .f32) (a c : Fin 64) :
    ∑ k : Fin 802816, v8of x (ix2 a k) * transpose S802816x64 [1, 0] (v8of x) transposes_S64x802816_S802816x64_1_0 (ix2 k c)
      = ∑ b : Fin 256, ∑ t : Fin 3136,
          (Cert.Spec.Xof x a b t - Cert.Spec.mu (Cert.Spec.Xof x) a) * (Cert.Spec.Xof x c b t - Cert.Spec.mu (Cert.Spec.Xof x) c) := by
  rw [sum_split]
  refine Finset.sum_congr rfl fun b _ => Finset.sum_congr rfl fun t _ => ?_
  rw [tr9_apply, v8of_apply, v8of_apply]

/-- It is the covariance of the centred data plus the small multiple of the identity. -/
theorem v21of_eq (x : FVec Ideal S64x256x56x56 .f32) : v21of x = Cert.Spec.covR (Cert.Spec.Xof x) := by
  funext i
  obtain ⟨a, c, rfl⟩ : ∃ a c : Fin 64, i = ix2 a c := ⟨i 0, i 1, eq_ix2 i⟩
  show Ideal.div
        (Host.dotGeneral (F := Ideal) dot_S64x802816_S802816x64_S64x64_1_0_0_1_n_n none (v8of x)
          (transpose S802816x64 [1, 0] (v8of x) transposes_S64x802816_S802816x64_1_0) (ix2 a c))
        Cert.Spec.Mc + Cert.Spec.epsEye (F := Ideal) (ix2 a c)
      = Ideal.div (∑ b : Fin 256, ∑ t : Fin 3136,
          (Cert.Spec.Xof x a b t - Cert.Spec.mu (Cert.Spec.Xof x) a) * (Cert.Spec.Xof x c b t - Cert.Spec.mu (Cert.Spec.Xof x) c))
        Cert.Spec.Mc + Cert.Spec.epsEye (F := Ideal) (ix2 a c)
  rw [dot_apply, sum_v8of]

/-! ## The three facts about the first 27 operations, for any starting contents -/

set_option maxRecDepth 8192 in
/-- The centred-matrix buffer after the operations holds the centred matrix of the input buffer. -/
theorem head_term_v8 (V : Valuation τ sig (Elt Ideal)) :
    after (headOps' (F := Ideal)) V (Proc.devRef .tc main_v8) = v8of (V (Proc.devRef .tc main_arg0)) := by
  unfold headOps'
  after_results
  rfl

set_option maxRecDepth 8192 in
/-- The covariance buffer after the operations holds the regularised covariance of the input buffer. -/
theorem head_term_v21 (V : Valuation τ sig (Elt Ideal)) :
    after (headOps' (F := Ideal)) V (Proc.devRef .tc main_v21) = v21of (V (Proc.devRef .tc main_arg0)) := by
  unfold headOps'
  after_results
  rfl

/-- The centred data, entry by entry. -/
theorem head_v8_apply (V : Valuation τ sig (Elt Ideal)) (g : Fin 64) (b : Fin 256) (t : Fin 3136) :
    (after (headOps' (F := Ideal)) V (Proc.devRef .tc main_v8) : S64x802816.Idx → EReal)
        (ix2 g ⟨b.val * 3136 + t.val, by have := b.isLt; have := t.isLt; omega⟩)
      = Cert.Spec.Xof (V (Proc.devRef .tc main_arg0) : S64x256x56x56.Idx → EReal) g b t
        - Cert.Spec.mu (Cert.Spec.Xof (V (Proc.devRef .tc main_arg0) : S64x256x56x56.Idx → EReal)) g := by
  rw [head_term_v8]
  exact v8of_apply _ g b t _

/-- The covariance of the centred data plus the small multiple of the identity. -/
theorem head_v21_eq (V : Valuation τ sig (Elt Ideal)) :
    (after (headOps' (F := Ideal)) V (Proc.devRef .tc main_v21) : S64x64.Idx → EReal)
      = Cert.Spec.covR (Cert.Spec.Xof (V (Proc.devRef .tc main_arg0) : S64x256x56x56.Idx → EReal)) := by
  rw [head_term_v21]
  exact v21of_eq _

set_option maxRecDepth 8192 in
/-- The operations write neither the matrix argument nor the bias argument. -/
theorem head_keep (V : Valuation τ sig (Elt Ideal)) (b : Ref sig .tc) (hb : b ∈ [main_arg1, main_arg2]) :
    after (headOps' (F := Ideal)) V (Proc.devRef .tc b) = V (Proc.devRef .tc b) := by
  simp only [List.mem_cons, List.not_mem_nil, or_false] at hb
  rcases hb with rfl | rfl
  · unfold headOps'
    after_results
  · unfold headOps'
    after_results

end Cert.ReferenceIdeal.Hand

end
-- ==== Proof.Ref.Tail.lean ====
/-
  The reference program's last seven host operations, read at one output position.

  From two 64×64 matrices `L` and `R`, the centred data `Xc` (64 features by 802816 samples) and the bias column `bb`,
  the program forms `(L · R) · Xc + bb` as a 64 × 802816 matrix and lays it out as the 4-dimensional output: the matrix
  is cut into [64, 64, 4, 56, 56], its first axis (the feature) is moved behind the third, and the second and third axes
  are merged.  Output position `(n, ch, h, x)` with `ch = q·64 + g` therefore reads the matrix at row `g` and column
  `((n·4 + q)·56 + h)·56 + x = b·3136 + t`, for `b = n·4 + q` and `t = h·56 + x`.
-/
import proofs.«421103_j37855841747396_3_alg».proof.Proof.Gen.ReferenceIdeal
import proofs.«421103_j37855841747396_3_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.StableHlo Idealize.ShloMosaic.ValueIdx

/-- The last seven operations, in order. -/
abbrev tailOps' {F : FTy → Type} [FloatOps F] : List (HloOp τ sig (Elt F)) :=
  [ binary main_arg1 main_v113 main_v114 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    binary main_v114 main_v8 main_v115 ((fun l r => Host.dotGeneral dot_S64x64_S64x802816_S64x802816_1_0_0_1_n_n none l r) : (⟨S64x64, .f32⟩ : BufTy).Contents (Elt F) → (⟨S64x802816, .f32⟩ : BufTy).Contents (Elt F) → (⟨S64x802816, .f32⟩ : BufTy).Contents (Elt F)),
    unary main_arg2 main_v116 (broadcastInDim S64x802816 ![0, 1] bcast_S64x1_S64x802816_0_1 : (⟨S64x1, .f32⟩ : BufTy).Contents (Elt F) → (⟨S64x802816, .f32⟩ : BufTy).Contents (Elt F)),
    binary main_v115 main_v116 main_v117 (addf : (⟨S64x802816, .f32⟩ : BufTy).Contents (Elt F) → (⟨S64x802816, .f32⟩ : BufTy).Contents (Elt F) → (⟨S64x802816, .f32⟩ : BufTy).Contents (Elt F)),
    reshape main_v117 main_v118 rfl shapeCasts_S64x802816_S64x64x4x56x56,
    unary main_v118 main_v119 ((transpose S64x4x64x56x56 [1, 2, 0, 3, 4] · transposes_S64x64x4x56x56_S64x4x64x56x56_1_2_0_3_4) : (⟨S64x64x4x56x56, .f32⟩ : BufTy).Contents (Elt F) → (⟨S64x4x64x56x56, .f32⟩ : BufTy).Contents (Elt F)),
    reshape main_v119 main_v120 rfl shapeCasts_S64x4x64x56x56_S64x256x56x56 ]

/-! ## The stages as functions of the three operands -/

section Stages
variable {F : FTy → Type} [FloatOps F]

/-- The product of the 64×64 matrix with the data. -/
def s115 (A : (⟨S64x64, .f32⟩ : BufTy).Contents (Elt F)) (Xc : (⟨S64x802816, .f32⟩ : BufTy).Contents (Elt F)) : (⟨S64x802816, .f32⟩ : BufTy).Contents (Elt F) :=
  Host.dotGeneral dot_S64x64_S64x802816_S64x802816_1_0_0_1_n_n none A Xc
/-- The bias column spread along the samples. -/
def s116 (bb : (⟨S64x1, .f32⟩ : BufTy).Contents (Elt F)) : (⟨S64x802816, .f32⟩ : BufTy).Contents (Elt F) :=
  broadcastInDim S64x802816 ![0, 1] bcast_S64x1_S64x802816_0_1 bb
/-- Their sum. -/
def s117 (A : (⟨S64x64, .f32⟩ : BufTy).Contents (Elt F)) (Xc : (⟨S64x802816, .f32⟩ : BufTy).Contents (Elt F)) (bb : (⟨S64x1, .f32⟩ : BufTy).Contents (Elt F)) : (⟨S64x802816, .f32⟩ : BufTy).Contents (Elt F) :=
  addf (s115 A Xc) (s116 bb)
/-- Cut into [64, 64, 4, 56, 56]. -/
def s118 (A : (⟨S64x64, .f32⟩ : BufTy).Contents (Elt F)) (Xc : (⟨S64x802816, .f32⟩ : BufTy).Contents (Elt F)) (bb : (⟨S64x1, .f32⟩ : BufTy).Contents (Elt F)) : (⟨S64x64x4x56x56, .f32⟩ : BufTy).Contents (Elt F) :=
  shapeCast _ (s117 A Xc bb) shapeCasts_S64x802816_S64x64x4x56x56
/-- The feature axis moved behind the third. -/
def s119 (A : (⟨S64x64, .f32⟩ : BufTy).Contents (Elt F)) (Xc : (⟨S64x802816, .f32⟩ : BufTy).Contents (Elt F)) (bb : (⟨S64x1, .f32⟩ : BufTy).Contents (Elt F)) : (⟨S64x4x64x56x56, .f32⟩ : BufTy).Contents (Elt F) :=
  transpose S64x4x64x56x56 [1, 2, 0, 3, 4] (s118 A Xc bb) transposes_S64x64x4x56x56_S64x4x64x56x56_1_2_0_3_4
/-- The second and third axes merged: the output. -/
def s120 (A : (⟨S64x64, .f32⟩ : BufTy).Contents (Elt F)) (Xc : (⟨S64x802816, .f32⟩ : BufTy).Contents (Elt F)) (bb : (⟨S64x1, .f32⟩ : BufTy).Contents (Elt F)) : (⟨S64x256x56x56, .f32⟩ : BufTy).Contents (Elt F) :=
  shapeCast _ (s119 A Xc bb) shapeCasts_S64x4x64x56x56_S64x256x56x56

/-- What the seven operations leave in the output buffer; the first product's dimension record is the plain 64×64 one. -/
theorem after_tail (V : Valuation τ sig (Elt F)) :
    StableHlo.after (tailOps' (F := F)) V (Proc.devRef .tc main_v120)
      = s120 (Cert.Spec.mm (V (Proc.devRef .tc main_arg1)) (V (Proc.devRef .tc main_v113)))
          (V (Proc.devRef .tc main_v8)) (V (Proc.devRef .tc main_arg2)) := by
  after_results
  rfl

/-! ### The layout operations read at an index -/

/-- Position `(n, ch, h, x)` of the output is position `(n, ch / 64, ch mod 64, h, x)` before the merge. -/
abbrev idx120 (i : S64x256x56x56.Idx) : S64x4x64x56x56.Idx :=
  ix5 (i 0) (⟨(i 1).val / 64, by have h1 : (i 1).val < 256 := (i 1).isLt; omega⟩ : Fin 4)
    (⟨(i 1).val % 64, Nat.mod_lt _ (by decide)⟩ : Fin 64) (i 2) (i 3)
theorem s120_apply (A : (⟨S64x64, .f32⟩ : BufTy).Contents (Elt F)) (Xc : (⟨S64x802816, .f32⟩ : BufTy).Contents (Elt F)) (bb : (⟨S64x1, .f32⟩ : BufTy).Contents (Elt F)) (i : S64x256x56x56.Idx) :
    s120 A Xc bb i = s119 A Xc bb (idx120 i) := by
  unfold s120
  generalize s119 A Xc bb = y
  exact shapeCast_apply y shapeCasts_S64x4x64x56x56_S64x256x56x56 i (idx120 i)
    (by rewrite [Shape.rowMajor_val_five, Shape.rowMajor_val_four]; have h0 : (i 0).val < 64 := (i 0).isLt; have h1 : (i 1).val < 256 := (i 1).isLt; have h2 : (i 2).val < 56 := (i 2).isLt; have h3 : (i 3).val < 56 := (i 3).isLt; show (((((i 0).val * 4 + (i 1).val / 64) * 64 + (i 1).val % 64) * 56 + (i 2).val) * 56 + (i 3).val) = ((((i 0).val * 256 + (i 1).val) * 56 + (i 2).val) * 56 + (i 3).val); omega)

/-- The transposed array at `(n, q, g, h, x)` is the cut array at `(g, n, q, h, x)`. -/
abbrev idx119 (i : S64x4x64x56x56.Idx) : S64x64x4x56x56.Idx := ix5 (i 2) (i 0) (i 1) (i 3) (i 4)
theorem s119_apply (A : (⟨S64x64, .f32⟩ : BufTy).Contents (Elt F)) (Xc : (⟨S64x802816, .f32⟩ : BufTy).Contents (Elt F)) (bb : (⟨S64x1, .f32⟩ : BufTy).Contents (Elt F)) (i : S64x4x64x56x56.Idx) :
    s119 A Xc bb i = s118 A Xc bb (idx119 i) := by
  unfold s119
  generalize s118 A Xc bb = y
  exact transpose_apply [1, 2, 0, 3, 4] y transposes_S64x64x4x56x56_S64x4x64x56x56_1_2_0_3_4 i (idx119 i) (fun b => match b with
    | ⟨0, _⟩ => rfl
    | ⟨1, _⟩ => rfl
    | ⟨2, _⟩ => rfl
    | ⟨3, _⟩ => rfl
    | ⟨4, _⟩ => rfl)

/-- The cut array at `(g, n, q, h, x)` is the matrix at row `g`, column `((n·4 + q)·56 + h)·56 + x`. -/
abbrev idx118 (i : S64x64x4x56x56.Idx) : S64x802816.Idx :=
  ix2 (i 0) (⟨(((i 1).val * 4 + (i 2).val) * 56 + (i 3).val) * 56 + (i 4).val, by have h0 : (i 0).val < 64 := (i 0).isLt; have h1 : (i 1).val < 64 := (i 1).isLt; have h2 : (i 2).val < 4 := (i 2).isLt; have h3 : (i 3).val < 56 := (i 3).isLt; have h4 : (i 4).val < 56 := (i 4).isLt; omega⟩ : Fin 802816)
theorem s118_apply (A : (⟨S64x64, .f32⟩ : BufTy).Contents (Elt F)) (Xc : (⟨S64x802816, .f32⟩ : BufTy).Contents (Elt F)) (bb : (⟨S64x1, .f32⟩ : BufTy).Contents (Elt F)) (i : S64x64x4x56x56.Idx) :
    s118 A Xc bb i = s117 A Xc bb (idx118 i) := by
  unfold s118
  generalize s117 A Xc bb = y
  exact shapeCast_apply y shapeCasts_S64x802816_S64x64x4x56x56 i (idx118 i)
    (by rewrite [Shape.rowMajor_val_two, Shape.rowMajor_val_five]; have h0 : (i 0).val < 64 := (i 0).isLt; have h1 : (i 1).val < 64 := (i 1).isLt; have h2 : (i 2).val < 4 := (i 2).isLt; have h3 : (i 3).val < 56 := (i 3).isLt; have h4 : (i 4).val < 56 := (i 4).isLt; show (i 0).val * 802816 + ((((i 1).val * 4 + (i 2).val) * 56 + (i 3).val) * 56 + (i 4).val) = (((((i 0).val * 64 + (i 1).val) * 4 + (i 2).val) * 56 + (i 3).val) * 56 + (i 4).val); omega)

/-- The spread bias at row `r`, any column, is the bias of row `r`. -/
theorem s116_apply (bb : (⟨S64x1, .f32⟩ : BufTy).Contents (Elt F)) (r : Fin 64) (j : Fin 802816) : s116 bb (ix2 r j) = bb (ix2 r 0) := by
  unfold s116
  exact broadcastInDim_apply _ bcast_S64x1_S64x802816_0_1 bb (ix2 r j) (ix2 r 0) (fun a => match a with
    | ⟨0, _⟩ => by show r.val = if (64 : Nat) = 1 then 0 else r.val; rw [if_neg (by decide)]
    | ⟨1, _⟩ => by show 0 = if (1 : Nat) = 1 then 0 else j.val; rw [if_pos rfl])

end Stages

/-! ### The product read at an index, over the extended reals -/

theorem lhs115_0 (i : S64x802816.Idx) (q : dot_S64x64_S64x802816_S64x802816_1_0_0_1_n_n.contr.Idx) :
    (dot_S64x64_S64x802816_S64x802816_1_0_0_1_n_n.lhsIdx i q 0).val = (i 0).val := by
  unfold DotDims.lhsIdx
  rw [dif_neg (show ¬(0 : Fin S64x64.rank) ∈ dot_S64x64_S64x802816_S64x802816_1_0_0_1_n_n.lhsBatch by decide), dif_pos (show (0 : Fin S64x64.rank) ∈ dot_S64x64_S64x802816_S64x802816_1_0_0_1_n_n.lhsNonContracting by decide)]
  rfl
theorem lhs115_1 (i : S64x802816.Idx) (q : dot_S64x64_S64x802816_S64x802816_1_0_0_1_n_n.contr.Idx) :
    (dot_S64x64_S64x802816_S64x802816_1_0_0_1_n_n.lhsIdx i q 1).val = (q ⟨0, by decide⟩).val :=
  dot_S64x64_S64x802816_S64x802816_1_0_0_1_n_n.lhsIdx_val_of_single rfl i q
theorem rhs115_0 (i : S64x802816.Idx) (q : dot_S64x64_S64x802816_S64x802816_1_0_0_1_n_n.contr.Idx) :
    (dot_S64x64_S64x802816_S64x802816_1_0_0_1_n_n.rhsIdx i q 0).val = (q ⟨0, by decide⟩).val :=
  dot_S64x64_S64x802816_S64x802816_1_0_0_1_n_n.rhsIdx_val_of_single rfl i q
theorem rhs115_1 (i : S64x802816.Idx) (q : dot_S64x64_S64x802816_S64x802816_1_0_0_1_n_n.contr.Idx) :
    (dot_S64x64_S64x802816_S64x802816_1_0_0_1_n_n.rhsIdx i q 1).val = (i 1).val := by
  unfold DotDims.rhsIdx
  rw [dif_neg (show ¬(1 : Fin S64x802816.rank) ∈ dot_S64x64_S64x802816_S64x802816_1_0_0_1_n_n.rhsBatch by decide), dif_pos (show (1 : Fin S64x802816.rank) ∈ dot_S64x64_S64x802816_S64x802816_1_0_0_1_n_n.rhsNonContracting by decide)]
  rfl

/-- Entry `(r, j)` of the product is the sum over `k` of `A (r, k) · Xc (k, j)`. -/
theorem s115_apply (A : (⟨S64x64, .f32⟩ : BufTy).Contents (Elt Ideal)) (Xc : (⟨S64x802816, .f32⟩ : BufTy).Contents (Elt Ideal)) (r : Fin 64) (j : Fin 802816) :
    s115 (F := Ideal) A Xc (ix2 r j) = ∑ k : Fin 64, A (ix2 r k) * Xc (ix2 k j) := by
  unfold s115
  simp only [Host.dotGeneral]
  rw [Ideal.dotGeneral_apply, ← Equiv.sum_comp (ValueIdx.contrEquiv1 dot_S64x64_S64x802816_S64x802816_1_0_0_1_n_n 64 rfl rfl).symm]
  refine Finset.sum_congr rfl fun k _ => ?_
  have hk := ValueIdx.contrEquiv1_symm_val dot_S64x64_S64x802816_S64x802816_1_0_0_1_n_n 64 rfl rfl k
  have el : dot_S64x64_S64x802816_S64x802816_1_0_0_1_n_n.lhsIdx (ix2 r j) ((ValueIdx.contrEquiv1 dot_S64x64_S64x802816_S64x802816_1_0_0_1_n_n 64 rfl rfl).symm k) = ix2 r k := funext fun a => Fin.ext (by
    match a with
    | ⟨0, _⟩ => exact lhs115_0 _ _
    | ⟨1, _⟩ => exact (lhs115_1 _ _).trans hk)
  have er : dot_S64x64_S64x802816_S64x802816_1_0_0_1_n_n.rhsIdx (ix2 r j) ((ValueIdx.contrEquiv1 dot_S64x64_S64x802816_S64x802816_1_0_0_1_n_n 64 rfl rfl).symm k) = ix2 k j := funext fun a => Fin.ext (by
    match a with
    | ⟨0, _⟩ => exact (rhs115_0 _ _).trans hk
    | ⟨1, _⟩ => exact rhs115_1 _ _)
  rw [el, er]

/-! ### The position read through the three layout operations -/

/-- Output position `(n, ch, h, x)` reads the matrix at row `ch mod 64` and column `(n·4 + ch / 64)·3136 + h·56 + x`. -/
theorem idx_tail (i : S64x256x56x56.Idx) :
    idx118 (idx119 (idx120 i))
      = ix2 (Cert.Spec.gOf i) (⟨(Cert.Spec.bOf i).val * 3136 + (Cert.Spec.tOf i).val, by
          have hb := (Cert.Spec.bOf i).isLt; have ht := (Cert.Spec.tOf i).isLt; omega⟩ : Fin 802816) := by
  funext a
  match a with
  | ⟨0, _⟩ => rfl
  | ⟨1, _⟩ =>
    refine Fin.ext ?_
    show (((i 0).val * 4 + (i 1).val / 64) * 56 + (i 2).val) * 56 + (i 3).val = ((i 0).val * 4 + (i 1).val / 64) * 3136 + ((i 2).val * 56 + (i 3).val)
    omega

/-- The sum of the product and the spread bias, entry by entry over the extended reals. -/
theorem s117_apply (A : (⟨S64x64, .f32⟩ : BufTy).Contents (Elt Ideal)) (Xc : (⟨S64x802816, .f32⟩ : BufTy).Contents (Elt Ideal)) (bb : (⟨S64x1, .f32⟩ : BufTy).Contents (Elt Ideal)) (j : S64x802816.Idx) :
    s117 (F := Ideal) A Xc bb j = (s115 (F := Ideal) A Xc j : EReal) + (s116 (F := Ideal) bb j : EReal) := rfl

/-! ## The output at a position -/

/-- Over the extended reals, the output at `(n, ch, h, x)` is row `g` of `L · R` against column `b·3136 + t` of the data,
    plus the bias of feature `g`. -/
theorem tail_v120_apply (V : Valuation τ sig (Elt Ideal)) (i : S64x256x56x56.Idx) :
    (StableHlo.after (tailOps' (F := Ideal)) V (Proc.devRef .tc main_v120) : S64x256x56x56.Idx → EReal) i
      = (∑ k : Fin 64, (Cert.Spec.mm (F := Ideal) (V (Proc.devRef .tc main_arg1)) (V (Proc.devRef .tc main_v113)) : Cert.Spec.M64.Idx → EReal) (ix2 (Cert.Spec.gOf i) k)
            * (V (Proc.devRef .tc main_v8) : S64x802816.Idx → EReal) (ix2 k (⟨(Cert.Spec.bOf i).val * 3136 + (Cert.Spec.tOf i).val, by
                have hb := (Cert.Spec.bOf i).isLt; have ht := (Cert.Spec.tOf i).isLt; omega⟩ : Fin 802816)))
        + (V (Proc.devRef .tc main_arg2) : S64x1.Idx → EReal) (ix2 (Cert.Spec.gOf i) 0) := by
  rw [after_tail, s120_apply, s119_apply, s118_apply, idx_tail, s117_apply, s115_apply, s116_apply]

end Cert.ReferenceIdeal.Hand

end
-- ==== Proof.Ref.Val.lean ====
/-
  The reference program's value, assembled from its three stretches.

  The operations run in order: the first stretch centres the data and forms the centred covariance; the second is the
  Newton–Schulz iteration, which turns the covariance into its inverse square root and leaves the centred data, the
  weight matrix and the bias where they were; the third multiplies the weight matrix by the whitening matrix, applies
  the product to the centred data and adds the bias.  Read at a position, that is the specification's centred output.
-/
import proofs.«421103_j37855841747396_3_alg».proof.Proof.Spec
import proofs.«421103_j37855841747396_3_alg».proof.Proof.Ref.Run
import proofs.«421103_j37855841747396_3_alg».proof.Proof.Ref.HostNS
import proofs.«421103_j37855841747396_3_alg».proof.Proof.Ref.Head
import proofs.«421103_j37855841747396_3_alg».proof.Proof.Ref.Tail

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The assembly, over no program: a row of the product of the weight matrix with the whitening matrix of the
    centred covariance, applied to a column of the centred data, plus the bias, is the centred output. -/
theorem outR_of_parts (X : Cert.Spec.Data) (w w' D : FVec Ideal Cert.Spec.M64 .f32) (c : S64x802816.Idx → EReal)
    (bb bb' : FVec Ideal Cert.Spec.C64 .f32) (hw : w' = w) (hbb : bb' = bb)
    (hD : D = Cert.Spec.decorr (Cert.Spec.covR X))
    (hc : ∀ (g : Fin 64) (b : Fin 256) (t : Fin 3136) (h : b.val * 3136 + t.val < 802816),
      c (ix2 g (⟨b.val * 3136 + t.val, h⟩ : Fin 802816)) = X g b t - Cert.Spec.mu X g)
    (g : Fin 64) (b : Fin 256) (t : Fin 3136) (h : b.val * 3136 + t.val < 802816) :
    (∑ k : Fin 64, Cert.Spec.mm w' D (ix2 g k) * c (ix2 k (⟨b.val * 3136 + t.val, h⟩ : Fin 802816))) + bb' (ix2 g 0)
      = Cert.Spec.outR X w bb g b t := by
  subst hw hbb hD
  unfold Cert.Spec.outR Cert.Spec.Amat
  congr 1
  exact Finset.sum_congr rfl fun k _ => by rw [hc k b t h]

/-- The reference program's result at every position: the centred output of the specification, read off the
    three stretches of its operations in order — the statistics, the iteration, the affine map. -/
theorem refVal (V : Valuation τ sig (Elt Ideal)) (i : S64x256x56x56.Idx) :
    (StableHlo.after (RunP.ops (F := Ideal)) V (Proc.devRef .tc main_v120) : S64x256x56x56.Idx → EReal) i
      = Cert.Spec.outR (Cert.Spec.Xof (V (Proc.devRef .tc main_arg0))) (V (Proc.devRef .tc main_arg1))
          (V (Proc.devRef .tc main_arg2)) (Cert.Spec.gOf i) (Cert.Spec.bOf i) (Cert.Spec.tOf i) := by
  have e1 : (RunP.headOps (F := Ideal)) = headOps' (F := Ideal) := rfl
  have e2 : (RunP.midOps (F := Ideal)) = nsOps (F := Ideal) := rfl
  have e3 : (RunP.tailOps (F := Ideal)) = tailOps' (F := Ideal) := rfl
  rw [RunP.ops_split_mid, e1, e2, e3, after_append, after_append]
  -- the contents after the statistics, then after the iteration
  have kw : (StableHlo.after (nsOps (F := Ideal)) (StableHlo.after (headOps' (F := Ideal)) V) (Proc.devRef .tc main_arg1)
      : FVec Ideal Cert.Spec.M64 .f32) = V (Proc.devRef .tc main_arg1) :=
    (nsOps_keep (StableHlo.after (headOps' (F := Ideal)) V) main_arg1 (by simp)).trans (head_keep V main_arg1 (by simp))
  have kb : (StableHlo.after (nsOps (F := Ideal)) (StableHlo.after (headOps' (F := Ideal)) V) (Proc.devRef .tc main_arg2)
      : FVec Ideal Cert.Spec.C64 .f32) = V (Proc.devRef .tc main_arg2) :=
    (nsOps_keep (StableHlo.after (headOps' (F := Ideal)) V) main_arg2 (by simp)).trans (head_keep V main_arg2 (by simp))
  have kD : (StableHlo.after (nsOps (F := Ideal)) (StableHlo.after (headOps' (F := Ideal)) V) (Proc.devRef .tc main_v113)
      : FVec Ideal Cert.Spec.M64 .f32) = Cert.Spec.decorr (Cert.Spec.covR (Cert.Spec.Xof (V (Proc.devRef .tc main_arg0)))) :=
    (nsOps_v113 (StableHlo.after (headOps' (F := Ideal)) V)).trans (congrArg Cert.Spec.decorr (head_v21_eq V))
  have k8 : (StableHlo.after (nsOps (F := Ideal)) (StableHlo.after (headOps' (F := Ideal)) V) (Proc.devRef .tc main_v8)
      : S64x802816.Idx → EReal) = StableHlo.after (headOps' (F := Ideal)) V (Proc.devRef .tc main_v8) :=
    nsOps_keep (StableHlo.after (headOps' (F := Ideal)) V) main_v8 (by simp)
  exact (tail_v120_apply (StableHlo.after (nsOps (F := Ideal)) (StableHlo.after (headOps' (F := Ideal)) V)) i).trans
    (outR_of_parts (Cert.Spec.Xof (V (Proc.devRef .tc main_arg0))) _ _ _ _ _ _ kw kb kD
      (fun g b t h => (congrFun k8 _).trans (head_v8_apply V g b t)) (Cert.Spec.gOf i) (Cert.Spec.bOf i) (Cert.Spec.tOf i) _)

end Cert.ReferenceIdeal.Hand

end
-- ==== Proof.PreFinite.lean ====
/-
  From the precondition to the reals. The precondition states, for each of the three float inputs, that the
  absolute value of every entry is below plus infinity, reduced over all axes by conjunction, and the three results
  conjoined. Over the extended reals an entry whose absolute value `max x (-x)` is below the top element is neither
  the top nor the bottom element, hence a real number.
-/
import proofs.«421103_j37855841747396_3_alg».proof.Defs
import proofs.«421103_j37855841747396_3_alg».proof.Proof.Gen.Pre_finite_inputs
import Idealize.ShloMosaic.Lib.ReduceAll
import Idealize.ShloMosaic.Lib.ValueIdx

noncomputable section

namespace Cert.Proof.PreFin

open Idealize.ShloMosaic

/-- The scalar shape has one index. -/
instance subsingleton_scalar_idx : Subsingleton Cert.Pre_finite_inputs.S_.Idx := ⟨fun a b => funext fun d => d.elim0⟩

/-- The binary32 pattern with all exponent bits set and a zero fraction denotes plus infinity. -/
theorem inf_bits : Ideal.ofBits .f32 0x7F800000#32 = (⊤ : EReal) := by
  simp [Ideal.ofBits, Ideal.ieee]

/-- An extended real whose absolute value is strictly below the top element is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One input: if the conjunction over all entries of "|x| is below plus infinity" is one, every entry is real. -/
theorem all_real {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel)
    (x : FVec Ideal s .f32)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr h0 ValueIdx.ix0 = 1#1) :
    ∀ i, ∃ r : ℝ, x i = (r : EReal) := by
  intro i
  have e := Host.reduce_andi_all _ _ hr h0 ValueIdx.ix0 h i
  apply real_of_abs_lt_top
  rw [← inf_bits]
  exact e

/-- The precondition at one device gives: every entry of each of the three inputs is a real number. -/
theorem finite_of_pre [hPre : Cert.Pre_finite_inputs.Facts]
    (x0 : FVec Ideal Cert.Pre_finite_inputs.S64x256x56x56 .f32) (x1 : FVec Ideal Cert.Pre_finite_inputs.S64x64 .f32)
    (x2 : FVec Ideal Cert.Pre_finite_inputs.S64x1 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ValueIdx.ix0
  dsimp only [Cert.Pre_finite_inputs.fn, andi] at h'
  obtain ⟨h01, h2⟩ := IntOp.andi_eq_one.1 h'
  obtain ⟨h0, h1⟩ := IntOp.andi_eq_one.1 h01
  exact ⟨all_real _ _ _ x0 h0, all_real _ _ _ x1 h1, all_real _ _ _ x2 h2⟩

end Cert.Proof.PreFin

end
-- ==== Proof.SpecNS.lean ====
/-
  Finiteness of the whitening matrix over the extended reals.

  Every entry of the centred covariance is a real number (real data, nonzero real divisor), and its first diagonal
  entry is positive: a mean of squares plus a positive multiple of one.  Hence the Frobenius norm of the covariance is
  a positive real, the scaled starting matrix is real, each Newton–Schulz step keeps both matrices real (sums of
  products of reals), and the rescaled result, then its product with a real matrix, is real.
-/
import proofs.«421103_j37855841747396_3_alg».proof.Proof.Spec

noncomputable section

namespace Cert.Spec

open Idealize.ShloMosaic Idealize.ShloMosaic.ValueIdx

/-! ## Extended reals that are real numbers -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
/-- A finite sum of real numbers is a real number. -/
theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))
/-- A real number divided by a nonzero real number is a real number. -/
theorem IsR.div {x : EReal} {y : ℝ} (hx : IsR x) (hy : y ≠ 0) : IsR (Ideal.div x (y : EReal)) := by
  rw [Ideal.div_coe hy]; exact hx.mul (IsR.coe _)

/-! ## The constants the two programs spell -/

/-- The sample count is the real 802816. -/
theorem Mc_eq : Mc = ((802816 : ℝ) : EReal) := by
  simp [Mc, Ideal.ofBits, Ideal.ieee, -EReal.coe_mul]; norm_num
/-- The regulariser's pattern denotes the real 10995116 · 2⁻⁴⁰ (about 10⁻⁵). -/
theorem ofBits_eps : Ideal.ofBits .f32 0x3727C5AC#32 = ((10995116 * (2 : ℝ) ^ (-40 : ℤ) : ℝ) : EReal) := by
  simp [Ideal.ofBits, Ideal.ieee, -EReal.coe_mul]
/-- The pattern of three denotes the real 3. -/
theorem ofBits_three : Ideal.ofBits .f32 0x40400000#32 = ((3 : ℝ) : EReal) := by
  simp [Ideal.ofBits, Ideal.ieee, -EReal.coe_mul]; norm_num
/-- The pattern of one half denotes the real 1/2. -/
theorem ofBits_half : Ideal.ofBits .f32 0x3F000000#32 = ((1 / 2 : ℝ) : EReal) := by
  simp [Ideal.ofBits, Ideal.ieee, -EReal.coe_mul]; norm_num

/-! ## Entries of the building blocks -/

/-- A rank-zero array has one index. -/
theorem S0_idx_eq (j j' : S0.Idx) : j = j' := funext fun a => a.elim0

/-- A spread scalar at an entry is the scalar. -/
theorem bcM_apply (s : FVec Ideal S0 .f32) (i : M64.Idx) (j : S0.Idx) : bcM s i = s j :=
  congrArg s (S0_idx_eq _ j)

/-- A spread constant at an entry is what its pattern denotes. -/
theorem cM_apply (w : BitVec 32) (i : M64.Idx) : cM (F := Ideal) w i = Ideal.ofBits .f32 w := rfl

/-- An entry of the identity: the unsigned value of the one-bit comparison of the row with the column. -/
theorem eye_apply (i : M64.Idx) :
    eye (F := Ideal) i
      = (((IntOp.cmpi .eq (IntOp.addi (BitVec.ofNat 32 (i 0).val) 0#32) (BitVec.ofNat 32 (i 1).val)).toNat : ℝ) : EReal) := rfl

theorem eye_finite : Finite (eye (F := Ideal)) := fun i => ⟨_, eye_apply i⟩

theorem eye_nonneg (i : M64.Idx) : 0 ≤ eye (F := Ideal) i := by
  rw [eye_apply]; exact EReal.coe_nonneg.mpr (Nat.cast_nonneg _)

/-- The first diagonal entry of the identity is one. -/
theorem eye_zero_zero : eye (F := Ideal) (ix2 (0 : Fin 64) (0 : Fin 64)) = 1 := by
  rw [eye_apply]
  have h : (IntOp.cmpi .eq (IntOp.addi (BitVec.ofNat 32 ((ix2 (0 : Fin 64) (0 : Fin 64) : M64.Idx) 0).val) 0#32)
      (BitVec.ofNat 32 ((ix2 (0 : Fin 64) (0 : Fin 64) : M64.Idx) 1).val)).toNat = 1 := by decide
  rw [h, Nat.cast_one, EReal.coe_one]

/-- An entry of a matrix product: the sum over the contraction index of the products. -/
theorem mm_apply (l r : FVec Ideal M64 .f32) (j : M64.Idx) :
    mm l r j = ∑ k : dotMM.contr.Idx, l (dotMM.lhsIdx j k) * r (dotMM.rhsIdx j k) :=
  Ideal.dotGeneral_apply dotMM none .single l r j

/-- The Frobenius norm: the square root of the sum of the squared entries. -/
theorem nrm_apply (a : FVec Ideal M64 .f32) (j : S0.Idx) :
    nrm a j = Ideal.sqrt (∑ i : M64.Idx, a i * a i) := by
  show Ideal.sqrt (Ideal.hostReduceAdd hredM (mulf a a) (Ideal.ofBits .f32 0x00000000#32) j) = _
  rw [Ideal.hostReduceAdd_total hredM (fun b => b.elim0), Ideal.ofBits_zero_f32, zero_add]
  rfl

/-! ## Real matrices stay real -/

/-- A product of real matrices is real: each entry is a finite sum of products of reals. -/
theorem Finite_mm {l r : FVec Ideal M64 .f32} (hl : Finite l) (hr : Finite r) : Finite (mm l r) := fun j => by
  rw [mm_apply]; exact IsR.sum _ _ fun k _ => IsR.mul (hl _) (hr _)

/-- The Newton–Schulz correction of real matrices is real. -/
theorem Finite_nsT {I Y Z : FVec Ideal M64 .f32} (hI : Finite I) (hY : Finite Y) (hZ : Finite Z) :
    Finite (nsT I Y Z) := fun i => by
  show IsR (cM (F := Ideal) 0x3F000000#32 i * (cM (F := Ideal) 0x40400000#32 i * I i - mm Z Y i))
  rw [cM_apply, cM_apply, ofBits_half, ofBits_three]
  exact (IsR.coe _).mul (((IsR.coe _).mul (hI i)).sub (Finite_mm hZ hY i))

/-- One Newton–Schulz iteration keeps both matrices real. -/
theorem Finite_nsStep {I : FVec Ideal M64 .f32} {p : FVec Ideal M64 .f32 × FVec Ideal M64 .f32}
    (hI : Finite I) (h1 : Finite p.1) (h2 : Finite p.2) : Finite (nsStep I p).1 ∧ Finite (nsStep I p).2 :=
  ⟨Finite_mm h1 (Finite_nsT hI h1 h2), Finite_mm (Finite_nsT hI h1 h2) h2⟩

/-- Any number of iterations keeps both matrices real. -/
theorem Finite_iterate {I : FVec Ideal M64 .f32} (hI : Finite I) (p : FVec Ideal M64 .f32 × FVec Ideal M64 .f32)
    (h1 : Finite p.1) (h2 : Finite p.2) (n : ℕ) :
    Finite ((nsStep I)^[n] p).1 ∧ Finite ((nsStep I)^[n] p).2 := by
  induction n with
  | zero => exact ⟨h1, h2⟩
  | succ n ih => rw [Function.iterate_succ_apply']; exact Finite_nsStep hI ih.1 ih.2

/-! ## The norm of a real matrix with a nonzero entry -/

/-- The sum of the squared entries of a real matrix with a nonzero entry is a positive real. -/
theorem sumsq_pos {a : FVec Ideal M64 .f32} (ha : Finite a) (i0 : M64.Idx) (h0 : a i0 ≠ 0) :
    ∃ t : ℝ, 0 < t ∧ ∑ i : M64.Idx, a i * a i = (t : EReal) := by
  have hnn : ∀ i ∈ (Finset.univ : Finset M64.Idx), 0 ≤ a i * a i := fun i _ => by
    obtain ⟨r, hr⟩ := ha i
    rw [hr, ← EReal.coe_mul]; exact EReal.coe_nonneg.mpr (mul_self_nonneg r)
  obtain ⟨t, ht⟩ := IsR.sum Finset.univ (fun i => a i * a i) fun i _ => IsR.mul (ha i) (ha i)
  refine ⟨t, ?_, ht⟩
  have h1 : a i0 * a i0 ≤ ∑ i : M64.Idx, a i * a i := Finset.single_le_sum hnn (Finset.mem_univ i0)
  obtain ⟨r, hr⟩ := ha i0
  have hr0 : r ≠ 0 := fun h => h0 (by rw [hr, h]; rfl)
  rw [ht, hr, ← EReal.coe_mul, EReal.coe_le_coe_iff] at h1
  exact lt_of_lt_of_le (mul_self_pos.mpr hr0) h1

/-- The Frobenius norm of a real matrix with a nonzero entry is a positive real. -/
theorem nrm_pos {a : FVec Ideal M64 .f32} (ha : Finite a) (i0 : M64.Idx) (h0 : a i0 ≠ 0) :
    ∃ r : ℝ, 0 < r ∧ ∀ j, nrm a j = (r : EReal) := by
  obtain ⟨t, ht0, ht⟩ := sumsq_pos ha i0 h0
  refine ⟨Real.sqrt t, Real.sqrt_pos.mpr ht0, fun j => ?_⟩
  rw [nrm_apply, ht, Ideal.sqrt_coe, if_neg (not_lt.mpr ht0.le)]

/-- The inverse square root, computed from a real matrix with a nonzero entry and a real identity, is real. -/
theorem Finite_decorrI {I a : FVec Ideal M64 .f32} (hI : Finite I) (ha : Finite a) (i0 : M64.Idx) (h0 : a i0 ≠ 0) :
    Finite (decorrI I a) := by
  obtain ⟨r, hr0, hr⟩ := nrm_pos ha i0 h0
  have hY0 : Finite (Host.divf a (bcM (nrm a))) := fun i => by
    show IsR (Ideal.div (a i) (bcM (nrm a) i))
    rw [bcM_apply _ i (fun b => b.elim0), hr]; exact IsR.div (ha i) hr0.ne'
  have hit := (Finite_iterate hI (Host.divf a (bcM (nrm a)), I) hY0 hI 10).2
  intro i
  show IsR (Ideal.div (((nsStep I)^[10] (Host.divf a (bcM (nrm a)), I)).2 i) (bcM (Host.sqrt (nrm a)) i))
  rw [bcM_apply _ i (fun b => b.elim0)]
  show IsR (Ideal.div _ (Ideal.sqrt (nrm a _)))
  rw [hr, Ideal.sqrt_coe, if_neg (not_lt.mpr hr0.le)]
  exact IsR.div (hit i) (Real.sqrt_pos.mpr hr0).ne'

/-! ## The centred covariance: real entries, positive first diagonal entry -/

/-- The mean of real data is real. -/
theorem mu_isR (X : Data) (hX : ∀ g b t, ∃ r : ℝ, X g b t = (r : EReal)) (g : Fin 64) : IsR (mu X g) := by
  unfold mu; rw [Mc_eq]
  exact IsR.div (IsR.sum _ _ fun b _ => IsR.sum _ _ fun t _ => hX g b t) (by norm_num)

/-- An entry of the regulariser: the small constant times the identity's entry. -/
theorem epsEye_apply (i : M64.Idx) :
    epsEye (F := Ideal) i = Ideal.ofBits .f32 0x3727C5AC#32 * eye (F := Ideal) i := rfl

/-- Every entry of the centred covariance of real data is real. -/
theorem covR_finite (X : Data) (hX : ∀ g b t, ∃ r : ℝ, X g b t = (r : EReal)) : Finite (covR X) := fun i => by
  show IsR (Ideal.div (∑ b : Fin 256, ∑ t : Fin 3136, (X (i 0) b t - mu X (i 0)) * (X (i 1) b t - mu X (i 1))) Mc
    + epsEye (F := Ideal) i)
  rw [Mc_eq, epsEye_apply, ofBits_eps]
  exact IsR.add
    (IsR.div (IsR.sum _ _ fun b _ => IsR.sum _ _ fun t _ =>
      IsR.mul (IsR.sub (hX _ b t) (mu_isR X hX _)) (IsR.sub (hX _ b t) (mu_isR X hX _))) (by norm_num))
    (IsR.mul (IsR.coe _) (eye_finite i))

/-- The first diagonal entry of the centred covariance is positive: a mean of squares plus the regulariser. -/
theorem covR_pos (X : Data) (hX : ∀ g b t, ∃ r : ℝ, X g b t = (r : EReal)) :
    0 < covR X (ix2 (0 : Fin 64) (0 : Fin 64)) := by
  show 0 < Ideal.div (∑ b : Fin 256, ∑ t : Fin 3136, (X 0 b t - mu X 0) * (X 0 b t - mu X 0)) Mc
    + epsEye (F := Ideal) (ix2 (0 : Fin 64) (0 : Fin 64))
  rw [Mc_eq, epsEye_apply, ofBits_eps, eye_zero_zero, mul_one, Ideal.div_coe (by norm_num)]
  obtain ⟨m, hm⟩ := mu_isR X hX 0
  have hnn : 0 ≤ ∑ b : Fin 256, ∑ t : Fin 3136, (X 0 b t - mu X 0) * (X 0 b t - mu X 0) :=
    Finset.sum_nonneg fun b _ => Finset.sum_nonneg fun t _ => by
      obtain ⟨x, hx⟩ := hX 0 b t
      rw [hx, hm, ← EReal.coe_sub, ← EReal.coe_mul]; exact EReal.coe_nonneg.mpr (mul_self_nonneg _)
  obtain ⟨s, hs⟩ := IsR.sum Finset.univ (fun b : Fin 256 => ∑ t : Fin 3136, (X 0 b t - mu X 0) * (X 0 b t - mu X 0))
    fun b _ => IsR.sum _ _ fun t _ =>
      IsR.mul (IsR.sub (hX 0 b t) (mu_isR X hX 0)) (IsR.sub (hX 0 b t) (mu_isR X hX 0))
  rw [hs] at hnn ⊢
  rw [← EReal.coe_mul, ← EReal.coe_add]
  have hs0 : 0 ≤ s := EReal.coe_nonneg.mp hnn
  exact EReal.coe_pos.mpr (add_pos_of_nonneg_of_pos (mul_nonneg hs0 (by norm_num)) (by positivity))

/-! ## The whitening matrix -/

/-- For real data and a real weight matrix, every entry of the whitening matrix is real. -/
theorem Amat_finite (X : Data) (hX : ∀ g b t, ∃ r : ℝ, X g b t = (r : EReal)) (w : FVec Ideal M64 .f32)
    (hw : Finite w) : Finite (Amat w (covR X)) :=
  Finite_mm hw (Finite_decorrI eye_finite (covR_finite X hX) (ix2 (0 : Fin 64) (0 : Fin 64)) (covR_pos X hX).ne')

end Cert.Spec

end
-- ==== Proof.SpecAlg.lean ====
/-
  The algebra joining the two arrangements of the whitening statistics, over extended reals whose entries are real.

  With real data x, sample count N = 256 · 3136 = 802816 equal to the divisor, and μ = (Σ x) / N:
  Σ (x − μ)(x' − μ') = Σ x x' − μ' Σ x − μ Σ x' + N μ μ', hence E[(x−μ)(x'−μ')] = E[x x'] − μ μ';
  and for a real matrix A: Σ_k A_k x_k + (β − Σ_k A_k μ_k) = Σ_k A_k (x_k − μ_k) + β.
-/
import proofs.«421103_j37855841747396_3_alg».proof.Proof.SpecNS
import Mathlib.Data.EReal.Operations
import Mathlib.Algebra.BigOperators.Ring.Finset
import Mathlib.Algebra.BigOperators.Group.Finset.Basic
import Mathlib.Tactic.Ring
import Mathlib.Tactic.NormNum
import Mathlib.Tactic.FieldSimp

noncomputable section

namespace Cert.Spec

open Idealize.ShloMosaic Idealize.ShloMosaic.ValueIdx

/-- The coercion of reals into extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: the mean of products minus the product of means is the mean of centred products,
    because the number of samples is the divisor. -/
theorem real_cov (f h : Fin 256 → Fin 3136 → ℝ) :
    (∑ b : Fin 256, ∑ t : Fin 3136, f b t * h b t) * (1 / 802816 : ℝ)
        - ((∑ b : Fin 256, ∑ t : Fin 3136, f b t) * (1 / 802816 : ℝ)) * ((∑ b : Fin 256, ∑ t : Fin 3136, h b t) * (1 / 802816 : ℝ))
      = (∑ b : Fin 256, ∑ t : Fin 3136,
            (f b t - (∑ b : Fin 256, ∑ t : Fin 3136, f b t) * (1 / 802816 : ℝ))
              * (h b t - (∑ b : Fin 256, ∑ t : Fin 3136, h b t) * (1 / 802816 : ℝ))) * (1 / 802816 : ℝ) := by
  generalize hS : (∑ b : Fin 256, ∑ t : Fin 3136, f b t) = S
  generalize hT : (∑ b : Fin 256, ∑ t : Fin 3136, h b t) = T
  have key : ∀ b t, (f b t - S * (1 / 802816 : ℝ)) * (h b t - T * (1 / 802816 : ℝ))
      = f b t * h b t - (T * (1 / 802816 : ℝ)) * f b t - (S * (1 / 802816 : ℝ)) * h b t
        + (S * (1 / 802816 : ℝ)) * (T * (1 / 802816 : ℝ)) := by
    intro b t; ring
  simp only [key, Finset.sum_add_distrib, Finset.sum_sub_distrib, ← Finset.mul_sum, hS, hT,
    Finset.sum_const, Finset.card_univ, Fintype.card_fin, nsmul_eq_mul]
  push_cast
  ring

/-- The mean of real data is the real mean. -/
theorem mu_coe (x : Fin 64 → Fin 256 → Fin 3136 → ℝ) (g : Fin 64) :
    mu (fun g b t => ((x g b t : ℝ) : EReal)) g
      = (((∑ b : Fin 256, ∑ t : Fin 3136, x g b t) * (1 / 802816 : ℝ) : ℝ) : EReal) := by
  unfold mu
  rw [Mc_eq, Ideal.div_coe (by norm_num)]
  simp only [← coe_sum, ← EReal.coe_mul]

/-- The two covariances agree on real data. -/
theorem cov_eq (X : Data) (hX : ∀ g b t, ∃ r : ℝ, X g b t = (r : EReal)) : covK X = covR X := by
  choose x hx using hX
  obtain rfl : X = fun g b t => ((x g b t : ℝ) : EReal) := by
    funext g b t; exact hx g b t
  funext i
  have h0 := mu_coe x (i 0)
  have h1 := mu_coe x (i 1)
  unfold covK covR
  congr 1
  rw [h0, h1, Mc_eq, Ideal.div_coe (by norm_num), Ideal.div_coe (by norm_num)]
  simp only [← EReal.coe_mul, ← EReal.coe_sub, ← coe_sum]
  exact congrArg _ (real_cov (x (i 0)) (x (i 1)))

/-- The two outputs agree on real data, given a real bias and a real affine matrix. -/
theorem out_eq (X : Data) (hX : ∀ g b t, ∃ r : ℝ, X g b t = (r : EReal)) (w : FVec Ideal M64 .f32)
    (bb : FVec Ideal C64 .f32) (hb : Finite bb) (hA : Finite (Amat w (covR X)))
    (g : Fin 64) (b : Fin 256) (t : Fin 3136) : outK X w bb g b t = outR X w bb g b t := by
  unfold outK outR
  rw [cov_eq X hX]
  choose x hx using hX
  obtain rfl : X = fun g b t => ((x g b t : ℝ) : EReal) := by
    funext g b t; exact hx g b t
  choose a ha using hA
  choose β hβ using hb
  simp only [ha, hβ, mu_coe, ← EReal.coe_mul, ← EReal.coe_sub, ← coe_sum, ← EReal.coe_add]
  congr 1
  simp only [mul_sub, Finset.sum_sub_distrib]
  ring

end Cert.Spec

end
-- ==== Proof.Final.lean ====
/-
  The last two claims of the certificate, assembled.

  The reference's frame is its run with the result dropped. For the value claim both programs are read over the
  extended reals from memories that agree on the three arguments: the kernel's result array is `outK` of the
  arguments position by position (the mean folded into the bias, the covariance from uncentred sums), the reference's
  is `outR` (centred data). The precondition makes every entry of the three arguments a real number; then the
  affine matrix is real and the two outputs are equal.
-/
import proofs.«421103_j37855841747396_3_alg».proof.Defs
import proofs.«421103_j37855841747396_3_alg».proof.Proof.KI.Frame
import proofs.«421103_j37855841747396_3_alg».proof.Proof.KI.Value
import proofs.«421103_j37855841747396_3_alg».proof.Proof.Ref.Run
import proofs.«421103_j37855841747396_3_alg».proof.Proof.Ref.Val
import proofs.«421103_j37855841747396_3_alg».proof.Proof.PreFinite
import proofs.«421103_j37855841747396_3_alg».proof.Proof.SpecAlg
import proofs.«421103_j37855841747396_3_alg».proof.Proof.Gen.KernelIdeal
import proofs.«421103_j37855841747396_3_alg».proof.Proof.Gen.ReferenceIdeal
import proofs.«421103_j37855841747396_3_alg».proof.Proof.Gen.Pre_finite_inputs

noncomputable section

namespace Cert.Proof.Final

open Idealize.ShloMosaic Idealize.ShloMosaic.TcCoe Idealize.SL.Sem

/-- The reference runs and its three argument arrays end unchanged: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.RunP.run (F := Ideal) m ρ)

/-- Over the extended reals, from memories that agree on the three arguments and whose entries are real numbers,
    the two programs end with one result: the kernel's array is `outK` of the arguments position by position, the
    reference's is `outR`, and on real data with a real affine matrix the two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c i => Cert.Spec.outK
      (Cert.Spec.Xof (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.Spec.gOf i) (Cert.Spec.bOf i) (Cert.Spec.tOf i), ?_, ?_⟩
  · exact (θ_run Cert.KernelIdeal.defs _ _).mono (fun r h c =>
      ⟨(h c _ (Cert.KernelIdeal.Fr.mem_uc Cert.KernelIdeal.main_v116 (by decide))).trans
          (funext fun i => Cert.KernelIdeal.Fr.kernelVal m ρ c i),
       (h c _ (Cert.KernelIdeal.Fr.mem_uc Cert.KernelIdeal.main_arg0 (by decide))).trans (Cert.KernelIdeal.Fr.W7_main_arg0 m ρ c),
       (h c _ (Cert.KernelIdeal.Fr.mem_uc Cert.KernelIdeal.main_arg1 (by decide))).trans (Cert.KernelIdeal.Fr.W7_main_arg1 m ρ c),
       (h c _ (Cert.KernelIdeal.Fr.mem_uc Cert.KernelIdeal.main_arg2 (by decide))).trans (Cert.KernelIdeal.Fr.W7_main_arg2 m ρ c)⟩)
      (Cert.KernelIdeal.Fr.run_all (F := Ideal) m ρ)
  · refine (θ_run Cert.ReferenceIdeal.defs _ _).mono (fun r h c => ⟨(h c).1.trans ?_, (h c).2⟩)
      (Cert.ReferenceIdeal.RunP.run (F := Ideal) m' ρ')
    funext i
    refine (Cert.ReferenceIdeal.Hand.refVal (StableHlo.launchContents m' c) i).trans ?_
    show Cert.Spec.outR
        (Cert.Spec.Xof (m' ((c.tc : Thread Cert.ReferenceIdeal.nD Cert.ReferenceIdeal.τ).loc Cert.ReferenceIdeal.main_arg0)))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (Cert.Spec.gOf i) (Cert.Spec.bOf i) (Cert.Spec.tOf i) = _
    rw [(hagree c).1, (hagree c).2.1, (hagree c).2.2]
    obtain ⟨h0, h1, h2⟩ := Cert.Proof.PreFin.finite_of_pre _ _ _ (hpre c)
    have hX : ∀ g b t, ∃ r : ℝ, Cert.Spec.Xof
        (m ((c.tc : Thread Cert.KernelIdeal.nD Cert.KernelIdeal.τ).loc Cert.KernelIdeal.main_arg0)) g b t = (r : EReal) :=
      fun g b t => h0 _
    exact (Cert.Spec.out_eq _ hX _ _ h2 (Cert.Spec.Amat_finite _ hX _ h1) _ _ _).symm

end Cert.Proof.Final

end
-- ==== Proof.lean ====
/-
  The certificate of a whitening layer written two ways.

  Both programs take x : f32[64, 256, 56, 56], w : f32[64, 64], b : f32[64, 1], view x as 64 features by 802816 samples
  (channel = 4 groups of 64 features), and return (w · D) · (x − μ) + b, where μ is the per-feature mean, Σ the covariance
  plus 1e-5 times the identity, and D = Σ^(-1/2) computed by ten Newton–Schulz rounds from Σ / ‖Σ‖.

  The kernel program makes two launches. The first accumulates, per half of the samples, the feature sums and the sums of
  outer products (sixteen grid points, the accumulators reset at the start of each half and written back at its end);
  the host adds the halves, forms μ and Σ = E[x xᵀ] − μ μᵀ + ε I, runs the rounds, and folds the mean into the bias:
  bias' = b − (w·D)·μ. The second launch applies (w·D)·x + bias' to each block of eight sample rows. The reference centres
  the data first and uses Σ = E[(x−μ)(x−μ)ᵀ] + ε I.

  Frames: each kernel program is run as a chain of host stretches and the two launches (`Fr.run_all`), every unscoped
  buffer named at every boundary; no operation and no launch writes an argument. The reference is a straight line of host
  operations. Equality over the extended reals, under finite inputs: the two covariances agree because the number of
  samples is the divisor; the rounds are one function of Σ in both programs; the outputs agree by distributivity, every
  entry of w·D being finite because Σ has a positive diagonal entry, hence a nonzero norm. The idealization rewrote no
  operation, so `preserves` has nothing to state.
-/
import proofs.«421103_j37855841747396_3_alg».proof.Defs
import proofs.«421103_j37855841747396_3_alg».proof.Proof.Gen.Kernel
import proofs.«421103_j37855841747396_3_alg».proof.Proof.Gen.KernelIdeal
import proofs.«421103_j37855841747396_3_alg».proof.Proof.Gen.ReferenceIdeal
import proofs.«421103_j37855841747396_3_alg».proof.Proof.Gen.Pre_finite_inputs
import proofs.«421103_j37855841747396_3_alg».proof.Proof.K.Frame
import proofs.«421103_j37855841747396_3_alg».proof.Proof.KI.Frame
import proofs.«421103_j37855841747396_3_alg».proof.Proof.Final

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.Proof.Final.frame_ri,
  trivial,
  Cert.Proof.Final.algebraic⟩

end Cert.Proof

end
